-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x133 : Shape := ⟨2, ![50000, 133]⟩
abbrev S800000x14 : Shape := ⟨2, ![800000, 14]⟩
abbrev S147x128 : Shape := ⟨2, ![147, 128]⟩
abbrev S128x128 : Shape := ⟨2, ![128, 128]⟩
abbrev S261x128 : Shape := ⟨2, ![261, 128]⟩
abbrev S2x800000 : Shape := ⟨2, ![2, 800000]⟩
abbrev S800000 : Shape := ⟨1, ![800000]⟩
abbrev S50000 : Shape := ⟨1, ![50000]⟩
abbrev S_ : Shape := ⟨0, ![]⟩

class Facts : Prop where
  bcast_S_S50000x133 : S_.BroadcastsInDim S50000x133 (![] : Fin 0 → Fin S50000x133.rank)
  reducesTo_S50000x133_S_d0_1 : S50000x133.ReducesTo [0, 1] S_
  h_S_ : 0 < S_.numel
  bcast_S_S800000x14 : S_.BroadcastsInDim S800000x14 (![] : Fin 0 → Fin S800000x14.rank)
  reducesTo_S800000x14_S_d0_1 : S800000x14.ReducesTo [0, 1] S_
  bcast_S_S147x128 : S_.BroadcastsInDim S147x128 (![] : Fin 0 → Fin S147x128.rank)
  reducesTo_S147x128_S_d0_1 : S147x128.ReducesTo [0, 1] S_
  bcast_S_S128x128 : S_.BroadcastsInDim S128x128 (![] : Fin 0 → Fin S128x128.rank)
  reducesTo_S128x128_S_d0_1 : S128x128.ReducesTo [0, 1] S_
  bcast_S_S261x128 : S_.BroadcastsInDim S261x128 (![] : Fin 0 → Fin S261x128.rank)
  reducesTo_S261x128_S_d0_1 : S261x128.ReducesTo [0, 1] S_

variable [Facts]

def fn_part1 {F : FTy → Type} [FloatOps F] (main_arg4 : FVec F S261x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S261x128 .f32 := Host.absf main_arg4
  let main_cst_6 : FVec F S_ .f32 := constant S_ .f32 0x7F800000#32
  let main_v20 : FVec F S261x128 .f32 := broadcastInDim S261x128 ![] bcast_S_S261x128 main_cst_6
  let main_v21 : IVec S261x128 1 := cmpf .olt main_v19 main_v20
  let main_c_7 : IVec S_ 1 := constantI S_ 1 1#1
  let main_v22 : IVec S_ 1 := (fun x v => Host.reduce IntOp.andi x v reducesTo_S261x128_S_d0_1 h_S_) main_v21 main_c_7
  let main_v23 : IVec S_ 1 := andi main_v18 main_v22
  main_v23

def fn {F : FTy → Type} [FloatOps F] (main_arg0 : FVec F S50000x133 .f32) (main_arg1 : FVec F S800000x14 .f32) (main_arg2 : FVec F S147x128 .f32) (main_arg3 : FVec F S128x128 .f32) (main_arg4 : FVec F S261x128 .f32) (main_arg5 : IVec S2x800000 32) (main_arg6 : IVec S800000 32) (main_arg7 : IVec S50000 32) : IVec S_ 1 :=
  let main_v0 : FVec F S50000x133 .f32 := Host.absf main_arg0
  let main_cst : FVec F S_ .f32 := constant S_ .f32 0x7F800000#32
  let main_v1 : FVec F S50000x133 .f32 := broadcastInDim S50000x133 ![] bcast_S_S50000x133 main_cst
  let main_v2 : IVec S50000x133 1 := cmpf .olt main_v0 main_v1
  let main_c : IVec S_ 1 := constantI S_ 1 1#1
  let main_v3 : IVec S_ 1 := (fun x v => Host.reduce IntOp.andi x v reducesTo_S50000x133_S_d0_1 h_S_) main_v2 main_c
  let main_v4 : FVec F S800000x14 .f32 := Host.absf main_arg1
  let main_cst_0 : FVec F S_ .f32 := constant S_ .f32 0x7F800000#32
  let main_v5 : FVec F S800000x14 .f32 := broadcastInDim S800000x14 ![] bcast_S_S800000x14 main_cst_0
  let main_v6 : IVec S800000x14 1 := cmpf .olt main_v4 main_v5
  let main_c_1 : IVec S_ 1 := constantI S_ 1 1#1
  let main_v7 : IVec S_ 1 := (fun x v => Host.reduce IntOp.andi x v reducesTo_S800000x14_S_d0_1 h_S_) main_v6 main_c_1
  let main_v8 : IVec S_ 1 := andi main_v3 main_v7
  let main_v9 : FVec F S147x128 .f32 := Host.absf main_arg2
  let main_cst_2 : FVec F S_ .f32 := constant S_ .f32 0x7F800000#32
  let main_v10 : FVec F S147x128 .f32 := broadcastInDim S147x128 ![] bcast_S_S147x128 main_cst_2
  let main_v11 : IVec S147x128 1 := cmpf .olt main_v9 main_v10
  let main_c_3 : IVec S_ 1 := constantI S_ 1 1#1
  let main_v12 : IVec S_ 1 := (fun x v => Host.reduce IntOp.andi x v reducesTo_S147x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x133 : Shape := ⟨2, ![50000, 133]⟩
abbrev S800000x14 : Shape := ⟨2, ![800000, 14]⟩
abbrev S147x128 : Shape := ⟨2, ![147, 128]⟩
abbrev S128x128 : Shape := ⟨2, ![128, 128]⟩
abbrev S261x128 : Shape := ⟨2, ![261, 128]⟩
abbrev S2x800000 : Shape := ⟨2, ![2, 800000]⟩
abbrev S800000 : Shape := ⟨1, ![800000]⟩
abbrev S50000 : Shape := ⟨1, ![50000]⟩
abbrev S1x800000 : Shape := ⟨2, ![1, 800000]⟩
abbrev S_ : Shape := ⟨0, ![]⟩
abbrev S800000x1 : Shape := ⟨2, ![800000, 1]⟩
abbrev S800000x133 : Shape := ⟨2, ![800000, 133]⟩
abbrev S133x128 : Shape := ⟨2, ![133, 128]⟩
abbrev S14x128 : Shape := ⟨2, ![14, 128]⟩
abbrev S800000x128 : Shape := ⟨2, ![800000, 128]⟩
abbrev S3200x133 : Shape := ⟨2, ![3200, 133]⟩
abbrev S3200x14 : Shape := ⟨2, ![3200, 14]⟩
abbrev S3200x128 : Shape := ⟨2, ![3200, 128]⟩
abbrev S50000x128 : Shape := ⟨2, ![50000, 128]⟩
abbrev S5000x133 : Shape := ⟨2, ![5000, 133]⟩
abbrev S5000x128 : Shape := ⟨2, ![5000, 128]⟩
abbrev S50048x128 : Shape := ⟨2, ![50048, 128]⟩
abbrev S50048 : Shape := ⟨1, ![50048]⟩
abbrev S1x50048 : Shape := ⟨2, ![1, 50048]⟩
abbrev S512 : Shape := ⟨1, ![512]⟩
abbrev S512x1 : Shape := ⟨2, ![512, 1]⟩
abbrev S512x128 : Shape := ⟨2, ![512, 128]⟩
abbrev S2944x128 : Shape := ⟨2, ![2944, 128]⟩
abbrev S1x2944 : Shape := ⟨2, ![1, 2944]⟩
abbrev S512x2944 : Shape := ⟨2, ![512, 2944]⟩

abbrev nBuf : Space → Nat
  | .hbm => 87
  | .vmem => 40
  | .smem => 0
  | _ => 0

abbrev bufTy : (tb : Table) → Fin (tcTables nBuf tb) → BufTy
  | .hbm, ⟨0, _⟩ => ⟨S50000x133, .f32⟩
  | .hbm, ⟨1, _⟩ => ⟨S800000x14, .f32⟩
  | .hbm, ⟨2, _⟩ => ⟨S147x128, .f32⟩
  | .hbm, ⟨3, _⟩ => ⟨S128x128, .f32⟩
  | .hbm, ⟨4, _⟩ => ⟨S261x128, .f32⟩
  | .hbm, ⟨5, _⟩ => ⟨S2x800000, .i32⟩
  | .hbm, ⟨6, _⟩ => ⟨S800000, .i32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x133, .f32⟩
  | .hbm, ⟨21, _⟩ => ⟨S133x128, .f32⟩
  | .hbm, ⟨22, _⟩ => ⟨S14x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S133x128, .f32⟩
  | .hbm, ⟨75, _⟩ => ⟨S128x128, .f32⟩
  | .hbm, ⟨76, _⟩ => ⟨S50000x128, .f32⟩
  | .hbm, ⟨77, _⟩ => ⟨S_, .i32⟩
  | .hbm, ⟨78, _⟩ => ⟨S_, .f32⟩
  | .hbm, ⟨79, _⟩ => ⟨S50048x128, .f32⟩
  | .hbm, ⟨80, _⟩ => ⟨S_, .i32⟩
  | .hbm, ⟨81, _⟩ => ⟨S_, .i32⟩
  | .hbm, ⟨82, _⟩ => ⟨S50048, .i32⟩
  | .hbm, ⟨83, _⟩ => ⟨S1x50048, .i32⟩
  | .hbm, ⟨84, _⟩ => ⟨S512, .i32⟩
  | .hbm, ⟨85, _⟩ => ⟨S512x1, .i32⟩
  | .hbm, ⟨86, _⟩ => ⟨S512x128, .f32⟩
  | .local _ .vmem, ⟨0, _⟩ => ⟨S3200x133, .f32⟩
  | .local _ .vmem, ⟨1, _⟩ => ⟨S3200x133, .f32⟩
  | .local _ .vmem, ⟨2, _⟩ => ⟨S3200x14, .f32⟩
  | .local _ .vmem, ⟨3, _⟩ => ⟨S3200x14, .f32⟩
  | .local _ .vmem, ⟨4, _⟩ => ⟨S133x128, .f32⟩
  | .local _ .vmem, ⟨5, _⟩ => ⟨S14x128, .f32⟩
  | .local _ .vmem, ⟨6, _⟩ => ⟨S3200x128, .f32⟩
  | .local _ .vmem, ⟨7, _⟩ => ⟨S3200x128, .f32⟩
  | .local _ .vmem, ⟨8, _⟩ => ⟨S3200x128, .f32⟩
  | .local _ .vmem, ⟨9, _⟩ => ⟨S3200x128, .f32⟩
  | .local _ .vmem, ⟨10, _⟩ => ⟨S3200x128, .f32⟩
  | .local _ .vmem, ⟨11, _⟩ => ⟨S3200x128, .f32⟩
  | .local _ .vmem, ⟨12, _⟩ => ⟨S3200x128, .f32⟩
  | .local _ .vmem, ⟨13, _⟩ => ⟨S3200x128, .f32⟩
  | .local _ .vmem, ⟨14, _⟩ => ⟨S128x128, .f32⟩
  | .local _ .vmem, ⟨15, _⟩ => ⟨S3200x128, .f32⟩
  | .local _ .vmem, ⟨16, _⟩ => ⟨S3200x128, .f32⟩
  | .local _ .vmem, ⟨17, _⟩ => ⟨S3200x128, .f32⟩
  | .local _ .vmem, ⟨18, _⟩ => ⟨S3200x128, .f32⟩
  | .local _ .vmem, ⟨19, _⟩ => ⟨S3200x128, .f32⟩
  | .local _ .vmem, ⟨20, _⟩ => ⟨S3200x128, .f32⟩
  | .local _ .vmem, ⟨21, _⟩ => ⟨S3200x128, .f32⟩
  | .local _ .vmem, ⟨22, _⟩ => ⟨S3200x128, .f32⟩
  | .local _ .vmem, ⟨23, _⟩ => ⟨S128x128, .f32⟩
  | .local _ .vmem, ⟨24, _⟩ => ⟨S3200x128, .f32⟩
  | .local _ .vmem, ⟨25, _⟩ => ⟨S3200x128, .f32⟩
  | .local _ .vmem, ⟨26, _⟩ => ⟨S5000x133, .f32⟩
  | .local _ .vmem, ⟨27, _⟩ => ⟨S5000x133, .f32⟩
  | .local _ .vmem, ⟨28, _⟩ => ⟨S5000x128, .f32⟩
  | .local _ .vmem, ⟨29, _⟩ => ⟨S5000x128, .f32⟩
  | .local _ .vmem, ⟨30, _⟩ => ⟨S133x128, .f32⟩
  | .local _ .vmem, ⟨31, _⟩ => ⟨S128x128, .f32⟩
  | .local _ .vmem, ⟨32, _⟩ => ⟨S5000x128, .f32⟩
  | .local _ .vmem, ⟨33, _⟩ => ⟨S5000x128, .f32⟩
  | .local _ .vmem, ⟨34, _⟩ => ⟨S2944x128, .f32⟩
  | .local _ .vmem, ⟨35, _⟩ => ⟨S2944x128, .f32⟩
  | .local _ .vmem, ⟨36, _⟩ => ⟨S1x2944, .i32⟩
  | .local _ .vmem, ⟨37, _⟩ => ⟨S1x2944, .i32⟩
  | .local _ .vmem, ⟨38, _⟩ => ⟨S512x1, .i32⟩
  | .local _ .vmem, ⟨39, _⟩ => ⟨S512x128, .f32⟩
  | _, _ => ⟨S50000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_8 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_call0_v0 : Ref sig .tc := ⟨.hbm, 78, rfl⟩
abbrev main_v56 : Ref sig .tc := ⟨.hbm, 79, rfl⟩
abbrev main_c_12 : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x133 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x14 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S133x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S14x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S3200x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3200x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3200x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3200x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S3200x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S133x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![17], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2944x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x2944 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x1 .i32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S147x128_S133x128_0_0 : S147x128.Slices ![0, 0] S133x128
  slices_S147x128_S14x128_133_0 : S147x128.Slices ![133, 0] S14x128
  inb_S3200x133_S3200x133_0_0 : ∀ a, (![0, 0] : Fin 2 → Nat) a + S3200x133.size a ≤ S3200x133.size a
  h_S3200x133 : 0 < S3200x133.numel
  shapeCasts_S3200x133_S3200x133 : S3200x133.ShapeCasts S3200x133
  bitsLt_bf16_f32 : FTy.bits .bf16 < FTy.bits .f32
  inb_S3200x14_S3200x14_0_0 : ∀ a, (![0, 0] : Fin 2 → Nat) a + S3200x14.size a ≤ S3200x14.size a
  h_S3200x14 : 0 < S3200x14.numel
  inb_S133x128_S133x128_0_0 : ∀ a, (![0, 0] : Fin 2 → Nat) a + S133x128.size a ≤ S133x128.size a
  h_S133x128 : 0 < S133x128.numel
  shapeCasts_S133x128_S133x128 : S133x128.ShapeCasts S133x128
  inb_S14x128_S14x128_0_0 : ∀ a, (![0, 0] : Fin 2 → Nat) a + S14x128.size a ≤ S14x128.size a
  h_S14x128 : 0 < S14x128.numel
  shapeCasts_S14x128_S14x128 : S14x128.ShapeCasts S14x128
  inb_S3200x128_S3200x128_0_0 : ∀ a, (![0, 0] : Fin 2 → Nat) a + S3200x128.size a ≤ S3200x128.size a
  h_S3200x128 : 0 < S3200x128.numel
  bcast_S_S50000x128 : S_.BroadcastsInDim S50000x128 (![] : Fin 0 → Fin S50000x128.rank)
  shapeCasts_S3200x128_S3200x128 : S3200x128.ShapeCasts S3200x128
  inb_S128x128_S128x128_0_0 : ∀ a, (![0, 0] : Fin 2 → Nat) a + S128x128.size a ≤ S128x128.size a
  h_S128x128 : 0 < S128x128.numel
  slices_S261x128_S133x128_0_0 : S261x128.Slices ![0, 0] S133x128
  slices_S261x128_S128x128_133_0 : S261x128.Slices ![133, 0] S128x128
  inb_S5000x133_S5000x133_0_0 : ∀ a, (![0, 0] : Fin 2 → Nat) a + S5000x133.size a ≤ S5000x133.size a
  h_S5000x133 : 0 < S5000x133.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S128x128_S128x128 : S128x128.ShapeCasts S128x128
  pads_S50000x128_S50048x128_0480_000 : S50000x128.Pads (![0, 0] : Fin 2 → Nat) ![48, 0] ![0, 0] S50048x128
  h_S_ : 0 < S_.numel
  pads_S50000_S50048_0480 : S50000.Pads (![0] : Fin 1 → Nat) ![48] ![0] S50048
  shapeCasts_S50048_S1x50048 : S50048.ShapeCasts S1x50048
  shapeCasts_S512_S512x1 : S512.ShapeCasts S512x1
  inb_S512x128_S512x128_0_0 : ∀ a, (![0, 0] : Fin 2 → Nat) a + S512x128.size a ≤ S512x128.size a
  h_S512x128 : 0 < S512x128.numel
  inb_S2944x128_S2944x128_0_0 : ∀ a, (![0, 0] : Fin 2 → Nat) a + S2944x128.size a ≤ S2944x128.size a
  h_S2944x128 : 0 < S2944x128.numel
  shapeCasts_S2944x128_S2944x128 : S2944x128.ShapeCasts S2944x128
  inb_S1x2944_S1x2944_0_0 : ∀ a, (![0, 0] : Fin 2 → Nat) a + S1x2944.size a ≤ S1x2944.size a
  h_S1x2944 : 0 < S1x2944.numel
  shapeCasts_S1x2944_S1x2944 : S1x2944.ShapeCasts S1x2944
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2944 : S512x1.Broadcasts S512x2944
  broadcasts_S1x2944_S512x2944 : S1x2944.Broadcasts S512x2944
  natLt_1_32 : 1 < 32
  shapeCasts_S512x128_S512x128 : S512x128.ShapeCasts S512x128
  gather_S50000x133_S800000x1_S800000x133_1_0_n_n_0_1_1133_wf : GatherDims.WF S50000x133 S800000x1 S800000x133 [1] [0] [] [0] [] 1 ![1, 133]
  dot_S3200x133_S133x128_S3200x128_1_0_0_1_n_n_wf : DotDims.WF S3200x133 S133x128 S3200x128 [1] [0] [0] [1] [] []
  dot_S3200x14_S14x128_S3200x128_1_0_0_1_n_n_wf : DotDims.WF S3200x14 S14x128 S3200x128 [1] [0] [0] [1] [] []
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  gather_S800000x128_S800000x1_S800000x128_1_0_n_n_0_1_1128_wf : GatherDims.WF S800000x128 S800000x1 S800000x128 [1] [0] [] [0] [] 1 ![1, 128]
  dot_S3200x128_S128x128_S3200x128_1_0_0_1_n_n_wf : DotDims.WF S3200x128 S128x128 S3200x128 [1] [0] [0] [1] [] []
  dot_S5000x133_S133x128_S5000x128_1_0_0_1_n_n_wf : DotDims.WF S5000x133 S133x128 S5000x128 [1] [0] [0] [1] [] []
  dot_S5000x128_S128x128_S5000x128_1_0_0_1_n_n_wf : DotDims.WF S5000x128 S128x128 S5000x128 [1] [0] [0] [1] [] []
  dot_S512x2944_S2944x128_S512x128_1_0_0_1_n_n_wf : DotDims.WF S512x2944 S2944x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x133.size a ≤ S800000x133.size a
  hwx0_0 : ∀ i : grid0.Coords, EltTy.bits .f32 = 32 ∨ (Rect.block (s := S800000x133) S3200x133.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x14.size a ≤ S800000x14.size a
  hwx0_1 : ∀ i : grid0.Coords, EltTy.bits .f32 = 32 ∨ (Rect.block (s := S800000x14) S3200x14.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S133x128.size a ≤ S133x128.size a
  hwx0_2 : ∀ i : grid0.Coords, EltTy.bits .f32 = 32 ∨ (Rect.block (s := S133x128) S133x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S14x128.size a ≤ S14x128.size a
  hwx0_3 : ∀ i : grid0.Coords, EltTy.bits .f32 = 32 ∨ (Rect.block (s := S14x128) S14x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3200x128.size a ≤ S800000x128.size a
  hwx0_4 : ∀ i : grid0.Coords, EltTy.bits .f32 = 32 ∨ (Rect.block (s := S800000x128) S3200x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x128.size a ≤ S800000x128.size a
  hwx1_0 : ∀ i : grid1.Coords, EltTy.bits .f32 = 32 ∨ (Rect.block (s := S800000x128) S3200x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x128.size a ≤ S800000x128.size a
  hwx1_1 : ∀ i : grid1.Coords, EltTy.bits .f32 = 32 ∨ (Rect.block (s := S800000x128) S3200x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x128.size a ≤ S800000x128.size a
  hwx1_2 : ∀ i : grid1.Coords, EltTy.bits .f32 = 32 ∨ (Rect.block (s := S800000x128) S3200x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3200x128.size a ≤ S800000x128.size a
  hwx1_4 : ∀ i : grid1.Coords, EltTy.bits .f32 = 32 ∨ (Rect.block (s := S800000x128) S3200x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x128.size a ≤ S800000x128.size a
  hwx2_0 : ∀ i : grid2.Coords, EltTy.bits .f32 = 32 ∨ (Rect.block (s := S800000x128) S3200x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x128.size a ≤ S800000x128.size a
  hwx2_1 : ∀ i : grid2.Coords, EltTy.bits .f32 = 32 ∨ (Rect.block (s := S800000x128) S3200x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3200x128.size a ≤ S800000x128.size a
  hwx2_2 : ∀ i : grid2.Coords, EltTy.bits .f32 = 32 ∨ (Rect.block (s := S800000x128) S3200x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3200x128.size a ≤ S800000x128.size a
  hwx2_4 : ∀ i : grid2.Coords, EltTy.bits .f32 = 32 ∨ (Rect.block (s := S800000x128) S3200x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x133.size a ≤ S50000x133.size a
  hwx3_0 : ∀ i : grid3.Coords, EltTy.bits .f32 = 32 ∨ (Rect.block (s := S50000x133) S5000x133.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S133x128.size a ≤ S133x128.size a
  hwx3_2 : ∀ i : grid3.Coords, EltTy.bits .f32 = 32 ∨ (Rect.block (s := S133x128) S133x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2944x128.size a ≤ S50048x128.size a
  hwx4_0 : ∀ i : grid4.Coords, EltTy.bits .f32 = 32 ∨ (Rect.block (s := S50048x128) S2944x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2944.size a ≤ S1x50048.size a
  hwx4_1 : ∀ i : grid4.Coords, EltTy.bits .i32 = 32 ∨ (Rect.block (s := S1x50048) S1x2944.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x1.size a ≤ S512x1.size a
  hwx4_2 : ∀ i : grid4.Coords, EltTy.bits .i32 = 32 ∨ (Rect.block (s := S512x1) S512x1.size (cc4_transform_2 i) (hinb4_2 i)).WholeWords (EltTy.packing .i32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x128.size a ≤ S512x128.size a
  hwx4_3 : ∀ i : grid4.Coords, EltTy.bits .f32 = 32 ∨ (Rect.block (s := S512x128) S512x128.size (cc4_transform_3 i) (hinb4_3 i)).WholeWords (EltTy.packing .f32)

variable [Facts₀]

def gather_S50000x133_S800000x1_S800000x133_1_0_n_n_0_1_1133 : GatherDims S50000x133 S800000x1 S800000x133 where
  offsetDims := [1]
  collapsedSliceDims := [0]
  operandBatchingDims := []
  startIndicesBatchingDims := []
  startIndexMap := [0]
  indexVectorDim := 1
  sliceSizes := ![1, 133]
  wf := gather_S50000x133_S800000x1_S800000x133_1_0_n_n_0_1_1133_wf
def dot_S3200x133_S133x128_S3200x128_1_0_0_1_n_n : DotDims S3200x133 S133x128 S3200x128 where
  lhsContracting := [1]
  rhsContracting := [0]
  lhsNonContracting := [0]
  rhsNonContracting := [1]
  lhsBatch := []
  rhsBatch := []
  wf := dot_S3200x133_S133x128_S3200x128_1_0_0_1_n_n_wf
def dot_S3200x14_S14x128_S3200x128_1_0_0_1_n_n : DotDims S3200x14 S14x128 S3200x128 where
  lhsContracting := [1]
  rhsContracting := [0]
  lhsNonContracting := [0]
  rhsNonContracting := [1]
  lhsBatch := []
  rhsBatch := []
  wf := dot_S3200x14_S14x128_S3200x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S800000x128_S800000x1_S800000x128_1_0_n_n_0_1_1128 : GatherDims S800000x128 S800000x1 S800000x128 where
  offsetDims := [1]
  collapsedSliceDims := [0]
  operandBatchingDims := []
  startIndicesBatchingDims := []
  startIndexMap := [0]
  indexVectorDim := 1
  sliceSizes := ![1, 128]
  wf := gather_S800000x128_S800000x1_S800000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S5000x133_S133x128_S5000x128_1_0_0_1_n_n : DotDims S5000x133 S133x128 S5000x128 where
  lhsContracting := [1]
  rhsContracting := [0]
  lhsNonContracting := [0]
  rhsNonContracting := [1]
  lhsBatch := []
  rhsBatch := []
  wf := dot_S5000x133_S133x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S512x2944_S2944x128_S512x128_1_0_0_1_n_n : DotDims S512x2944 S2944x128 S512x128 where
  lhsContracting := [1]
  rhsContracting := [0]
  lhsNonContracting := [0]
  rhsNonContracting := [1]
  lhsBatch := []
  rhsBatch := []
  wf := dot_S512x2944_S2944x128_S512x128_1_0_0_1_n_n_wf

abbrev win0_0 : Pipeline.Window sig grid0 :=
  Pipeline.Window.ofSpec (Memref.whole main_v10) S3200x133.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3200x14.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S133x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S14x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S3200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S3200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S3200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S3200x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S3200x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S3200x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S3200x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S3200x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S3200x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg0) S5000x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S133x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v56) S2944x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S1x2944.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S512x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S512x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x133 : Shape := ⟨2, ![50000, 133]⟩
abbrev S800000x14 : Shape := ⟨2, ![800000, 14]⟩
abbrev S147x128 : Shape := ⟨2, ![147, 128]⟩
abbrev S128x128 : Shape := ⟨2, ![128, 128]⟩
abbrev S261x128 : Shape := ⟨2, ![261, 128]⟩
abbrev S2x800000 : Shape := ⟨2, ![2, 800000]⟩
abbrev S800000 : Shape := ⟨1, ![800000]⟩
abbrev S50000 : Shape := ⟨1, ![50000]⟩
abbrev S1x800000 : Shape := ⟨2, ![1, 800000]⟩
abbrev S_ : Shape := ⟨0, ![]⟩
abbrev S800000x1 : Shape := ⟨2, ![800000, 1]⟩
abbrev S800000x133 : Shape := ⟨2, ![800000, 133]⟩
abbrev S800000x147 : Shape := ⟨2, ![800000, 147]⟩
abbrev S800000x128 : Shape := ⟨2, ![800000, 128]⟩
abbrev S50000x128 : Shape := ⟨2, ![50000, 128]⟩
abbrev S50000x261 : Shape := ⟨2, ![50000, 261]⟩
abbrev S512x128 : Shape := ⟨2, ![512, 128]⟩
abbrev S50000x1 : Shape := ⟨2, ![50000, 1]⟩

abbrev nBuf : Space → Nat
  | .hbm => 95
  | .vmem => 0
  | .smem => 0
  | _ => 0

abbrev bufTy : (tb : Table) → Fin (tcTables nBuf tb) → BufTy
  | .hbm, ⟨0, _⟩ => ⟨S50000x133, .f32⟩
  | .hbm, ⟨1, _⟩ => ⟨S800000x14, .f32⟩
  | .hbm, ⟨2, _⟩ => ⟨S147x128, .f32⟩
  | .hbm, ⟨3, _⟩ => ⟨S128x128, .f32⟩
  | .hbm, ⟨4, _⟩ => ⟨S261x128, .f32⟩
  | .hbm, ⟨5, _⟩ => ⟨S2x800000, .i32⟩
  | .hbm, ⟨6, _⟩ => ⟨S800000, .i32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x133, .f32⟩
  | .hbm, ⟨21, _⟩ => ⟨S800000x147, .f32⟩
  | .hbm, ⟨22, _⟩ => ⟨S800000x128, .f32⟩
  | .hbm, ⟨23, _⟩ => ⟨S_, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S800000x128, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S800000x128, .f32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S50000x261, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S512x128, .f32⟩
  | .hbm, ⟨93, _⟩ => ⟨S50000x1, .i32⟩
  | .hbm, ⟨94, _⟩ => ⟨S512x128, .f32⟩
  | _, _ => ⟨S50000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call1_cst : Ref sig .tc := ⟨.hbm, 51, rfl⟩
abbrev main_call1_v0 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call2_cst : Ref sig .tc := ⟨.hbm, 79, rfl⟩
abbrev main_call2_v0 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call3_cst : Ref sig .tc := ⟨.hbm, 88, rfl⟩
abbrev main_call3_v0 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x133_S800000x14_S800000x147_d1 : Shape.Concatenates [S800000x133, S800000x14] S800000x147 1
  bcast_S_S800000x128 : S_.BroadcastsInDim S800000x128 (![] : Fin 0 → Fin S800000x128.rank)
  bcast_S_S50000x128 : S_.BroadcastsInDim S50000x128 (![] : Fin 0 → Fin S50000x128.rank)
  concatenates_S50000x133_S50000x128_S50000x261_d1 : Shape.Concatenates [S50000x133, S50000x128] S50000x261 1
  bcast_S_S512x128 : S_.BroadcastsInDim S512x128 (![] : Fin 0 → Fin S512x128.rank)
  bcast_S50000_S50000x1_0 : S50000.BroadcastsInDim S50000x1 (![0] : Fin 1 → Fin S50000x1.rank)
  gather_S50000x133_S800000x1_S800000x133_1_0_n_n_0_1_1133_wf : GatherDims.WF S50000x133 S800000x1 S800000x133 [1] [0] [] [0] [] 1 ![1, 133]
  dot_S800000x147_S147x128_S800000x128_1_0_0_1_n_n_wf : DotDims.WF S800000x147 S147x128 S800000x128 [1] [0] [0] [1] [] []
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  gather_S800000x128_S800000x1_S800000x128_1_0_n_n_0_1_1128_wf : GatherDims.WF S800000x128 S800000x1 S800000x128 [1] [0] [] [0] [] 1 ![1, 128]
  dot_S800000x128_S128x128_S800000x128_1_0_0_1_n_n_wf : DotDims.WF S800000x128 S128x128 S800000x128 [1] [0] [0] [1] [] []
  dot_S50000x261_S261x128_S50000x128_1_0_0_1_n_n_wf : DotDims.WF S50000x261 S261x128 S50000x128 [1] [0] [0] [1] [] []
  scatter_S512x128_S50000x1_S50000x128_1_0_0_1_wf : ScatterDims.WF S512x128 S50000x1 S50000x128 [1] [0] [0] 1

variable [Facts₀]

def gather_S50000x133_S800000x1_S800000x133_1_0_n_n_0_1_1133 : GatherDims S50000x133 S800000x1 S800000x133 where
  offsetDims := [1]
  collapsedSliceDims := [0]
  operandBatchingDims := []
  startIndicesBatchingDims := []
  startIndexMap := [0]
  indexVectorDim := 1
  sliceSizes := ![1, 133]
  wf := gather_S50000x133_S800000x1_S800000x133_1_0_n_n_0_1_1133_wf
def dot_S800000x147_S147x128_S800000x128_1_0_0_1_n_n : DotDims S800000x147 S147x128 S800000x128 where
  lhsContracting := [1]
  rhsContracting := [0]
  lhsNonContracting := [0]
  rhsNonContracting := [1]
  lhsBatch := []
  rhsBatch := []
  wf := dot_S800000x147_S147x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S800000x128_S800000x1_S800000x128_1_0_n_n_0_1_1128 : GatherDims S800000x128 S800000x1 S800000x128 where
  offsetDims := [1]
  collapsedSliceDims := [0]
  operandBatchingDims := []
  startIndicesBatchingDims := []
  startIndexMap := [0]
  indexVectorDim := 1
  sliceSizes := ![1, 128]
  wf := gather_S800000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S50000x261_S261x128_S50000x128_1_0_0_1_n_n : DotDims S50000x261 S261x128 S50000x128 where
  lhsContracting := [1]
  rhsContracting := [0]
  lhsNonContracting := [0]
  rhsNonContracting := [1]
  lhsBatch := []
  rhsBatch := []
  wf := dot_S50000x261_S261x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf

class Facts : Prop extends Facts₀ where

variable [Facts]
-- ==== Proof.RefRun.lean ====
/-
  The reference's run, read back in five chunks.

  @main of the reference is a straight line of 87 host operations. The contents of the buffers after the whole line are
  the fold of the operations over the launch contents; read in one piece the fold is one long term in which the initial
  messages occur seven times over. Here the line is cut where the network's stages end — after the initial messages,
  after each of the two updates, after the node attributes — and each chunk's results are stated as the stage functions
  `val_main_vN` of the arguments: a chunk reads only the stages before it and the arguments, and what it does not write it
  leaves as it was.
-/
import proofs.«405290_j57243324121245_1_alg».proof.Proof.RefRunHead
import proofs.«405290_j57243324121245_1_alg».proof.Proof.RefRead
import Idealize.ShloMosaic.Lib.StableHlo.Run
import Idealize.ShloMosaic.Lib.Pipeline.Frame

set_option maxRecDepth 16384

noncomputable section

namespace Cert.ReferenceIdeal.RunStaged

open Cert.ReferenceIdeal Cert.ReferenceIdeal.Gen Idealize.ShloMosaic Idealize.ShloMosaic.TcCoe Idealize.SL.Sem Idealize.ShloMosaic.StableHlo
open Cert.ReferenceIdeal.ValueH Cert.ReferenceIdeal.ReadH

variable {F : FTy → Type} [FloatOps F]

/-- A buffer that no operation of a list writes holds after the list what it held before. -/
macro "keep_host" ops:ident : tactic => `(tactic|
  exact StableHlo.after_of_forall_not_mem _ _ (List.forall_iff_forall_mem.mp (by
    simp only [$ops:ident, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The five chunks -/

/-- Operations 1–18: the indices normalised, the node features gathered at the sources, the initial messages. -/
abbrev opsA : List (HloOp τ sig (Elt F)) :=
  [ unary main_arg5 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg5 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x133_S800000x1_S800000x133_1_0_n_n_0_1_1133 x i) : (⟨S50000x133, .f32⟩ : BufTy).Contents (Elt F) → (⟨S800000x1, .i32⟩ : BufTy).Contents (Elt F) → (⟨S800000x133, .f32⟩ : BufTy).Contents (Elt F)),
    binary main_v10 main_arg1 main_v11 ((fun a b => concatenate S800000x147 1 [⟨S800000x133, a⟩, ⟨S800000x14, b⟩] concatenates_S800000x133_S800000x14_S800000x147_d1) : (⟨S800000x133, .f32⟩ : BufTy).Contents (Elt F) → (⟨S800000x14, .f32⟩ : BufTy).Contents (Elt F) → (⟨S800000x147, .f32⟩ : BufTy).Contents (Elt F)),
    binary main_v11 main_arg2 main_v12 ((fun l r => Host.dotGeneral dot_S800000x147_S147x128_S800000x128_1_0_0_1_n_n none l r) : (⟨S800000x147, .f32⟩ : BufTy).Contents (Elt F) → (⟨S147x128, .f32⟩ : BufTy).Contents (Elt F) → (⟨S800000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x128, .f32⟩) main_call0_v0) (broadcastInDim S800000x128 ![] bcast_S_S800000x128),
    TRef.binary (TRef.of (T := ⟨S800000x128, .f32⟩) main_v12) (TRef.of (T := ⟨S800000x128, .f32⟩) main_call0_v0) (TRef.of (T := ⟨S800000x128, .f32⟩) main_v13) maximumf ]
/-- Operations 19–46: the messages summed at the destinations, gathered back, the first update. -/
abbrev opsB : List (HloOp τ sig (Elt F)) :=
  [ nullary main_cst (constant S_ .f32 0x00000000#32),
    unary main_cst main_v14 (broadcastInDim S50000x128 ![] bcast_S_S50000x128 : (⟨S_, .f32⟩ : BufTy).Contents (Elt F) → (⟨S50000x128, .f32⟩ : BufTy).Contents (Elt F)),
    unary main_v3 main_v15 (broadcastInDim S800000x1 ![0] bcast_S800000_S800000x1_0 : (⟨S800000, .i32⟩ : BufTy).Contents (Elt F) → (⟨S800000x1, .i32⟩ : BufTy).Contents (Elt F)),
    ternary main_v14 main_v15 main_v13 main_v16 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_c_1 (constantI S_ 32 0#32),
    unary main_c_1 main_v17 (broadcastInDim S800000 ![] bcast_S_S800000 : (⟨S_, .i32⟩ : BufTy).Contents (Elt F) → (⟨S800000, .i32⟩ : BufTy).Contents (Elt F)),
    binary main_v1 main_v17 main_v18 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v19 (broadcastInDim S800000 ![] bcast_S_S800000 : (⟨S_, .i32⟩ : BufTy).Contents (Elt F) → (⟨S800000, .i32⟩ : BufTy).Contents (Elt F)),
    binary main_v1 main_v19 main_v20 (addi : (⟨S800000, .i32⟩ : BufTy).Contents (Elt F) → (⟨S800000, .i32⟩ : BufTy).Contents (Elt F) → (⟨S800000, .i32⟩ : BufTy).Contents (Elt F)),
    ternary main_v18 main_v20 main_v1 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v21 main_v22 (broadcastInDim S800000x1 ![0] bcast_S800000_S800000x1_0 : (⟨S800000, .i32⟩ : BufTy).Contents (Elt F) → (⟨S800000x1, .i32⟩ : BufTy).Contents (Elt F)),
    binary main_v16 main_v22 main_v23 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_3 (constantI S_ 32 0#32),
    unary main_c_3 main_v24 (broadcastInDim S800000 ![] bcast_S_S800000 : (⟨S_, .i32⟩ : BufTy).Contents (Elt F) → (⟨S800000, .i32⟩ : BufTy).Contents (Elt F)),
    binary main_arg6 main_v24 main_v25 (cmpi .slt : (⟨S800000, .i32⟩ : BufTy).Contents (Elt F) → (⟨S800000, .i32⟩ : BufTy).Contents (Elt F) → (⟨S800000, .i1⟩ : BufTy).Contents (Elt F)),
    nullary main_c_4 (constantI S_ 32 800000#32),
    unary main_c_4 main_v26 (broadcastInDim S800000 ![] bcast_S_S800000 : (⟨S_, .i32⟩ : BufTy).Contents (Elt F) → (⟨S800000, .i32⟩ : BufTy).Contents (Elt F)),
    binary main_arg6 main_v26 main_v27 (addi : (⟨S800000, .i32⟩ : BufTy).Contents (Elt F) → (⟨S800000, .i32⟩ : BufTy).Contents (Elt F) → (⟨S800000, .i32⟩ : BufTy).Contents (Elt F)),
    ternary main_v25 main_v27 main_arg6 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v28 main_v29 (broadcastInDim S800000x1 ![0] bcast_S800000_S800000x1_0 : (⟨S800000, .i32⟩ : BufTy).Contents (Elt F) → (⟨S800000x1, .i32⟩ : BufTy).Contents (Elt F)),
    binary main_v13 main_v29 main_v30 ((fun x i => Host.gather gather_S800000x128_S800000x1_S800000x128_1_0_n_n_0_1_1128 x i) : (⟨S800000x128, .f32⟩ : BufTy).Contents (Elt F) → (⟨S800000x1, .i32⟩ : BufTy).Contents (Elt F) → (⟨S800000x128, .f32⟩ : BufTy).Contents (Elt F)),
    binary main_v23 main_v30 main_v31 (subf : (⟨S800000x128, .f32⟩ : BufTy).Contents (Elt F) → (⟨S800000x128, .f32⟩ : BufTy).Contents (Elt F) → (⟨S800000x128, .f32⟩ : BufTy).Contents (Elt F)),
    binary main_v31 main_arg3 main_v32 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    binary main_v13 main_v32 main_v33 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x128, .f32⟩) main_call1_v0) (broadcastInDim S800000x128 ![] bcast_S_S800000x128),
    TRef.binary (TRef.of (T := ⟨S800000x128, .f32⟩) main_v33) (TRef.of (T := ⟨S800000x128, .f32⟩) main_call1_v0) (TRef.of (T := ⟨S800000x128, .f32⟩) main_v34) maximumf ]
/-- Operations 47–74: the same round on the updated messages, the second update. -/
abbrev opsC : List (HloOp τ sig (Elt F)) :=
  [ nullary main_cst_5 (constant S_ .f32 0x00000000#32),
    unary main_cst_5 main_v35 (broadcastInDim S50000x128 ![] bcast_S_S50000x128 : (⟨S_, .f32⟩ : BufTy).Contents (Elt F) → (⟨S50000x128, .f32⟩ : BufTy).Contents (Elt F)),
    unary main_v3 main_v36 (broadcastInDim S800000x1 ![0] bcast_S800000_S800000x1_0 : (⟨S800000, .i32⟩ : BufTy).Contents (Elt F) → (⟨S800000x1, .i32⟩ : BufTy).Contents (Elt F)),
    ternary main_v35 main_v36 main_v34 main_v37 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_c_6 (constantI S_ 32 0#32),
    unary main_c_6 main_v38 (broadcastInDim S800000 ![] bcast_S_S800000 : (⟨S_, .i32⟩ : BufTy).Contents (Elt F) → (⟨S800000, .i32⟩ : BufTy).Contents (Elt F)),
    binary main_v1 main_v38 main_v39 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v40 (broadcastInDim S800000 ![] bcast_S_S800000 : (⟨S_, .i32⟩ : BufTy).Contents (Elt F) → (⟨S800000, .i32⟩ : BufTy).Contents (Elt F)),
    binary main_v1 main_v40 main_v41 (addi : (⟨S800000, .i32⟩ : BufTy).Contents (Elt F) → (⟨S800000, .i32⟩ : BufTy).Contents (Elt F) → (⟨S800000, .i32⟩ : BufTy).Contents (Elt F)),
    ternary main_v39 main_v41 main_v1 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v42 main_v43 (broadcastInDim S800000x1 ![0] bcast_S800000_S800000x1_0 : (⟨S800000, .i32⟩ : BufTy).Contents (Elt F) → (⟨S800000x1, .i32⟩ : BufTy).Contents (Elt F)),
    binary main_v37 main_v43 main_v44 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_8 (constantI S_ 32 0#32),
    unary main_c_8 main_v45 (broadcastInDim S800000 ![] bcast_S_S800000 : (⟨S_, .i32⟩ : BufTy).Contents (Elt F) → (⟨S800000, .i32⟩ : BufTy).Contents (Elt F)),
    binary main_arg6 main_v45 main_v46 (cmpi .slt : (⟨S800000, .i32⟩ : BufTy).Contents (Elt F) → (⟨S800000, .i32⟩ : BufTy).Contents (Elt F) → (⟨S800000, .i1⟩ : BufTy).Contents (Elt F)),
    nullary main_c_9 (constantI S_ 32 800000#32),
    unary main_c_9 main_v47 (broadcastInDim S800000 ![] bcast_S_S800000 : (⟨S_, .i32⟩ : BufTy).Contents (Elt F) → (⟨S800000, .i32⟩ : BufTy).Contents (Elt F)),
    binary main_arg6 main_v47 main_v48 (addi : (⟨S800000, .i32⟩ : BufTy).Contents (Elt F) → (⟨S800000, .i32⟩ : BufTy).Contents (Elt F) → (⟨S800000, .i32⟩ : BufTy).Contents (Elt F)),
    ternary main_v46 main_v48 main_arg6 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v49 main_v50 (broadcastInDim S800000x1 ![0] bcast_S800000_S800000x1_0 : (⟨S800000, .i32⟩ : BufTy).Contents (Elt F) → (⟨S800000x1, .i32⟩ : BufTy).Contents (Elt F)),
    binary main_v34 main_v50 main_v51 ((fun x i => Host.gather gather_S800000x128_S800000x1_S800000x128_1_0_n_n_0_1_1128 x i) : (⟨S800000x128, .f32⟩ : BufTy).Contents (Elt F) → (⟨S800000x1, .i32⟩ : BufTy).Contents (Elt F) → (⟨S800000x128, .f32⟩ : BufTy).Contents (Elt F)),
    binary main_v44 main_v51 main_v52 (subf : (⟨S800000x128, .f32⟩ : BufTy).Contents (Elt F) → (⟨S800000x128, .f32⟩ : BufTy).Contents (Elt F) → (⟨S800000x128, .f32⟩ : BufTy).Contents (Elt F)),
    binary main_v52 main_arg3 main_v53 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    binary main_v13 main_v53 main_v54 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S800000x128, .f32⟩) main_call2_v0) (broadcastInDim S800000x128 ![] bcast_S_S800000x128),
    TRef.binary (TRef.of (T := ⟨S800000x128, .f32⟩) main_v54) (TRef.of (T := ⟨S800000x128, .f32⟩) main_call2_v0) (TRef.of (T := ⟨S800000x128, .f32⟩) main_v55) maximumf ]
/-- Operations 75–83: the last sum at the destinations and the node attributes. -/
abbrev opsD : List (HloOp τ sig (Elt F)) :=
  [ nullary main_cst_10 (constant S_ .f32 0x00000000#32),
    unary main_cst_10 main_v56 (broadcastInDim S50000x128 ![] bcast_S_S50000x128 : (⟨S_, .f32⟩ : BufTy).Contents (Elt F) → (⟨S50000x128, .f32⟩ : BufTy).Contents (Elt F)),
    unary main_v3 main_v57 (broadcastInDim S800000x1 ![0] bcast_S800000_S800000x1_0 : (⟨S800000, .i32⟩ : BufTy).Contents (Elt F) → (⟨S800000x1, .i32⟩ : BufTy).Contents (Elt F)),
    ternary main_v56 main_v57 main_v55 main_v58 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v58 main_v59 ((fun a b => concatenate S50000x261 1 [⟨S50000x133, a⟩, ⟨S50000x128, b⟩] concatenates_S50000x133_S50000x128_S50000x261_d1) : (⟨S50000x133, .f32⟩ : BufTy).Contents (Elt F) → (⟨S50000x128, .f32⟩ : BufTy).Contents (Elt F) → (⟨S50000x261, .f32⟩ : BufTy).Contents (Elt F)),
    binary main_v59 main_arg4 main_v60 ((fun l r => Host.dotGeneral dot_S50000x261_S261x128_S50000x128_1_0_0_1_n_n none l r) : (⟨S50000x261, .f32⟩ : BufTy).Contents (Elt F) → (⟨S261x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v60) (TRef.of (T := ⟨S50000x128, .f32⟩) main_call3_v0) (TRef.of (T := ⟨S50000x128, .f32⟩) main_v61) maximumf ]
/-- Operations 84–87: the node attributes summed per graph. -/
abbrev opsE : List (HloOp τ sig (Elt F)) :=
  [ nullary main_cst_11 (constant S_ .f32 0x00000000#32),
    unary main_cst_11 main_v62 (broadcastInDim S512x128 ![] bcast_S_S512x128 : (⟨S_, .f32⟩ : BufTy).Contents (Elt F) → (⟨S512x128, .f32⟩ : BufTy).Contents (Elt F)),
    unary main_arg7 main_v63 (broadcastInDim S50000x1 ![0] bcast_S50000_S50000x1_0 : (⟨S50000, .i32⟩ : BufTy).Contents (Elt F) → (⟨S50000x1, .i32⟩ : BufTy).Contents (Elt F)),
    ternary main_v62 main_v63 main_v61 main_v64 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)) ]

/-- The line is its five chunks in order. -/
theorem ops_split : (ops : List (HloOp τ sig (Elt F))) = opsA ++ (opsB ++ (opsC ++ (opsD ++ opsE))) := rfl

variable (V : Valuation τ sig (Elt F))

/-- The contents after each chunk. -/
def U1 : Valuation τ sig (Elt F) := StableHlo.after opsA V
def U2 : Valuation τ sig (Elt F) := StableHlo.after opsB (U1 V)
def U3 : Valuation τ sig (Elt F) := StableHlo.after opsC (U2 V)
def U4 : Valuation τ sig (Elt F) := StableHlo.after opsD (U3 V)
def U5 : Valuation τ sig (Elt F) := StableHlo.after opsE (U4 V)

theorem after_ops : StableHlo.after ops V = U5 V := by
  rw [ops_split, StableHlo.after_append, StableHlo.after_append, StableHlo.after_append, StableHlo.after_append]
  rfl

/-! ## After the first chunk -/

set_option maxHeartbeats 16000000 in
theorem u1_v13 : U1 V (Proc.devRef .tc main_v13) = val_main_v13 (F := F) (V (Proc.devRef .tc main_arg0)) (V (Proc.devRef .tc main_arg1)) (V (Proc.devRef .tc main_arg2)) (V (Proc.devRef .tc main_arg5)) := by
  show StableHlo.after opsA V (Proc.devRef .tc main_v13) = _
  after_results
  rfl
set_option maxHeartbeats 16000000 in
theorem u1_v1 : U1 V (Proc.devRef .tc main_v1) = val_main_v1 (F := F) (V (Proc.devRef .tc main_arg5)) := by
  show StableHlo.after opsA V (Proc.devRef .tc main_v1) = _
  after_results
  rfl
set_option maxHeartbeats 16000000 in
theorem u1_v3 : U1 V (Proc.devRef .tc main_v3) = val_main_v3 (F := F) (V (Proc.devRef .tc main_arg5)) := by
  show StableHlo.after opsA V (Proc.devRef .tc main_v3) = _
  after_results
  rfl
theorem u1_arg0 : U1 V (Proc.devRef .tc main_arg0) = (V (Proc.devRef .tc main_arg0)) :=
  (show U1 V (Proc.devRef .tc main_arg0) = V (Proc.devRef .tc main_arg0) by unfold U1; keep_host opsA)
theorem u1_arg3 : U1 V (Proc.devRef .tc main_arg3) = (V (Proc.devRef .tc main_arg3)) :=
  (show U1 V (Proc.devRef .tc main_arg3) = V (Proc.devRef .tc main_arg3) by unfold U1; keep_host opsA)
theorem u1_arg4 : U1 V (Proc.devRef .tc main_arg4) = (V (Proc.devRef .tc main_arg4)) :=
  (show U1 V (Proc.devRef .tc main_arg4) = V (Proc.devRef .tc main_arg4) by unfold U1; keep_host opsA)
theorem u1_arg6 : U1 V (Proc.devRef .tc main_arg6) = (V (Proc.devRef .tc main_arg6)) :=
  (show U1 V (Proc.devRef .tc main_arg6) = V (Proc.devRef .tc main_arg6) by unfold U1; keep_host opsA)
theorem u1_arg7 : U1 V (Proc.devRef .tc main_arg7) = (V (Proc.devRef .tc main_arg7)) :=
  (show U1 V (Proc.devRef .tc main_arg7) = V (Proc.devRef .tc main_arg7) by unfold U1; keep_host opsA)

/-! ## After the second chunk -/

set_option maxHeartbeats 16000000 in
theorem u2_v34 : U2 V (Proc.devRef .tc main_v34) = val_main_v34 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) := by
  show StableHlo.after opsB (U1 V) (Proc.devRef .tc main_v34) = _
  after_results
  rw [u1_v13 V, u1_v3 V, u1_v1 V, u1_arg6 V, u1_arg3 V]
  rfl
theorem u2_v13 : U2 V (Proc.devRef .tc main_v13) = val_main_v13 (F := F) (V (Proc.devRef .tc main_arg0)) (V (Proc.devRef .tc main_arg1)) (V (Proc.devRef .tc main_arg2)) (V (Proc.devRef .tc main_arg5)) :=
  (show U2 V (Proc.devRef .tc main_v13) = U1 V (Proc.devRef .tc main_v13) by unfold U2; keep_host opsB).trans (u1_v13 V)
theorem u2_v1 : U2 V (Proc.devRef .tc main_v1) = val_main_v1 (F := F) (V (Proc.devRef .tc main_arg5)) :=
  (show U2 V (Proc.devRef .tc main_v1) = U1 V (Proc.devRef .tc main_v1) by unfold U2; keep_host opsB).trans (u1_v1 V)
theorem u2_v3 : U2 V (Proc.devRef .tc main_v3) = val_main_v3 (F := F) (V (Proc.devRef .tc main_arg5)) :=
  (show U2 V (Proc.devRef .tc main_v3) = U1 V (Proc.devRef .tc main_v3) by unfold U2; keep_host opsB).trans (u1_v3 V)
theorem u2_arg0 : U2 V (Proc.devRef .tc main_arg0) = (V (Proc.devRef .tc main_arg0)) :=
  (show U2 V (Proc.devRef .tc main_arg0) = U1 V (Proc.devRef .tc main_arg0) by unfold U2; keep_host opsB).trans (u1_arg0 V)
theorem u2_arg3 : U2 V (Proc.devRef .tc main_arg3) = (V (Proc.devRef .tc main_arg3)) :=
  (show U2 V (Proc.devRef .tc main_arg3) = U1 V (Proc.devRef .tc main_arg3) by unfold U2; keep_host opsB).trans (u1_arg3 V)
theorem u2_arg4 : U2 V (Proc.devRef .tc main_arg4) = (V (Proc.devRef .tc main_arg4)) :=
  (show U2 V (Proc.devRef .tc main_arg4) = U1 V (Proc.devRef .tc main_arg4) by unfold U2; keep_host opsB).trans (u1_arg4 V)
theorem u2_arg6 : U2 V (Proc.devRef .tc main_arg6) = (V (Proc.devRef .tc main_arg6)) :=
  (show U2 V (Proc.devRef .tc main_arg6) = U1 V (Proc.devRef .tc main_arg6) by unfold U2; keep_host opsB).trans (u1_arg6 V)
theorem u2_arg7 : U2 V (Proc.devRef .tc main_arg7) = (V (Proc.devRef .tc main_arg7)) :=
  (show U2 V (Proc.devRef .tc main_arg7) = U1 V (Proc.devRef .tc main_arg7) by unfold U2; keep_host opsB).trans (u1_arg7 V)

/-! ## After the third chunk -/

set_option maxHeartbeats 16000000 in
theorem u3_v55 : U3 V (Proc.devRef .tc main_v55) = val_main_v55 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) := by
  show StableHlo.after opsC (U2 V) (Proc.devRef .tc main_v55) = _
  after_results
  rw [u2_v34 V, u2_v13 V, u2_v3 V, u2_v1 V, u2_arg6 V, u2_arg3 V]
  rfl
theorem u3_v3 : U3 V (Proc.devRef .tc main_v3) = val_main_v3 (F := F) (V (Proc.devRef .tc main_arg5)) :=
  (show U3 V (Proc.devRef .tc main_v3) = U2 V (Proc.devRef .tc main_v3) by unfold U3; keep_host opsC).trans (u2_v3 V)
theorem u3_arg0 : U3 V (Proc.devRef .tc main_arg0) = (V (Proc.devRef .tc main_arg0)) :=
  (show U3 V (Proc.devRef .tc main_arg0) = U2 V (Proc.devRef .tc main_arg0) by unfold U3; keep_host opsC).trans (u2_arg0 V)
theorem u3_arg4 : U3 V (Proc.devRef .tc main_arg4) = (V (Proc.devRef .tc main_arg4)) :=
  (show U3 V (Proc.devRef .tc main_arg4) = U2 V (Proc.devRef .tc main_arg4) by unfold U3; keep_host opsC).trans (u2_arg4 V)
theorem u3_arg7 : U3 V (Proc.devRef .tc main_arg7) = (V (Proc.devRef .tc main_arg7)) :=
  (show U3 V (Proc.devRef .tc main_arg7) = U2 V (Proc.devRef .tc main_arg7) by unfold U3; keep_host opsC).trans (u2_arg7 V)

/-! ## After the fourth chunk -/

set_option maxHeartbeats 16000000 in
theorem u4_v61 : U4 V (Proc.devRef .tc main_v61) = val_main_v61 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  show StableHlo.after opsD (U3 V) (Proc.devRef .tc main_v61) = _
  after_results
  rw [u3_v55 V, u3_v3 V, u3_arg0 V, u3_arg4 V]
  rfl
theorem u4_arg7 : U4 V (Proc.devRef .tc main_arg7) = (V (Proc.devRef .tc main_arg7)) :=
  (show U4 V (Proc.devRef .tc main_arg7) = U3 V (Proc.devRef .tc main_arg7) by unfold U4; keep_host opsD).trans (u3_arg7 V)

/-! ## After the last chunk: the result -/

set_option maxHeartbeats 16000000 in
theorem u5_v64 : U5 V (Proc.devRef .tc main_v64) = val_main_v64 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  show StableHlo.after opsE (U4 V) (Proc.devRef .tc main_v64) = _
  after_results
  rw [u4_v61 V, u4_arg7 V]
  rfl

/-! ## The run -/

/-- An argument's buffer is written by no operation of the line. -/
theorem after_ops_arg0 : StableHlo.after ops V (Proc.devRef .tc main_arg0) = V (Proc.devRef .tc main_arg0) := by keep_host ops
theorem after_ops_arg1 : StableHlo.after ops V (Proc.devRef .tc main_arg1) = V (Proc.devRef .tc main_arg1) := by keep_host ops
theorem after_ops_arg2 : StableHlo.after ops V (Proc.devRef .tc main_arg2) = V (Proc.devRef .tc main_arg2) := by keep_host ops
theorem after_ops_arg3 : StableHlo.after ops V (Proc.devRef .tc main_arg3) = V (Proc.devRef .tc main_arg3) := by keep_host ops
theorem after_ops_arg4 : StableHlo.after ops V (Proc.devRef .tc main_arg4) = V (Proc.devRef .tc main_arg4) := by keep_host ops
theorem after_ops_arg5 : StableHlo.after ops V (Proc.devRef .tc main_arg5) = V (Proc.devRef .tc main_arg5) := by keep_host ops
theorem after_ops_arg6 : StableHlo.after ops V (Proc.devRef .tc main_arg6) = V (Proc.devRef .tc main_arg6) := by keep_host ops
theorem after_ops_arg7 : StableHlo.after ops V (Proc.devRef .tc main_arg7) = V (Proc.devRef .tc main_arg7) := by keep_host ops

/-- On every device, from any memory with zero counters: every weakly fair execution of the reference's @main terminates
    with the result array at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64)
        = val_main_v64 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v64).trans ((congrFun (after_ops _) _).trans (u5_v64 _)),
       (h c main_arg0).trans (after_ops_arg0 _), (h c main_arg1).trans (after_ops_arg1 _),
       (h c main_arg2).trans (after_ops_arg2 _), (h c main_arg3).trans (after_ops_arg3 _),
       (h c main_arg4).trans (after_ops_arg4 _), (h c main_arg5).trans (after_ops_arg5 _),
       (h c main_arg6).trans (after_ops_arg6 _), (h c main_arg7).trans (after_ops_arg7 _)⟩)
    (run_seq scopedRefs_eq scopedSems_eq defs main (fun _ => ops) main_eq (fun _ => ops_sub) m ρ)

end Cert.ReferenceIdeal.RunStaged

end
-- ==== Proof.Spec.lean ====
/-
  The arithmetic of the message-passing network, stated once over the extended reals, index by index.

  Four dense stages occur, each a function of whole arrays:
  * `proj2`: a row of `x` and a row of `y` against two stacked weight blocks, then the positive part:
    `out[r, c] = max (∑ k, x[r, k] · wa[k, c] + ∑ k, y[r, k] · wb[k, c]) 0`. This is the product of the row
    `[x[r, ·] ‖ y[r, ·]]` with the stacked matrix `[wa; wb]`, split at the seam.
  * `upd`: the message update `out[r, c] = max (h0[r, c] + ∑ k, (a[r, k] − b[r, k]) · w[k, c]) 0`.
  * `oneHotSum`: a segment sum written as a product with a one-hot matrix:
    `out[g, c] = ∑ n, (if gid[g] = b[n] then na[n, c] else 0)`; a row `n` whose label `b[n]` is no `gid[g]`
    contributes to no segment.
-/
import Idealize.ShloMosaic.PureOps.Ideal
import Idealize.ShloMosaic.Lib.ValueIdx

noncomputable section

namespace Cert.Spec

open Idealize.ShloMosaic Idealize.ShloMosaic.ValueIdx

/-- `max (x·wa + y·wb) 0`, the two products summed over their own inner axes. -/
def proj2 {R A B C : Nat} (x : (⟨2, ![R, A]⟩ : Shape).Idx → EReal) (y : (⟨2, ![R, B]⟩ : Shape).Idx → EReal)
    (wa : (⟨2, ![A, C]⟩ : Shape).Idx → EReal) (wb : (⟨2, ![B, C]⟩ : Shape).Idx → EReal) :
    (⟨2, ![R, C]⟩ : Shape).Idx → EReal :=
  fun i => max ((∑ k : Fin A, x (ix2 (i 0) k) * wa (ix2 k (i 1))) + ∑ k : Fin B, y (ix2 (i 0) k) * wb (ix2 k (i 1))) 0

/-- `max (h0 + (a − b)·w) 0`. -/
def upd {R K C : Nat} (a b : (⟨2, ![R, K]⟩ : Shape).Idx → EReal) (h0 : (⟨2, ![R, C]⟩ : Shape).Idx → EReal)
    (w : (⟨2, ![K, C]⟩ : Shape).Idx → EReal) : (⟨2, ![R, C]⟩ : Shape).Idx → EReal :=
  fun i => max (h0 i + ∑ k : Fin K, (a (ix2 (i 0) k) - b (ix2 (i 0) k)) * w (ix2 k (i 1))) 0

/-- The sum of the rows of `na` whose label equals segment `g`'s identifier. -/
def oneHotSum {G N C : Nat} (na : (⟨2, ![N, C]⟩ : Shape).Idx → EReal) (b : (⟨2, ![1, N]⟩ : Shape).Idx → BitVec 32)
    (gid : (⟨2, ![G, 1]⟩ : Shape).Idx → BitVec 32) : (⟨2, ![G, C]⟩ : Shape).Idx → EReal :=
  fun i => ∑ n : Fin N, if gid (ix2 (i 0) 0) = b (ix2 0 n) then na (ix2 n (i 1)) else 0

/-- The edge projection: 800000 edges, 133 node features and 14 edge features into 128 channels. -/
abbrev edgeProj := @proj2 800000 133 14 128
/-- The node projection: 50000 nodes, 133 node features and 128 message channels into 128 channels. -/
abbrev nodeProj := @proj2 50000 133 128 128
/-- The edge update over 800000 edges and 128 channels. -/
abbrev edgeUpd := @upd 800000 128 128
/-- The per-graph sum: 50048 (padded) node rows into 512 graphs. -/
abbrev batchSum := @oneHotSum 512 50048 128

end Cert.Spec

end
-- ==== Proof.Region0.lean ====
/-
  The edge projection, read off the first region's blocks.

  The region walks the 800000 edge rows in 250 blocks of 3200 rows. At block `t` the body forms, for a row `p` of the
  block and a channel `q`,
    `max (∑ k < 133, x[p, k] · wa[k, q] + ∑ k < 14, y[p, k] · wb[k, q]) 0`,
  where `x` and `y` are rows `3200·t … 3200·t + 3199` of the two feature arrays and `wa`, `wb` are the two weight
  blocks whole. Over the extended reals the narrowing of the operands is the identity and each product accumulates into
  the zero splat, so the entry is exactly the specification's `proj2` at array row `3200·t + p`. Row `r` of the array
  lies in block `r / 3200`, so the blocks cover the array and the array ends holding `Cert.Spec.edgeProj`.
-/
import proofs.«405290_j57243324121245_1_alg».proof.Proof.Gen.KernelIdeal.Frame
import proofs.«405290_j57243324121245_1_alg».proof.Proof.Spec
import Idealize.ShloMosaic.Lib.Pipeline.Value
import Idealize.ShloMosaic.Lib.ValueIdx
import Idealize.ShloMosaic.PureOps.Ideal.Laws
noncomputable section
namespace Cert.KernelIdeal.Val
open Cert.KernelIdeal Cert.KernelIdeal.Gen Idealize.ShloMosaic Idealize.ShloMosaic.TcCoe Idealize.ShloMosaic.ValueIdx Idealize.SL.Sem Idealize.ShloMosaic.Pipeline

/-! ## The two products at an index -/

/-- Node-feature product: the left operand's row is the output's row. -/
theorem region0_dotA_lhs_0 (i : S3200x128.Idx) (q : dot_S3200x133_S133x128_S3200x128_1_0_0_1_n_n.contr.Idx) :
    (dot_S3200x133_S133x128_S3200x128_1_0_0_1_n_n.lhsIdx i q 0).val = (i 0).val := by
  unfold DotDims.lhsIdx
  rw [dif_neg (show ¬(0 : Fin S3200x133.rank) ∈ dot_S3200x133_S133x128_S3200x128_1_0_0_1_n_n.lhsBatch by decide), dif_pos (show (0 : Fin S3200x133.rank) ∈ dot_S3200x133_S133x128_S3200x128_1_0_0_1_n_n.lhsNonContracting by decide)]
  rfl
/-- Node-feature product: the left operand's column is the contraction index. -/
theorem region0_dotA_lhs_1 (i : S3200x128.Idx) (q : dot_S3200x133_S133x128_S3200x128_1_0_0_1_n_n.contr.Idx) :
    (dot_S3200x133_S133x128_S3200x128_1_0_0_1_n_n.lhsIdx i q 1).val = (q ⟨0, by decide⟩).val :=
  dot_S3200x133_S133x128_S3200x128_1_0_0_1_n_n.lhsIdx_val_of_single rfl i q
/-- Node-feature product: the right operand's row is the contraction index. -/
theorem region0_dotA_rhs_0 (i : S3200x128.Idx) (q : dot_S3200x133_S133x128_S3200x128_1_0_0_1_n_n.contr.Idx) :
    (dot_S3200x133_S133x128_S3200x128_1_0_0_1_n_n.rhsIdx i q 0).val = (q ⟨0, by decide⟩).val :=
  dot_S3200x133_S133x128_S3200x128_1_0_0_1_n_n.rhsIdx_val_of_single rfl i q
/-- Node-feature product: the right operand's column is the output's column. -/
theorem region0_dotA_rhs_1 (i : S3200x128.Idx) (q : dot_S3200x133_S133x128_S3200x128_1_0_0_1_n_n.contr.Idx) :
    (dot_S3200x133_S133x128_S3200x128_1_0_0_1_n_n.rhsIdx i q 1).val = (i 1).val := by
  unfold DotDims.rhsIdx
  rw [dif_neg (show ¬(1 : Fin S133x128.rank) ∈ dot_S3200x133_S133x128_S3200x128_1_0_0_1_n_n.rhsBatch by decide), dif_pos (show (1 : Fin S133x128.rank) ∈ dot_S3200x133_S133x128_S3200x128_1_0_0_1_n_n.rhsNonContracting by decide)]
  rfl

/-- Edge-feature product: the left operand's row is the output's row. -/
theorem region0_dotB_lhs_0 (i : S3200x128.Idx) (q : dot_S3200x14_S14x128_S3200x128_1_0_0_1_n_n.contr.Idx) :
    (dot_S3200x14_S14x128_S3200x128_1_0_0_1_n_n.lhsIdx i q 0).val = (i 0).val := by
  unfold DotDims.lhsIdx
  rw [dif_neg (show ¬(0 : Fin S3200x14.rank) ∈ dot_S3200x14_S14x128_S3200x128_1_0_0_1_n_n.lhsBatch by decide), dif_pos (show (0 : Fin S3200x14.rank) ∈ dot_S3200x14_S14x128_S3200x128_1_0_0_1_n_n.lhsNonContracting by decide)]
  rfl
/-- Edge-feature product: the left operand's column is the contraction index. -/
theorem region0_dotB_lhs_1 (i : S3200x128.Idx) (q : dot_S3200x14_S14x128_S3200x128_1_0_0_1_n_n.contr.Idx) :
    (dot_S3200x14_S14x128_S3200x128_1_0_0_1_n_n.lhsIdx i q 1).val = (q ⟨0, by decide⟩).val :=
  dot_S3200x14_S14x128_S3200x128_1_0_0_1_n_n.lhsIdx_val_of_single rfl i q
/-- Edge-feature product: the right operand's row is the contraction index. -/
theorem region0_dotB_rhs_0 (i : S3200x128.Idx) (q : dot_S3200x14_S14x128_S3200x128_1_0_0_1_n_n.contr.Idx) :
    (dot_S3200x14_S14x128_S3200x128_1_0_0_1_n_n.rhsIdx i q 0).val = (q ⟨0, by decide⟩).val :=
  dot_S3200x14_S14x128_S3200x128_1_0_0_1_n_n.rhsIdx_val_of_single rfl i q
/-- Edge-feature product: the right operand's column is the output's column. -/
theorem region0_dotB_rhs_1 (i : S3200x128.Idx) (q : dot_S3200x14_S14x128_S3200x128_1_0_0_1_n_n.contr.Idx) :
    (dot_S3200x14_S14x128_S3200x128_1_0_0_1_n_n.rhsIdx i q 1).val = (i 1).val := by
  unfold DotDims.rhsIdx
  rw [dif_neg (show ¬(1 : Fin S14x128.rank) ∈ dot_S3200x14_S14x128_S3200x128_1_0_0_1_n_n.rhsBatch by decide), dif_pos (show (1 : Fin S14x128.rank) ∈ dot_S3200x14_S14x128_S3200x128_1_0_0_1_n_n.rhsNonContracting by decide)]
  rfl

/-- The node-feature product into the zero splat, at row `p` and channel `q`: the sum over the 133 inner positions of the
    row's entry times the column's entry (the one-axis contraction index re-indexed by its coordinate). -/
theorem region0_matmulA_apply (x : FVec Ideal S3200x133 .bf16) (w : FVec Ideal S133x128 .bf16) (p : Fin 3200) (q : Fin 128) :
    matmul dot_S3200x133_S133x128_S3200x128_1_0_0_1_n_n none x w (constant (F := Ideal) S3200x128 .f32 0x00000000#32) (ix2 p q)
      = ∑ k : Fin 133, x (ix2 p k) * w (ix2 k q) := by
  refine (Ideal.matmul_constant_zero_apply dot_S3200x133_S133x128_S3200x128_1_0_0_1_n_n none x w (ix2 p q)).trans ?_
  rw [← Equiv.sum_comp (contrEquiv1 dot_S3200x133_S133x128_S3200x128_1_0_0_1_n_n 133 rfl rfl).symm]
  refine Finset.sum_congr rfl fun k _ => ?_
  have hk := contrEquiv1_symm_val dot_S3200x133_S133x128_S3200x128_1_0_0_1_n_n 133 rfl rfl k
  have el : dot_S3200x133_S133x128_S3200x128_1_0_0_1_n_n.lhsIdx (ix2 p q) ((contrEquiv1 dot_S3200x133_S133x128_S3200x128_1_0_0_1_n_n 133 rfl rfl).symm k) = ix2 p k := funext fun a => Fin.ext (by
    match a with
    | ⟨0, _⟩ => exact region0_dotA_lhs_0 _ _
    | ⟨1, _⟩ => exact (region0_dotA_lhs_1 _ _).trans hk)
  have er : dot_S3200x133_S133x128_S3200x128_1_0_0_1_n_n.rhsIdx (ix2 p q) ((contrEquiv1 dot_S3200x133_S133x128_S3200x128_1_0_0_1_n_n 133 rfl rfl).symm k) = ix2 k q := funext fun a => Fin.ext (by
    match a with
    | ⟨0, _⟩ => exact (region0_dotA_rhs_0 _ _).trans hk
    | ⟨1, _⟩ => exact region0_dotA_rhs_1 _ _)
  rw [el, er]

/-- The edge-feature product into the zero splat, at row `p` and channel `q`: the sum over the 14 inner positions. -/
theorem region0_matmulB_apply (x : FVec Ideal S3200x14 .bf16) (w : FVec Ideal S14x128 .bf16) (p : Fin 3200) (q : Fin 128) :
    matmul dot_S3200x14_S14x128_S3200x128_1_0_0_1_n_n none x w (constant (F := Ideal) S3200x128 .f32 0x00000000#32) (ix2 p q)
      = ∑ k : Fin 14, x (ix2 p k) * w (ix2 k q) := by
  refine (Ideal.matmul_constant_zero_apply dot_S3200x14_S14x128_S3200x128_1_0_0_1_n_n none x w (ix2 p q)).trans ?_
  rw [← Equiv.sum_comp (contrEquiv1 dot_S3200x14_S14x128_S3200x128_1_0_0_1_n_n 14 rfl rfl).symm]
  refine Finset.sum_congr rfl fun k _ => ?_
  have hk := contrEquiv1_symm_val dot_S3200x14_S14x128_S3200x128_1_0_0_1_n_n 14 rfl rfl k
  have el : dot_S3200x14_S14x128_S3200x128_1_0_0_1_n_n.lhsIdx (ix2 p q) ((contrEquiv1 dot_S3200x14_S14x128_S3200x128_1_0_0_1_n_n 14 rfl rfl).symm k) = ix2 p k := funext fun a => Fin.ext (by
    match a with
    | ⟨0, _⟩ => exact region0_dotB_lhs_0 _ _
    | ⟨1, _⟩ => exact (region0_dotB_lhs_1 _ _).trans hk)
  have er : dot_S3200x14_S14x128_S3200x128_1_0_0_1_n_n.rhsIdx (ix2 p q) ((contrEquiv1 dot_S3200x14_S14x128_S3200x128_1_0_0_1_n_n 14 rfl rfl).symm k) = ix2 k q := funext fun a => Fin.ext (by
    match a with
    | ⟨0, _⟩ => exact (region0_dotB_rhs_0 _ _).trans hk
    | ⟨1, _⟩ => exact region0_dotB_rhs_1 _ _)
  rw [el, er]

/-! ## The body's stored value at an index -/

/-- The stored block at row `p`, channel `q`: the same-shape casts are the identity, the narrowing of each operand is the
    identity over the extended reals, the two products are the sums above, their sum is taken entrywise, and the
    positive part is `max · 0` because the zero word is the real zero. -/
theorem region0_pay_apply (x : Vec Ideal S3200x133 .f32) (y : Vec Ideal S3200x14 .f32) (wa : Vec Ideal S133x128 .f32) (wb : Vec Ideal S14x128 .f32)
    (p : Fin 3200) (q : Fin 128) :
    k0_pay1 (F := Ideal) x y wa wb (ix2 p q)
      = max ((∑ k : Fin 133, x (ix2 p k) * wa (ix2 k q)) + ∑ k : Fin 14, y (ix2 p k) * wb (ix2 k q)) 0 := by
  unfold k0_pay1
  simp only [shapeCast_self]
  refine (maximumf_apply _ _ _).trans ?_
  refine congrArg₂ max ?_ Ideal.ofBits_zero_f32
  refine (addf_apply _ _ _).trans ?_
  exact congrArg₂ (· + ·) (region0_matmulA_apply _ _ p q) (region0_matmulB_apply _ _ p q)

/-- If the two row blocks are rows `3200·n + p` of the arrays `X`, `Y` and the two weight blocks are the arrays `Wa`, `Wb`
    whole, the stored block at `(p, q)` is the specification at array row `3200·n + p`, channel `q`: both sides are the same
    two sums under the same `max · 0`. -/
theorem region0_block_value (X : S800000x133.Idx → EReal) (Y : S800000x14.Idx → EReal) (Wa : S133x128.Idx → EReal) (Wb : S14x128.Idx → EReal)
    (x : Vec Ideal S3200x133 .f32) (y : Vec Ideal S3200x14 .f32) (wa : Vec Ideal S133x128 .f32) (wb : Vec Ideal S14x128 .f32)
    (n : Nat) (hn : n < 250)
    (hx : ∀ (p : Fin 3200) (k : Fin 133), x (ix2 p k) = X (ix2 (⟨n * 3200 + p.val, by omega⟩ : Fin 800000) k))
    (hy : ∀ (p : Fin 3200) (k : Fin 14), y (ix2 p k) = Y (ix2 (⟨n * 3200 + p.val, by omega⟩ : Fin 800000) k))
    (hwa : wa = Wa) (hwb : wb = Wb) (p : Fin 3200) (q : Fin 128) :
    k0_pay1 (F := Ideal) x y wa wb (ix2 p q)
      = Cert.Spec.edgeProj X Y Wa Wb (ix2 (⟨n * 3200 + p.val, by omega⟩ : Fin 800000) q) := by
  subst hwa hwb
  refine (region0_pay_apply x y wa wb p q).trans ?_
  show _ = max ((∑ k : Fin 133, X (ix2 _ k) * wa (ix2 k _)) + ∑ k : Fin 14, Y (ix2 _ k) * wb (ix2 k _)) 0
  simp only [hx, hy]

/-! ## The blocks as rows of the arrays -/

theorem region0_hz : (![0, 0] : Fin 2 → Nat) = fun _ => 0 := funext fun a => by fin_cases a <;> rfl

/-- The grid has 250 points. -/
theorem region0_lt (t : Fin cfg0.N) : t.val < 250 := lt_of_lt_of_eq t.isLt N_0

/-- The block indices at point `t`, decided over the 250 points: the two feature windows and the output window sit at
    block row `t`, block column 0; the two weight windows at block (0, 0). -/
theorem region0_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The node-feature block at point `t` is rows `3200·t + p` of its array: a block's coordinate is the block index times the
    block size plus the coordinate inside the block. -/
theorem region0_blk0_apply (V : (c : Dev nD) → (b : Ref sig .tc) → Buf (Elt Ideal) ((c : Thread nD τ).loc b)) (c : Dev nD) (t : Fin cfg0.N) (p : Fin 3200) (k : Fin 133) :
    (iblk0 (F := Ideal) V c 0 t : Vec Ideal S3200x133 .f32) (ix2 p k)
      = (V c main_v10 : S800000x133.Idx → EReal) (ix2 (⟨t.val * 3200 + p.val, by have := region0_lt t; omega⟩ : Fin 800000) k) := by
  obtain ⟨e0, e1, -⟩ := region0_idx_facts t
  unfold iblk0
  rw [View.read_apply]
  show V c main_v10 _ = V c main_v10 _
  congr 1
  funext a
  apply Fin.ext
  match a with
  | ⟨0, _⟩ => show win0_0.index t (0 : Fin 2) * 3200 + 1 * p.val = t.val * 3200 + p.val; rw [e0]; omega
  | ⟨1, _⟩ => show win0_0.index t (1 : Fin 2) * 133 + 1 * k.val = k.val; rw [e1]; omega

/-- The edge-feature block at point `t` is rows `3200·t + p` of its array. -/
theorem region0_blk1_apply (V : (c : Dev nD) → (b : Ref sig .tc) → Buf (Elt Ideal) ((c : Thread nD τ).loc b)) (c : Dev nD) (t : Fin cfg0.N) (p : Fin 3200) (k : Fin 14) :
    (iblk0 (F := Ideal) V c 1 t : Vec Ideal S3200x14 .f32) (ix2 p k)
      = (V c main_arg1 : S800000x14.Idx → EReal) (ix2 (⟨t.val * 3200 + p.val, by have := region0_lt t; omega⟩ : Fin 800000) k) := by
  obtain ⟨-, -, e0, e1, -⟩ := region0_idx_facts t
  unfold iblk0
  rw [View.read_apply]
  show V c main_arg1 _ = V c main_arg1 _
  congr 1
  funext a
  apply Fin.ext
  match a with
  | ⟨0, _⟩ => show win0_1.index t (0 : Fin 2) * 3200 + 1 * p.val = t.val * 3200 + p.val; rw [e0]; omega
  | ⟨1, _⟩ => show win0_1.index t (1 : Fin 2) * 14 + 1 * k.val = k.val; rw [e1]; omega

/-- The first weight block is its array whole at every point (block index (0, 0), block size the array's). -/
theorem region0_blk2_eq (V : (c : Dev nD) → (b : Ref sig .tc) → Buf (Elt Ideal) ((c : Thread nD τ).loc b)) (c : Dev nD) (t : Fin cfg0.N) :
    (iblk0 (F := Ideal) V c 2 t : Vec Ideal S133x128 .f32) = (V c main_v11 : S133x128.Idx → EReal) := by
  obtain ⟨-, -, -, -, e0, e1, -⟩ := region0_idx_facts t
  funext j
  unfold iblk0
  rw [View.read_apply]
  show V c main_v11 _ = V c main_v11 _
  congr 1
  funext a
  apply Fin.ext
  match a with
  | ⟨0, _⟩ => show win0_2.index t (0 : Fin 2) * 133 + 1 * (j 0).val = (j 0).val; rw [e0]; omega
  | ⟨1, _⟩ => show win0_2.index t (1 : Fin 2) * 128 + 1 * (j 1).val = (j 1).val; rw [e1]; omega

/-- The second weight block is its array whole at every point. -/
theorem region0_blk3_eq (V : (c : Dev nD) → (b : Ref sig .tc) → Buf (Elt Ideal) ((c : Thread nD τ).loc b)) (c : Dev nD) (t : Fin cfg0.N) :
    (iblk0 (F := Ideal) V c 3 t : Vec Ideal S14x128 .f32) = (V c main_v12 : S14x128.Idx → EReal) := by
  obtain ⟨-, -, -, -, -, -, e0, e1, -⟩ := region0_idx_facts t
  funext j
  unfold iblk0
  rw [View.read_apply]
  show V c main_v12 _ = V c main_v12 _
  congr 1
  funext a
  apply Fin.ext
  match a with
  | ⟨0, _⟩ => show win0_3.index t (0 : Fin 2) * 14 + 1 * (j 0).val = (j 0).val; rw [e0]; omega
  | ⟨1, _⟩ => show win0_3.index t (1 : Fin 2) * 128 + 1 * (j 1).val = (j 1).val; rw [e1]; omega

/-! ## From blocks to the array -/

/-- What point `t` writes back is block `t` of the specification: the body's one store covers the buffer, its loads read
    the input blocks whole, and entry `(p, q)` of the stored block is the specification at array row `3200·t + p`, which
    is where entry `(p, q)` of output block `t` sits. -/
theorem region0_flushed_eq (V : (c : Dev nD) → (b : Ref sig .tc) → Buf (Elt Ideal) ((c : Thread nD τ).loc b)) (c : Dev nD) (t : Fin cfg0.N) :
    (dat0 (F := Ideal) V c).flushed 4 t
      = ((cfg0.win 4).blk t).view.read (Elt Ideal)
          (Cert.Spec.edgeProj (V c main_v10) (V c main_arg1) (V c main_v11) (V c main_v12)) := by
  show (cfg0.win 4).cut (grid0.coords t) ((dat0 V c).after 4 t) = _
  rw [after0_4]
  unfold out0_4
  rw [View.canon_unit_zero region0_hz]
  simp only [View.ld_unit_zero (S := S3200x133) region0_hz, View.ld_unit_zero (S := S3200x14) region0_hz,
    View.ld_unit_zero (S := S133x128) region0_hz, View.ld_unit_zero (S := S14x128) region0_hz]
  obtain ⟨-, -, -, -, -, -, -, -, e0, e1⟩ := region0_idx_facts t
  funext j
  obtain ⟨p, q, rfl⟩ : ∃ (p : Fin 3200) (q : Fin 128), j = ix2 p q := ⟨j 0, j 1, eq_ix2 j⟩
  have hxi : (cfg0.win 4).xinj (grid0.coords t) (ix2 p q) = ix2 p q :=
    funext fun a => by match a with | ⟨0, _⟩ => rfl | ⟨1, _⟩ => rfl
  show k0_pay1 (F := Ideal) (iblk0 V c 0 t) (iblk0 V c 1 t) (iblk0 V c 2 t) (iblk0 V c 3 t) ((cfg0.win 4).xinj (grid0.coords t) (ix2 p q))
    = Cert.Spec.edgeProj (V c main_v10) (V c main_arg1) (V c main_v11) (V c main_v12) (((cfg0.win 4).blk t).view.emb (ix2 p q))
  refine (congrArg (k0_pay1 (F := Ideal) (iblk0 V c 0 t) (iblk0 V c 1 t) (iblk0 V c 2 t) (iblk0 V c 3 t)) hxi).trans ?_
  refine (region0_block_value (V c main_v10) (V c main_arg1) (V c main_v11) (V c main_v12)
    (iblk0 V c 0 t) (iblk0 V c 1 t) (iblk0 V c 2 t) (iblk0 V c 3 t) t.val (region0_lt t)
    (region0_blk0_apply V c t) (region0_blk1_apply V c t) (region0_blk2_eq V c t) (region0_blk3_eq V c t) p q).trans ?_
  refine congrArg _ (funext fun a => Fin.ext ?_)
  match a with
  | ⟨0, _⟩ => show t.val * 3200 + p.val = win0_4.index t (0 : Fin 2) * 3200 + 1 * p.val; rw [e0]; omega
  | ⟨1, _⟩ => show q.val = win0_4.index t (1 : Fin 2) * 128 + 1 * q.val; rw [e1]; omega

/-- An index of the array is in point `t`'s output block iff each coordinate is in the block's range on its axis. -/
theorem region0_mem_blk (t : Fin cfg0.N) (i : S800000x128.Idx) :
    i ∈ ((cfg0.win 4).blk t).view.set ↔ ∀ a : Fin 2, win0_4.index t a * S3200x128.size a ≤ (i a).val
      ∧ (i a).val < win0_4.index t a * S3200x128.size a + S3200x128.size a := by
  show i ∈ ((View.whole main_v13).slice (win0_4.rect t)).set ↔ _
  rw [View.set_slice_whole, Rect.mem_set_unit]
  exact Iff.rfl

/-- Every index of the array is in some point's output block: row `r` lies in block `r / 3200`, since
    `(r / 3200) · 3200 ≤ r < (r / 3200) · 3200 + 3200`, and every channel lies in the one block column. -/
theorem region0_cover (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  have hN : grid0.N = 250 := N_0
  have ht : (i 0).val / 3200 < cfg0.N := by show (i 0).val / 3200 < grid0.N; rw [hN]; omega
  obtain ⟨-, -, -, -, -, -, -, -, e0, e1⟩ := region0_idx_facts ⟨(i 0).val / 3200, ht⟩
  refine ⟨⟨(i 0).val / 3200, ht⟩, flush0_4 _, ?_⟩
  rw [region0_mem_blk]
  intro a
  match a with
  | ⟨0, _⟩ =>
    show win0_4.index ⟨(i 0).val / 3200, ht⟩ (0 : Fin 2) * 3200 ≤ (i 0).val
      ∧ (i 0).val < win0_4.index ⟨(i 0).val / 3200, ht⟩ (0 : Fin 2) * 3200 + 3200
    rw [e0]; show (i 0).val / 3200 * 3200 ≤ (i 0).val ∧ (i 0).val < (i 0).val / 3200 * 3200 + 3200; omega
  | ⟨1, _⟩ =>
    show win0_4.index ⟨(i 0).val / 3200, ht⟩ (1 : Fin 2) * 128 ≤ (i 1).val
      ∧ (i 1).val < win0_4.index ⟨(i 0).val / 3200, ht⟩ (1 : Fin 2) * 128 + 128
    rw [e1]; omega

/-- The output array after the region: every point writes back its block of the specification and the blocks cover the
    array, so the array is the edge projection of the four arrays the region found. -/
theorem region0_value (V : (c : Dev nD) → (b : Ref sig .tc) → Buf (Elt Ideal) ((c : Thread nD τ).loc b)) (c : Dev nD) :
    (dat0 (F := Ideal) V c).arrAt 4 cfg0.N = Cert.Spec.edgeProj (V c main_v10) (V c main_arg1) (V c main_v11) (V c main_v12) :=
  (dat0 (F := Ideal) V c).arrAt_eq_of_cover 4 (Cert.Spec.edgeProj (V c main_v10) (V c main_arg1) (V c main_v11) (V c main_v12))
    (fun t _ => region0_flushed_eq V c t) region0_cover

end Cert.KernelIdeal.Val

end
-- ==== Proof.Region1.lean ====
import proofs.«405290_j57243324121245_1_alg».proof.Proof.Gen.KernelIdeal.Frame
import proofs.«405290_j57243324121245_1_alg».proof.Proof.Spec
import Idealize.ShloMosaic.Lib.Pipeline.Value
import Idealize.ShloMosaic.Lib.ValueIdx
import Idealize.ShloMosaic.PureOps.Ideal.Laws
noncomputable section
namespace Cert.KernelIdeal.Val
open Cert.KernelIdeal Cert.KernelIdeal.Gen Idealize.ShloMosaic Idealize.ShloMosaic.TcCoe Idealize.ShloMosaic.ValueIdx Idealize.SL.Sem Idealize.ShloMosaic.Pipeline

/-!
  The second dense stage of the network, pallas_call 1: over 250 grid points, point `t` reads rows
  `3200 t … 3200 t + 3199` of three edge arrays `a`, `b`, `h0` (800000 × 128) and the whole weight matrix `w`
  (128 × 128), and writes the same rows of the output:
  `out[r, c] = max (h0[r, c] + ∑ k < 128, (a[r, k] − b[r, k]) · w[k, c]) 0`.
  Over the extended reals the narrowing of the two matmul operands is the identity and the product accumulates into the
  zero splat, so an entry of the body's result is exactly that expression of the entries of its blocks; a block's
  entry `(p, k)` is the array's entry `(3200 t + p, k)`; and row `r` of the output lies in the block of point `r / 3200`.
-/

/-- The zero offsets of a whole-buffer access, as a constant function. -/
theorem hz1 : (![0, 0] : Fin 2 → Nat) = fun _ => 0 := funext fun a => by fin_cases a <;> rfl

/-- The left operand's index of the product at output index `i` and contraction index `q`: its row is `i`'s row, -/
theorem lhs_upd1_0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl
/-- and its column is the contraction coordinate. -/
theorem lhs_upd1_1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q
/-- The right operand's index: its row is the contraction coordinate, -/
theorem rhs_upd1_0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q
/-- and its column is `i`'s column. -/
theorem rhs_upd1_1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

/-- The 3200 × 128 by 128 × 128 product into the zero splat, at entry `(p, q)`: the sum over the inner axis of the
    products, the one-axis contraction index re-read as `k : Fin 128`. -/
theorem matmul_upd1_apply (a : FVec Ideal S3200x128 .bf16) (w : FVec Ideal S128x128 .bf16) (p : Fin 3200) (q : Fin 128) :
    matmul dot_S3200x128_S128x128_S3200x128_1_0_0_1_n_n none a w (constant (F := Ideal) S3200x128 .f32 0x00000000#32) (ix2 p q)
      = ∑ k : Fin 128, a (ix2 p k) * w (ix2 k q) := by
  simp only [matmul]
  rw [Ideal.matmul_constant_zero_apply, ← Equiv.sum_comp (contrEquiv1 dot_S3200x128_S128x128_S3200x128_1_0_0_1_n_n 128 rfl rfl).symm]
  refine Finset.sum_congr rfl fun k _ => ?_
  have hk := contrEquiv1_symm_val dot_S3200x128_S128x128_S3200x128_1_0_0_1_n_n 128 rfl rfl k
  have el : dot_S3200x128_S128x128_S3200x128_1_0_0_1_n_n.lhsIdx (ix2 p q) ((contrEquiv1 dot_S3200x128_S128x128_S3200x128_1_0_0_1_n_n 128 rfl rfl).symm k) = ix2 p k := funext fun a => Fin.ext (by
    match a with
    | ⟨0, _⟩ => exact lhs_upd1_0 _ _
    | ⟨1, _⟩ => exact (lhs_upd1_1 _ _).trans hk)
  have er : dot_S3200x128_S128x128_S3200x128_1_0_0_1_n_n.rhsIdx (ix2 p q) ((contrEquiv1 dot_S3200x128_S128x128_S3200x128_1_0_0_1_n_n 128 rfl rfl).symm k) = ix2 k q := funext fun a => Fin.ext (by
    match a with
    | ⟨0, _⟩ => exact (rhs_upd1_0 _ _).trans hk
    | ⟨1, _⟩ => exact rhs_upd1_1 _ _)
  rw [el, er]

/-- The body's result at entry `(p, q)`: the positive part of `h0 + (a − b)·w` there (the shape casts are to the same
    shape, the narrowing is the identity, `addf` adds the product onto `h0`, the zero word is `0`). -/
theorem pay1_apply (v0 v2 : Vec Ideal S3200x128 .f32) (v6 : Vec Ideal S128x128 .f32) (v9 : Vec Ideal S3200x128 .f32) (p : Fin 3200) (q : Fin 128) :
    k1_pay1 v0 v2 v6 v9 (ix2 p q) = max (v9 (ix2 p q) + ∑ k : Fin 128, (v0 (ix2 p k) - v2 (ix2 p k)) * v6 (ix2 k q)) 0 := by
  unfold k1_pay1
  simp only [shapeCast_self]
  refine (maximumf_apply _ _ _).trans ?_
  rw [broadcast_apply, addf_apply]
  refine congrArg₂ max (congrArg₂ (· + ·) rfl ?_) ?_
  · refine (matmul_upd1_apply _ _ p q).trans ?_
    rfl
  · exact Ideal.ofBits_zero_f32

/-- One entry of the body's result, from what its four blocks hold: if row `p` of the three edge blocks is row `r` of
    the arrays and the weight block is the weight matrix, entry `(p, q)` of the result is entry `(r, q)` of the update. -/
theorem point1_val (x0 x1 x2 : Vec Ideal S3200x128 .f32) (x3 : Vec Ideal S128x128 .f32)
    (A B H : S800000x128.Idx → EReal) (W : S128x128.Idx → EReal) (p : Fin 3200) (q : Fin 128) (r : Fin 800000)
    (e0 : ∀ k : Fin 128, x0 (ix2 p k) = A (ix2 r k)) (e1 : ∀ k : Fin 128, x1 (ix2 p k) = B (ix2 r k))
    (e2 : x2 (ix2 p q) = H (ix2 r q)) (e3 : ∀ k : Fin 128, x3 (ix2 k q) = W (ix2 k q)) :
    k1_pay1 x0 x1 x3 x2 (ix2 p q) = Cert.Spec.edgeUpd A B H W (ix2 r q) := by
  refine (pay1_apply x0 x1 x3 x2 p q).trans ?_
  show _ = max (H (ix2 r q) + ∑ k : Fin 128, (A (ix2 r k) - B (ix2 r k)) * W (ix2 k q)) 0
  rw [e2]
  refine congrArg (fun s => max (H (ix2 r q) + s) 0) (Finset.sum_congr rfl fun k _ => ?_)
  rw [e0 k, e1 k, e3 k]

/-- The printed index maps, decided once over the 250 grid points: windows 0, 1, 2 and the output window 4 sit at block
    row `t`, column block 0; the weights' window 3 at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b)) (c : Dev nD)

/-- Window 0's block at point `t` is rows `3200 t … 3200 t + 3199` of its array. -/
theorem iblk1_0_apply (t : Fin cfg1.N) (p : Fin 3200) (k : Fin 128) (r : Fin 800000) (hr : r.val = t.val * 3200 + p.val) :
    (iblk1 V c 0 t : Vec Ideal S3200x128 .f32) (ix2 p k) = (V c main_v23 : S800000x128.Idx → EReal) (ix2 r k) := by
  obtain ⟨e0, e1, -⟩ := idx_facts1 t
  unfold iblk1
  rw [View.read_apply]
  show V c main_v23 _ = V c main_v23 _
  congr 1
  funext a
  apply Fin.ext
  match a with
  | ⟨0, _⟩ => show win1_0.index t (0 : Fin 2) * 3200 + 1 * p.val = r.val; rw [e0, hr]; omega
  | ⟨1, _⟩ => show win1_0.index t (1 : Fin 2) * 128 + 1 * k.val = k.val; rw [e1]; omega

/-- Window 1's block at point `t` is the same rows of its array. -/
theorem iblk1_1_apply (t : Fin cfg1.N) (p : Fin 3200) (k : Fin 128) (r : Fin 800000) (hr : r.val = t.val * 3200 + p.val) :
    (iblk1 V c 1 t : Vec Ideal S3200x128 .f32) (ix2 p k) = (V c main_v30 : S800000x128.Idx → EReal) (ix2 r k) := by
  obtain ⟨-, -, e0, e1, -⟩ := idx_facts1 t
  unfold iblk1
  rw [View.read_apply]
  show V c main_v30 _ = V c main_v30 _
  congr 1
  funext a
  apply Fin.ext
  match a with
  | ⟨0, _⟩ => show win1_1.index t (0 : Fin 2) * 3200 + 1 * p.val = r.val; rw [e0, hr]; omega
  | ⟨1, _⟩ => show win1_1.index t (1 : Fin 2) * 128 + 1 * k.val = k.val; rw [e1]; omega

/-- Window 2's block at point `t` is the same rows of its array. -/
theorem iblk1_2_apply (t : Fin cfg1.N) (p : Fin 3200) (k : Fin 128) (r : Fin 800000) (hr : r.val = t.val * 3200 + p.val) :
    (iblk1 V c 2 t : Vec Ideal S3200x128 .f32) (ix2 p k) = (V c main_v13 : S800000x128.Idx → EReal) (ix2 r k) := by
  obtain ⟨-, -, -, -, e0, e1, -⟩ := idx_facts1 t
  unfold iblk1
  rw [View.read_apply]
  show V c main_v13 _ = V c main_v13 _
  congr 1
  funext a
  apply Fin.ext
  match a with
  | ⟨0, _⟩ => show win1_2.index t (0 : Fin 2) * 3200 + 1 * p.val = r.val; rw [e0, hr]; omega
  | ⟨1, _⟩ => show win1_2.index t (1 : Fin 2) * 128 + 1 * k.val = k.val; rw [e1]; omega

/-- Window 3's block at every point is the whole weight matrix. -/
theorem iblk1_3_apply (t : Fin cfg1.N) (k q : Fin 128) :
    (iblk1 V c 3 t : Vec Ideal S128x128 .f32) (ix2 k q) = (V c main_arg3 : S128x128.Idx → EReal) (ix2 k q) := by
  obtain ⟨-, -, -, -, -, -, e0, e1, -⟩ := idx_facts1 t
  unfold iblk1
  rw [View.read_apply]
  show V c main_arg3 _ = V c main_arg3 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- What point `t` writes back is block `t` of the update of the four arrays as the region finds them: entry
    `(p, q)` of the block is row `3200 t + p` of the update, which reads that row of the three edge arrays and
    column `q` of the weights. -/
theorem flushed1_eq (t : Fin cfg1.N) :
    (dat1 (F := Ideal) V c).flushed 4 t
      = ((cfg1.win 4).blk t).view.read (Elt Ideal) (Cert.Spec.edgeUpd (V c main_v23) (V c main_v30) (V c main_v13) (V c main_arg3)) := by
  show (cfg1.win 4).cut (grid1.coords t) ((dat1 V c).after 4 t) = _
  rw [after1_4]
  unfold out1_4
  rw [View.canon_unit_zero hz1]
  simp only [View.ld_unit_zero (S := S3200x128) hz1, View.ld_unit_zero (S := S128x128) hz1]
  obtain ⟨-, -, -, -, -, -, -, -, e0, e1⟩ := idx_facts1 t
  have hN : cfg1.N = 250 := N_1
  have ht : t.val < 250 := hN ▸ t.isLt
  refine funext fun (j : S3200x128.Idx) => ?_
  obtain ⟨p, q, rfl⟩ : ∃ (p : Fin 3200) (q : Fin 128), j = ix2 p q := ⟨j 0, j 1, eq_ix2 j⟩
  have hp : p.val < 3200 := p.isLt
  let r : Fin 800000 := ⟨t.val * 3200 + p.val, by omega⟩
  show k1_pay1 (iblk1 V c 0 t) (iblk1 V c 1 t) (iblk1 V c 3 t) (iblk1 V c 2 t) (ix2 p q)
    = Cert.Spec.edgeUpd (V c main_v23) (V c main_v30) (V c main_v13) (V c main_arg3) (((cfg1.win 4).blk t).view.emb (ix2 p q))
  have hemb : ((cfg1.win 4).blk t).view.emb (ix2 p q) = (ix2 r q : S800000x128.Idx) := by
    funext a
    apply Fin.ext
    match a with
    | ⟨0, _⟩ => show win1_4.index t (0 : Fin 2) * 3200 + 1 * p.val = t.val * 3200 + p.val; rw [e0]; omega
    | ⟨1, _⟩ => show win1_4.index t (1 : Fin 2) * 128 + 1 * q.val = q.val; rw [e1]; omega
  rw [hemb]
  exact point1_val (iblk1 V c 0 t) (iblk1 V c 1 t) (iblk1 V c 2 t) (iblk1 V c 3 t) (V c main_v23) (V c main_v30) (V c main_v13) (V c main_arg3) p q r
    (fun k => iblk1_0_apply V c t p k r rfl) (fun k => iblk1_1_apply V c t p k r rfl) (iblk1_2_apply V c t p q r rfl) (fun k => iblk1_3_apply V c t k q)

/-- An index of the output array is in point `t`'s block iff each coordinate is in the block's range on its axis. -/
theorem mem_blk1 (t : Fin cfg1.N) (i : S800000x128.Idx) :
    i ∈ ((cfg1.win 4).blk t).view.set ↔ ∀ a : Fin 2, win1_4.index t a * S3200x128.size a ≤ (i a).val ∧ (i a).val < win1_4.index t a * S3200x128.size a + S3200x128.size a := by
  show i ∈ ((View.whole main_v31).slice (win1_4.rect t)).set ↔ _
  rw [View.set_slice_whole, Rect.mem_set_unit]
  exact Iff.rfl

/-- Row `r` of the output array lies in the block of point `r / 3200`, which writes back. -/
theorem cover1 (i : S800000x128.Idx) : ∃ t : Fin cfg1.N, (cfg1.win 4).flush t = true ∧ i ∈ ((cfg1.win 4).blk t).view.set := by
  have hi0 : (i 0).val < 800000 := (i 0).isLt
  have hi1 : (i 1).val < 128 := (i 1).isLt
  have hN : cfg1.N = 250 := N_1
  have htlt : (i 0).val / 3200 < cfg1.N := by rw [hN]; omega
  obtain ⟨-, -, -, -, -, -, -, -, e0, e1⟩ := idx_facts1 ⟨(i 0).val / 3200, htlt⟩
  refine ⟨⟨(i 0).val / 3200, htlt⟩, flush1_4 _, ?_⟩
  rw [mem_blk1]
  intro a
  match a with
  | ⟨0, _⟩ =>
    show win1_4.index ⟨(i 0).val / 3200, htlt⟩ (0 : Fin 2) * 3200 ≤ (i 0).val ∧ (i 0).val < win1_4.index ⟨(i 0).val / 3200, htlt⟩ (0 : Fin 2) * 3200 + 3200
    rw [e0]; show (i 0).val / 3200 * 3200 ≤ (i 0).val ∧ (i 0).val < (i 0).val / 3200 * 3200 + 3200; omega
  | ⟨1, _⟩ =>
    show win1_4.index ⟨(i 0).val / 3200, htlt⟩ (1 : Fin 2) * 128 ≤ (i 1).val ∧ (i 1).val < win1_4.index ⟨(i 0).val / 3200, htlt⟩ (1 : Fin 2) * 128 + 128
    rw [e1]; omega
end

/-- The output array of pallas_call 1 after the region is the update of the four arrays the region finds: every point
    writes back its block of it, and the 250 blocks of 3200 rows cover the 800000 rows. -/
theorem region1_value (V : (c : Dev nD) → (b : Ref sig .tc) → Buf (Elt Ideal) ((c : Thread nD τ).loc b)) (c : Dev nD) :
    (dat1 (F := Ideal) V c).arrAt 4 cfg1.N = Cert.Spec.edgeUpd (V c main_v23) (V c main_v30) (V c main_v13) (V c main_arg3) :=
  (dat1 (F := Ideal) V c).arrAt_eq_of_cover 4 _ (fun t _ => flushed1_eq V c t) (cover1)

end Cert.KernelIdeal.Val
end
-- ==== Proof.Region2.lean ====
import proofs.«405290_j57243324121245_1_alg».proof.Proof.Gen.KernelIdeal.Frame
import proofs.«405290_j57243324121245_1_alg».proof.Proof.Spec
import Idealize.ShloMosaic.Lib.Pipeline.Value
import Idealize.ShloMosaic.Lib.ValueIdx
import Idealize.ShloMosaic.PureOps.Ideal.Laws
noncomputable section
namespace Cert.KernelIdeal.Val
open Cert.KernelIdeal Cert.KernelIdeal.Gen Idealize.ShloMosaic Idealize.ShloMosaic.TcCoe Idealize.ShloMosaic.ValueIdx Idealize.SL.Sem Idealize.ShloMosaic.Pipeline

/-!
  The second message-update step of the network, pallas_call 2 (the same body as pallas_call 1, on the arrays of the
  next round): over 250 grid points, point `t` reads rows
  `3200 t … 3200 t + 3199` of three edge arrays `a`, `b`, `h0` (800000 × 128) and the whole weight matrix `w`
  (128 × 128), and writes the same rows of the output:
  `out[r, c] = max (h0[r, c] + ∑ k < 128, (a[r, k] − b[r, k]) · w[k, c]) 0`.
  Over the extended reals the narrowing of the two matmul operands is the identity and the product accumulates into the
  zero splat, so an entry of the body's result is exactly that expression of the entries of its blocks; a block's
  entry `(p, k)` is the array's entry `(3200 t + p, k)`; and row `r` of the output lies in the block of point `r / 3200`.
-/

/-- The zero offsets of a whole-buffer access, as a constant function. -/
theorem hz2 : (![0, 0] : Fin 2 → Nat) = fun _ => 0 := funext fun a => by fin_cases a <;> rfl

/-- The left operand's index of the product at output index `i` and contraction index `q`: its row is `i`'s row, -/
theorem lhs_upd2_0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl
/-- and its column is the contraction coordinate. -/
theorem lhs_upd2_1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q
/-- The right operand's index: its row is the contraction coordinate, -/
theorem rhs_upd2_0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q
/-- and its column is `i`'s column. -/
theorem rhs_upd2_1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

/-- The 3200 × 128 by 128 × 128 product into the zero splat, at entry `(p, q)`: the sum over the inner axis of the
    products, the one-axis contraction index re-read as `k : Fin 128`. -/
theorem matmul_upd2_apply (a : FVec Ideal S3200x128 .bf16) (w : FVec Ideal S128x128 .bf16) (p : Fin 3200) (q : Fin 128) :
    matmul dot_S3200x128_S128x128_S3200x128_1_0_0_1_n_n none a w (constant (F := Ideal) S3200x128 .f32 0x00000000#32) (ix2 p q)
      = ∑ k : Fin 128, a (ix2 p k) * w (ix2 k q) := by
  simp only [matmul]
  rw [Ideal.matmul_constant_zero_apply, ← Equiv.sum_comp (contrEquiv1 dot_S3200x128_S128x128_S3200x128_1_0_0_1_n_n 128 rfl rfl).symm]
  refine Finset.sum_congr rfl fun k _ => ?_
  have hk := contrEquiv1_symm_val dot_S3200x128_S128x128_S3200x128_1_0_0_1_n_n 128 rfl rfl k
  have el : dot_S3200x128_S128x128_S3200x128_1_0_0_1_n_n.lhsIdx (ix2 p q) ((contrEquiv1 dot_S3200x128_S128x128_S3200x128_1_0_0_1_n_n 128 rfl rfl).symm k) = ix2 p k := funext fun a => Fin.ext (by
    match a with
    | ⟨0, _⟩ => exact lhs_upd2_0 _ _
    | ⟨1, _⟩ => exact (lhs_upd2_1 _ _).trans hk)
  have er : dot_S3200x128_S128x128_S3200x128_1_0_0_1_n_n.rhsIdx (ix2 p q) ((contrEquiv1 dot_S3200x128_S128x128_S3200x128_1_0_0_1_n_n 128 rfl rfl).symm k) = ix2 k q := funext fun a => Fin.ext (by
    match a with
    | ⟨0, _⟩ => exact (rhs_upd2_0 _ _).trans hk
    | ⟨1, _⟩ => exact rhs_upd2_1 _ _)
  rw [el, er]

/-- The body's result at entry `(p, q)`: the positive part of `h0 + (a − b)·w` there (the shape casts are to the same
    shape, the narrowing is the identity, `addf` adds the product onto `h0`, the zero word is `0`). -/
theorem pay2_apply (v0 v2 : Vec Ideal S3200x128 .f32) (v6 : Vec Ideal S128x128 .f32) (v9 : Vec Ideal S3200x128 .f32) (p : Fin 3200) (q : Fin 128) :
    k2_pay1 v0 v2 v6 v9 (ix2 p q) = max (v9 (ix2 p q) + ∑ k : Fin 128, (v0 (ix2 p k) - v2 (ix2 p k)) * v6 (ix2 k q)) 0 := by
  unfold k2_pay1
  simp only [shapeCast_self]
  refine (maximumf_apply _ _ _).trans ?_
  rw [broadcast_apply, addf_apply]
  refine congrArg₂ max (congrArg₂ (· + ·) rfl ?_) ?_
  · refine (matmul_upd2_apply _ _ p q).trans ?_
    rfl
  · exact Ideal.ofBits_zero_f32

/-- One entry of the body's result, from what its four blocks hold: if row `p` of the three edge blocks is row `r` of
    the arrays and the weight block is the weight matrix, entry `(p, q)` of the result is entry `(r, q)` of the update. -/
theorem point2_val (x0 x1 x2 : Vec Ideal S3200x128 .f32) (x3 : Vec Ideal S128x128 .f32)
    (A B H : S800000x128.Idx → EReal) (W : S128x128.Idx → EReal) (p : Fin 3200) (q : Fin 128) (r : Fin 800000)
    (e0 : ∀ k : Fin 128, x0 (ix2 p k) = A (ix2 r k)) (e1 : ∀ k : Fin 128, x1 (ix2 p k) = B (ix2 r k))
    (e2 : x2 (ix2 p q) = H (ix2 r q)) (e3 : ∀ k : Fin 128, x3 (ix2 k q) = W (ix2 k q)) :
    k2_pay1 x0 x1 x3 x2 (ix2 p q) = Cert.Spec.edgeUpd A B H W (ix2 r q) := by
  refine (pay2_apply x0 x1 x3 x2 p q).trans ?_
  show _ = max (H (ix2 r q) + ∑ k : Fin 128, (A (ix2 r k) - B (ix2 r k)) * W (ix2 k q)) 0
  rw [e2]
  refine congrArg (fun s => max (H (ix2 r q) + s) 0) (Finset.sum_congr rfl fun k _ => ?_)
  rw [e0 k, e1 k, e3 k]

/-- The printed index maps, decided once over the 250 grid points: windows 0, 1, 2 and the output window 4 sit at block
    row `t`, column block 0; the weights' window 3 at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

section
variable (V : (c : Dev nD) → (b : Ref sig .tc) → Buf (Elt Ideal) ((c : Thread nD τ).loc b)) (c : Dev nD)

/-- Window 0's block at point `t` is rows `3200 t … 3200 t + 3199` of its array. -/
theorem iblk2_0_apply (t : Fin cfg2.N) (p : Fin 3200) (k : Fin 128) (r : Fin 800000) (hr : r.val = t.val * 3200 + p.val) :
    (iblk2 V c 0 t : Vec Ideal S3200x128 .f32) (ix2 p k) = (V c main_v41 : S800000x128.Idx → EReal) (ix2 r k) := by
  obtain ⟨e0, e1, -⟩ := idx_facts2 t
  unfold iblk2
  rw [View.read_apply]
  show V c main_v41 _ = V c main_v41 _
  congr 1
  funext a
  apply Fin.ext
  match a with
  | ⟨0, _⟩ => show win2_0.index t (0 : Fin 2) * 3200 + 1 * p.val = r.val; rw [e0, hr]; omega
  | ⟨1, _⟩ => show win2_0.index t (1 : Fin 2) * 128 + 1 * k.val = k.val; rw [e1]; omega

/-- Window 1's block at point `t` is the same rows of its array. -/
theorem iblk2_1_apply (t : Fin cfg2.N) (p : Fin 3200) (k : Fin 128) (r : Fin 800000) (hr : r.val = t.val * 3200 + p.val) :
    (iblk2 V c 1 t : Vec Ideal S3200x128 .f32) (ix2 p k) = (V c main_v48 : S800000x128.Idx → EReal) (ix2 r k) := by
  obtain ⟨-, -, e0, e1, -⟩ := idx_facts2 t
  unfold iblk2
  rw [View.read_apply]
  show V c main_v48 _ = V c main_v48 _
  congr 1
  funext a
  apply Fin.ext
  match a with
  | ⟨0, _⟩ => show win2_1.index t (0 : Fin 2) * 3200 + 1 * p.val = r.val; rw [e0, hr]; omega
  | ⟨1, _⟩ => show win2_1.index t (1 : Fin 2) * 128 + 1 * k.val = k.val; rw [e1]; omega

/-- Window 2's block at point `t` is the same rows of its array. -/
theorem iblk2_2_apply (t : Fin cfg2.N) (p : Fin 3200) (k : Fin 128) (r : Fin 800000) (hr : r.val = t.val * 3200 + p.val) :
    (iblk2 V c 2 t : Vec Ideal S3200x128 .f32) (ix2 p k) = (V c main_v13 : S800000x128.Idx → EReal) (ix2 r k) := by
  obtain ⟨-, -, -, -, e0, e1, -⟩ := idx_facts2 t
  unfold iblk2
  rw [View.read_apply]
  show V c main_v13 _ = V c main_v13 _
  congr 1
  funext a
  apply Fin.ext
  match a with
  | ⟨0, _⟩ => show win2_2.index t (0 : Fin 2) * 3200 + 1 * p.val = r.val; rw [e0, hr]; omega
  | ⟨1, _⟩ => show win2_2.index t (1 : Fin 2) * 128 + 1 * k.val = k.val; rw [e1]; omega

/-- Window 3's block at every point is the whole weight matrix. -/
theorem iblk2_3_apply (t : Fin cfg2.N) (k q : Fin 128) :
    (iblk2 V c 3 t : Vec Ideal S128x128 .f32) (ix2 k q) = (V c main_arg3 : S128x128.Idx → EReal) (ix2 k q) := by
  obtain ⟨-, -, -, -, -, -, e0, e1, -⟩ := idx_facts2 t
  unfold iblk2
  rw [View.read_apply]
  show V c main_arg3 _ = V c main_arg3 _
  congr 1
  funext a
  apply Fin.ext
  match a with
  | ⟨0, _⟩ => show win2_3.index t (0 : Fin 2) * 128 + 1 * k.val = k.val; rw [e0]; omega
  | ⟨1, _⟩ => show win2_3.index t (1 : Fin 2) * 128 + 1 * q.val = q.val; rw [e1]; omega

/-- What point `t` writes back is block `t` of the update of the four arrays as the region finds them: entry
    `(p, q)` of the block is row `3200 t + p` of the update, which reads that row of the three edge arrays and
    column `q` of the weights. -/
theorem flushed2_eq (t : Fin cfg2.N) :
    (dat2 (F := Ideal) V c).flushed 4 t
      = ((cfg2.win 4).blk t).view.read (Elt Ideal) (Cert.Spec.edgeUpd (V c main_v41) (V c main_v48) (V c main_v13) (V c main_arg3)) := by
  show (cfg2.win 4).cut (grid2.coords t) ((dat2 V c).after 4 t) = _
  rw [after2_4]
  unfold out2_4
  rw [View.canon_unit_zero hz2]
  simp only [View.ld_unit_zero (S := S3200x128) hz2, View.ld_unit_zero (S := S128x128) hz2]
  obtain ⟨-, -, -, -, -, -, -, -, e0, e1⟩ := idx_facts2 t
  have hN : cfg2.N = 250 := N_2
  have ht : t.val < 250 := hN ▸ t.isLt
  refine funext fun (j : S3200x128.Idx) => ?_
  obtain ⟨p, q, rfl⟩ : ∃ (p : Fin 3200) (q : Fin 128), j = ix2 p q := ⟨j 0, j 1, eq_ix2 j⟩
  have hp : p.val < 3200 := p.isLt
  let r : Fin 800000 := ⟨t.val * 3200 + p.val, by omega⟩
  show k2_pay1 (iblk2 V c 0 t) (iblk2 V c 1 t) (iblk2 V c 3 t) (iblk2 V c 2 t) (ix2 p q)
    = Cert.Spec.edgeUpd (V c main_v41) (V c main_v48) (V c main_v13) (V c main_arg3) (((cfg2.win 4).blk t).view.emb (ix2 p q))
  have hemb : ((cfg2.win 4).blk t).view.emb (ix2 p q) = (ix2 r q : S800000x128.Idx) := by
    funext a
    apply Fin.ext
    match a with
    | ⟨0, _⟩ => show win2_4.index t (0 : Fin 2) * 3200 + 1 * p.val = t.val * 3200 + p.val; rw [e0]; omega
    | ⟨1, _⟩ => show win2_4.index t (1 : Fin 2) * 128 + 1 * q.val = q.val; rw [e1]; omega
  rw [hemb]
  exact point2_val (iblk2 V c 0 t) (iblk2 V c 1 t) (iblk2 V c 2 t) (iblk2 V c 3 t) (V c main_v41) (V c main_v48) (V c main_v13) (V c main_arg3) p q r
    (fun k => iblk2_0_apply V c t p k r rfl) (fun k => iblk2_1_apply V c t p k r rfl) (iblk2_2_apply V c t p q r rfl) (fun k => iblk2_3_apply V c t k q)

/-- An index of the output array is in point `t`'s block iff each coordinate is in the block's range on its axis. -/
theorem mem_blk2 (t : Fin cfg2.N) (i : S800000x128.Idx) :
    i ∈ ((cfg2.win 4).blk t).view.set ↔ ∀ a : Fin 2, win2_4.index t a * S3200x128.size a ≤ (i a).val ∧ (i a).val < win2_4.index t a * S3200x128.size a + S3200x128.size a := by
  show i ∈ ((View.whole main_v49).slice (win2_4.rect t)).set ↔ _
  rw [View.set_slice_whole, Rect.mem_set_unit]
  exact Iff.rfl

/-- Row `r` of the output array lies in the block of point `r / 3200`, which writes back. -/
theorem cover2 (i : S800000x128.Idx) : ∃ t : Fin cfg2.N, (cfg2.win 4).flush t = true ∧ i ∈ ((cfg2.win 4).blk t).view.set := by
  have hi0 : (i 0).val < 800000 := (i 0).isLt
  have hi1 : (i 1).val < 128 := (i 1).isLt
  have hN : cfg2.N = 250 := N_2
  have htlt : (i 0).val / 3200 < cfg2.N := by rw [hN]; omega
  obtain ⟨-, -, -, -, -, -, -, -, e0, e1⟩ := idx_facts2 ⟨(i 0).val / 3200, htlt⟩
  refine ⟨⟨(i 0).val / 3200, htlt⟩, flush2_4 _, ?_⟩
  rw [mem_blk2]
  intro a
  match a with
  | ⟨0, _⟩ =>
    show win2_4.index ⟨(i 0).val / 3200, htlt⟩ (0 : Fin 2) * 3200 ≤ (i 0).val ∧ (i 0).val < win2_4.index ⟨(i 0).val / 3200, htlt⟩ (0 : Fin 2) * 3200 + 3200
    rw [e0]; show (i 0).val / 3200 * 3200 ≤ (i 0).val ∧ (i 0).val < (i 0).val / 3200 * 3200 + 3200; omega
  | ⟨1, _⟩ =>
    show win2_4.index ⟨(i 0).val / 3200, htlt⟩ (1 : Fin 2) * 128 ≤ (i 1).val ∧ (i 1).val < win2_4.index ⟨(i 0).val / 3200, htlt⟩ (1 : Fin 2) * 128 + 128
    rw [e1]; omega
end

/-- The output array of pallas_call 2 after the region is the update of the four arrays the region finds: every point
    writes back its block of it, and the 250 blocks of 3200 rows cover the 800000 rows. -/
theorem region2_value (V : (c : Dev nD) → (b : Ref sig .tc) → Buf (Elt Ideal) ((c : Thread nD τ).loc b)) (c : Dev nD) :
    (dat2 (F := Ideal) V c).arrAt 4 cfg2.N = Cert.Spec.edgeUpd (V c main_v41) (V c main_v48) (V c main_v13) (V c main_arg3) :=
  (dat2 (F := Ideal) V c).arrAt_eq_of_cover 4 _ (fun t _ => flushed2_eq V c t) (cover2)

end Cert.KernelIdeal.Val
end
-- ==== Proof.Region3.lean ====
/-
  The node projection, read off the fourth region's blocks.

  The region walks the 50000 node rows in 10 blocks of 5000 rows. At block `t` the body forms, for a row `p` of the
  block and a channel `q`,
    `max (∑ k < 133, x[p, k] · wa[k, q] + ∑ k < 128, y[p, k] · wb[k, q]) 0`,
  where `x` and `y` are rows `5000·t … 5000·t + 4999` of the node-feature array and of the message array and `wa`, `wb`
  are the two weight blocks whole. Over the extended reals the narrowing of the operands is the identity and each
  product accumulates into the zero splat, so the entry is exactly the specification's `proj2` at array row
  `5000·t + p`. Row `r` of the array lies in block `r / 5000`, so the blocks cover the array and the array ends holding
  `Cert.Spec.nodeProj`.
-/
import proofs.«405290_j57243324121245_1_alg».proof.Proof.Gen.KernelIdeal.Frame
import proofs.«405290_j57243324121245_1_alg».proof.Proof.Spec
import Idealize.ShloMosaic.Lib.Pipeline.Value
import Idealize.ShloMosaic.Lib.ValueIdx
import Idealize.ShloMosaic.PureOps.Ideal.Laws
noncomputable section
namespace Cert.KernelIdeal.Val
open Cert.KernelIdeal Cert.KernelIdeal.Gen Idealize.ShloMosaic Idealize.ShloMosaic.TcCoe Idealize.ShloMosaic.ValueIdx Idealize.SL.Sem Idealize.ShloMosaic.Pipeline

/-! ## The two products at an index -/

/-- Node-feature product: the left operand's row is the output's row. -/
theorem region3_dotA_lhs_0 (i : S5000x128.Idx) (q : dot_S5000x133_S133x128_S5000x128_1_0_0_1_n_n.contr.Idx) :
    (dot_S5000x133_S133x128_S5000x128_1_0_0_1_n_n.lhsIdx i q 0).val = (i 0).val := by
  unfold DotDims.lhsIdx
  rw [dif_neg (show ¬(0 : Fin S5000x133.rank) ∈ dot_S5000x133_S133x128_S5000x128_1_0_0_1_n_n.lhsBatch by decide), dif_pos (show (0 : Fin S5000x133.rank) ∈ dot_S5000x133_S133x128_S5000x128_1_0_0_1_n_n.lhsNonContracting by decide)]
  rfl
/-- Node-feature product: the left operand's column is the contraction index. -/
theorem region3_dotA_lhs_1 (i : S5000x128.Idx) (q : dot_S5000x133_S133x128_S5000x128_1_0_0_1_n_n.contr.Idx) :
    (dot_S5000x133_S133x128_S5000x128_1_0_0_1_n_n.lhsIdx i q 1).val = (q ⟨0, by decide⟩).val :=
  dot_S5000x133_S133x128_S5000x128_1_0_0_1_n_n.lhsIdx_val_of_single rfl i q
/-- Node-feature product: the right operand's row is the contraction index. -/
theorem region3_dotA_rhs_0 (i : S5000x128.Idx) (q : dot_S5000x133_S133x128_S5000x128_1_0_0_1_n_n.contr.Idx) :
    (dot_S5000x133_S133x128_S5000x128_1_0_0_1_n_n.rhsIdx i q 0).val = (q ⟨0, by decide⟩).val :=
  dot_S5000x133_S133x128_S5000x128_1_0_0_1_n_n.rhsIdx_val_of_single rfl i q
/-- Node-feature product: the right operand's column is the output's column. -/
theorem region3_dotA_rhs_1 (i : S5000x128.Idx) (q : dot_S5000x133_S133x128_S5000x128_1_0_0_1_n_n.contr.Idx) :
    (dot_S5000x133_S133x128_S5000x128_1_0_0_1_n_n.rhsIdx i q 1).val = (i 1).val := by
  unfold DotDims.rhsIdx
  rw [dif_neg (show ¬(1 : Fin S133x128.rank) ∈ dot_S5000x133_S133x128_S5000x128_1_0_0_1_n_n.rhsBatch by decide), dif_pos (show (1 : Fin S133x128.rank) ∈ dot_S5000x133_S133x128_S5000x128_1_0_0_1_n_n.rhsNonContracting by decide)]
  rfl

/-- Message product: the left operand's row is the output's row. -/
theorem region3_dotB_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Message product: the left operand's column is the contraction index. -/
theorem region3_dotB_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Message product: the right operand's row is the contraction index. -/
theorem region3_dotB_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Message product: the right operand's column is the output's column. -/
theorem region3_dotB_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The node-feature product into the zero splat, at row `p` and channel `q`: the sum over the 133 inner positions of the
    row's entry times the column's entry (the one-axis contraction index re-indexed by its coordinate). -/
theorem region3_matmulA_apply (x : FVec Ideal S5000x133 .bf16) (w : FVec Ideal S133x128 .bf16) (p : Fin 5000) (q : Fin 128) :
    matmul dot_S5000x133_S133x128_S5000x128_1_0_0_1_n_n none x w (constant (F := Ideal) S5000x128 .f32 0x00000000#32) (ix2 p q)
      = ∑ k : Fin 133, x (ix2 p k) * w (ix2 k q) := by
  refine (Ideal.matmul_constant_zero_apply dot_S5000x133_S133x128_S5000x128_1_0_0_1_n_n none x w (ix2 p q)).trans ?_
  rw [← Equiv.sum_comp (contrEquiv1 dot_S5000x133_S133x128_S5000x128_1_0_0_1_n_n 133 rfl rfl).symm]
  refine Finset.sum_congr rfl fun k _ => ?_
  have hk := contrEquiv1_symm_val dot_S5000x133_S133x128_S5000x128_1_0_0_1_n_n 133 rfl rfl k
  have el : dot_S5000x133_S133x128_S5000x128_1_0_0_1_n_n.lhsIdx (ix2 p q) ((contrEquiv1 dot_S5000x133_S133x128_S5000x128_1_0_0_1_n_n 133 rfl rfl).symm k) = ix2 p k := funext fun a => Fin.ext (by
    match a with
    | ⟨0, _⟩ => exact region3_dotA_lhs_0 _ _
    | ⟨1, _⟩ => exact (region3_dotA_lhs_1 _ _).trans hk)
  have er : dot_S5000x133_S133x128_S5000x128_1_0_0_1_n_n.rhsIdx (ix2 p q) ((contrEquiv1 dot_S5000x133_S133x128_S5000x128_1_0_0_1_n_n 133 rfl rfl).symm k) = ix2 k q := funext fun a => Fin.ext (by
    match a with
    | ⟨0, _⟩ => exact (region3_dotA_rhs_0 _ _).trans hk
    | ⟨1, _⟩ => exact region3_dotA_rhs_1 _ _)
  rw [el, er]

/-- The message product into the zero splat, at row `p` and channel `q`: the sum over the 128 inner positions. -/
theorem region3_matmulB_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact region3_dotB_lhs_0 _ _
    | ⟨1, _⟩ => exact (region3_dotB_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (region3_dotB_rhs_0 _ _).trans hk
    | ⟨1, _⟩ => exact region3_dotB_rhs_1 _ _)
  rw [el, er]

/-! ## The body's stored value at an index -/

/-- The stored block at row `p`, channel `q`: the same-shape casts are the identity, the narrowing of each operand is the
    identity over the extended reals, the two products are the sums above, their sum is taken entrywise, and the
    positive part is `max · 0` because the zero word is the real zero. -/
theorem region3_pay_apply (x : Vec Ideal S5000x133 .f32) (y : Vec Ideal S5000x128 .f32) (wa : Vec Ideal S133x128 .f32) (wb : Vec Ideal S128x128 .f32)
    (p : Fin 5000) (q : Fin 128) :
    k3_pay1 (F := Ideal) x y wa wb (ix2 p q)
      = max ((∑ k : Fin 133, x (ix2 p k) * wa (ix2 k q)) + ∑ k : Fin 128, y (ix2 p k) * wb (ix2 k q)) 0 := by
  unfold k3_pay1
  simp only [shapeCast_self]
  refine (maximumf_apply _ _ _).trans ?_
  refine congrArg₂ max ?_ Ideal.ofBits_zero_f32
  refine (addf_apply _ _ _).trans ?_
  exact congrArg₂ (· + ·) (region3_matmulA_apply _ _ p q) (region3_matmulB_apply _ _ p q)

/-- If the two row blocks are rows `5000·n + p` of the arrays `X`, `Y` and the two weight blocks are the arrays `Wa`, `Wb`
    whole, the stored block at `(p, q)` is the specification at array row `5000·n + p`, channel `q`: both sides are the same
    two sums under the same `max · 0`. -/
theorem region3_block_value (X : S50000x133.Idx → EReal) (Y : S50000x128.Idx → EReal) (Wa : S133x128.Idx → EReal) (Wb : S128x128.Idx → EReal)
    (x : Vec Ideal S5000x133 .f32) (y : Vec Ideal S5000x128 .f32) (wa : Vec Ideal S133x128 .f32) (wb : Vec Ideal S128x128 .f32)
    (n : Nat) (hn : n < 10)
    (hx : ∀ (p : Fin 5000) (k : Fin 133), x (ix2 p k) = X (ix2 (⟨n * 5000 + p.val, by omega⟩ : Fin 50000) k))
    (hy : ∀ (p : Fin 5000) (k : Fin 128), y (ix2 p k) = Y (ix2 (⟨n * 5000 + p.val, by omega⟩ : Fin 50000) k))
    (hwa : wa = Wa) (hwb : wb = Wb) (p : Fin 5000) (q : Fin 128) :
    k3_pay1 (F := Ideal) x y wa wb (ix2 p q)
      = Cert.Spec.nodeProj X Y Wa Wb (ix2 (⟨n * 5000 + p.val, by omega⟩ : Fin 50000) q) := by
  subst hwa hwb
  refine (region3_pay_apply x y wa wb p q).trans ?_
  show _ = max ((∑ k : Fin 133, X (ix2 _ k) * wa (ix2 k _)) + ∑ k : Fin 128, Y (ix2 _ k) * wb (ix2 k _)) 0
  simp only [hx, hy]

/-! ## The blocks as rows of the arrays -/

theorem region3_hz : (![0, 0] : Fin 2 → Nat) = fun _ => 0 := funext fun a => by fin_cases a <;> rfl

/-- The grid has 10 points. -/
theorem region3_lt (t : Fin cfg3.N) : t.val < 10 := lt_of_lt_of_eq t.isLt N_3

/-- The block indices at point `t`, decided over the 10 points: the node-feature window, the message window and the
    output window sit at block row `t`, block column 0; the two weight windows at block (0, 0). -/
theorem region3_idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The node-feature block at point `t` is rows `5000·t + p` of its array: a block's coordinate is the block index times the
    block size plus the coordinate inside the block. -/
theorem region3_blk0_apply (V : (c : Dev nD) → (b : Ref sig .tc) → Buf (Elt Ideal) ((c : Thread nD τ).loc b)) (c : Dev nD) (t : Fin cfg3.N) (p : Fin 5000) (k : Fin 133) :
    (iblk3 (F := Ideal) V c 0 t : Vec Ideal S5000x133 .f32) (ix2 p k)
      = (V c main_arg0 : S50000x133.Idx → EReal) (ix2 (⟨t.val * 5000 + p.val, by have := region3_lt t; omega⟩ : Fin 50000) k) := by
  obtain ⟨e0, e1, -⟩ := region3_idx_facts t
  unfold iblk3
  rw [View.read_apply]
  show V c main_arg0 _ = V c main_arg0 _
  congr 1
  funext a
  apply Fin.ext
  match a with
  | ⟨0, _⟩ => show win3_0.index t (0 : Fin 2) * 5000 + 1 * p.val = t.val * 5000 + p.val; rw [e0]; omega
  | ⟨1, _⟩ => show win3_0.index t (1 : Fin 2) * 133 + 1 * k.val = k.val; rw [e1]; omega

/-- The message block at point `t` is rows `5000·t + p` of its array. -/
theorem region3_blk1_apply (V : (c : Dev nD) → (b : Ref sig .tc) → Buf (Elt Ideal) ((c : Thread nD τ).loc b)) (c : Dev nD) (t : Fin cfg3.N) (p : Fin 5000) (k : Fin 128) :
    (iblk3 (F := Ideal) V c 1 t : Vec Ideal S5000x128 .f32) (ix2 p k)
      = (V c main_v52 : S50000x128.Idx → EReal) (ix2 (⟨t.val * 5000 + p.val, by have := region3_lt t; omega⟩ : Fin 50000) k) := by
  obtain ⟨-, -, e0, e1, -⟩ := region3_idx_facts t
  unfold iblk3
  rw [View.read_apply]
  show V c main_v52 _ = V c main_v52 _
  congr 1
  funext a
  apply Fin.ext
  match a with
  | ⟨0, _⟩ => show win3_1.index t (0 : Fin 2) * 5000 + 1 * p.val = t.val * 5000 + p.val; rw [e0]; omega
  | ⟨1, _⟩ => show win3_1.index t (1 : Fin 2) * 128 + 1 * k.val = k.val; rw [e1]; omega

/-- The first weight block is its array whole at every point (block index (0, 0), block size the array's). -/
theorem region3_blk2_eq (V : (c : Dev nD) → (b : Ref sig .tc) → Buf (Elt Ideal) ((c : Thread nD τ).loc b)) (c : Dev nD) (t : Fin cfg3.N) :
    (iblk3 (F := Ideal) V c 2 t : Vec Ideal S133x128 .f32) = (V c main_v53 : S133x128.Idx → EReal) := by
  obtain ⟨-, -, -, -, e0, e1, -⟩ := region3_idx_facts t
  funext j
  unfold iblk3
  rw [View.read_apply]
  show V c main_v53 _ = V c main_v53 _
  congr 1
  funext a
  apply Fin.ext
  match a with
  | ⟨0, _⟩ => show win3_2.index t (0 : Fin 2) * 133 + 1 * (j 0).val = (j 0).val; rw [e0]; omega
  | ⟨1, _⟩ => show win3_2.index t (1 : Fin 2) * 128 + 1 * (j 1).val = (j 1).val; rw [e1]; omega

/-- The second weight block is its array whole at every point. -/
theorem region3_blk3_eq (V : (c : Dev nD) → (b : Ref sig .tc) → Buf (Elt Ideal) ((c : Thread nD τ).loc b)) (c : Dev nD) (t : Fin cfg3.N) :
    (iblk3 (F := Ideal) V c 3 t : Vec Ideal S128x128 .f32) = (V c main_v54 : S128x128.Idx → EReal) := by
  obtain ⟨-, -, -, -, -, -, e0, e1, -⟩ := region3_idx_facts t
  funext j
  unfold iblk3
  rw [View.read_apply]
  show V c main_v54 _ = V c main_v54 _
  congr 1
  funext a
  apply Fin.ext
  match a with
  | ⟨0, _⟩ => show win3_3.index t (0 : Fin 2) * 128 + 1 * (j 0).val = (j 0).val; rw [e0]; omega
  | ⟨1, _⟩ => show win3_3.index t (1 : Fin 2) * 128 + 1 * (j 1).val = (j 1).val; rw [e1]; omega

/-! ## From blocks to the array -/

/-- What point `t` writes back is block `t` of the specification: the body's one store covers the buffer, its loads read
    the input blocks whole, and entry `(p, q)` of the stored block is the specification at array row `5000·t + p`, which
    is where entry `(p, q)` of output block `t` sits. -/
theorem region3_flushed_eq (V : (c : Dev nD) → (b : Ref sig .tc) → Buf (Elt Ideal) ((c : Thread nD τ).loc b)) (c : Dev nD) (t : Fin cfg3.N) :
    (dat3 (F := Ideal) V c).flushed 4 t
      = ((cfg3.win 4).blk t).view.read (Elt Ideal)
          (Cert.Spec.nodeProj (V c main_arg0) (V c main_v52) (V c main_v53) (V c main_v54)) := by
  show (cfg3.win 4).cut (grid3.coords t) ((dat3 V c).after 4 t) = _
  rw [after3_4]
  unfold out3_4
  rw [View.canon_unit_zero region3_hz]
  simp only [View.ld_unit_zero (S := S5000x133) region3_hz, View.ld_unit_zero (S := S5000x128) region3_hz,
    View.ld_unit_zero (S := S133x128) region3_hz, View.ld_unit_zero (S := S128x128) region3_hz]
  obtain ⟨-, -, -, -, -, -, -, -, e0, e1⟩ := region3_idx_facts t
  funext j
  obtain ⟨p, q, rfl⟩ : ∃ (p : Fin 5000) (q : Fin 128), j = ix2 p q := ⟨j 0, j 1, eq_ix2 j⟩
  have hxi : (cfg3.win 4).xinj (grid3.coords t) (ix2 p q) = ix2 p q :=
    funext fun a => by match a with | ⟨0, _⟩ => rfl | ⟨1, _⟩ => rfl
  show k3_pay1 (F := Ideal) (iblk3 V c 0 t) (iblk3 V c 1 t) (iblk3 V c 2 t) (iblk3 V c 3 t) ((cfg3.win 4).xinj (grid3.coords t) (ix2 p q))
    = Cert.Spec.nodeProj (V c main_arg0) (V c main_v52) (V c main_v53) (V c main_v54) (((cfg3.win 4).blk t).view.emb (ix2 p q))
  refine (congrArg (k3_pay1 (F := Ideal) (iblk3 V c 0 t) (iblk3 V c 1 t) (iblk3 V c 2 t) (iblk3 V c 3 t)) hxi).trans ?_
  refine (region3_block_value (V c main_arg0) (V c main_v52) (V c main_v53) (V c main_v54)
    (iblk3 V c 0 t) (iblk3 V c 1 t) (iblk3 V c 2 t) (iblk3 V c 3 t) t.val (region3_lt t)
    (region3_blk0_apply V c t) (region3_blk1_apply V c t) (region3_blk2_eq V c t) (region3_blk3_eq V c t) p q).trans ?_
  refine congrArg _ (funext fun a => Fin.ext ?_)
  match a with
  | ⟨0, _⟩ => show t.val * 5000 + p.val = win3_4.index t (0 : Fin 2) * 5000 + 1 * p.val; rw [e0]; omega
  | ⟨1, _⟩ => show q.val = win3_4.index t (1 : Fin 2) * 128 + 1 * q.val; rw [e1]; omega

/-- An index of the array is in point `t`'s output block iff each coordinate is in the block's range on its axis. -/
theorem region3_mem_blk (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v55).slice (win3_4.rect t)).set ↔ _
  rw [View.set_slice_whole, Rect.mem_set_unit]
  exact Iff.rfl

/-- Every index of the array is in some point's output block: row `r` lies in block `r / 5000`, since
    `(r / 5000) · 5000 ≤ r < (r / 5000) · 5000 + 5000`, and every channel lies in the one block column. -/
theorem region3_cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : grid3.N = 10 := N_3
  have ht : (i 0).val / 5000 < cfg3.N := by show (i 0).val / 5000 < grid3.N; rw [hN]; omega
  obtain ⟨-, -, -, -, -, -, -, -, e0, e1⟩ := region3_idx_facts ⟨(i 0).val / 5000, ht⟩
  refine ⟨⟨(i 0).val / 5000, ht⟩, flush3_4 _, ?_⟩
  rw [region3_mem_blk]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_4.index ⟨(i 0).val / 5000, ht⟩ (1 : Fin 2) * 128 ≤ (i 1).val
      ∧ (i 1).val < win3_4.index ⟨(i 0).val / 5000, ht⟩ (1 : Fin 2) * 128 + 128
    rw [e1]; omega

/-- The output array after the region: every point writes back its block of the specification and the blocks cover the
    array, so the array is the node projection of the four arrays the region found. -/
theorem region3_value (V : (c : Dev nD) → (b : Ref sig .tc) → Buf (Elt Ideal) ((c : Thread nD τ).loc b)) (c : Dev nD) :
    (dat3 (F := Ideal) V c).arrAt 4 cfg3.N = Cert.Spec.nodeProj (V c main_arg0) (V c main_v52) (V c main_v53) (V c main_v54) :=
  (dat3 (F := Ideal) V c).arrAt_eq_of_cover 4 (Cert.Spec.nodeProj (V c main_arg0) (V c main_v52) (V c main_v53) (V c main_v54))
    (fun t _ => region3_flushed_eq V c t) region3_cover

end Cert.KernelIdeal.Val

end
-- ==== Proof.Region4.lean ====
import proofs.«405290_j57243324121245_1_alg».proof.Proof.Gen.KernelIdeal.Frame
import proofs.«405290_j57243324121245_1_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.Val
open Cert.KernelIdeal Cert.KernelIdeal.Gen Idealize.ShloMosaic Idealize.ShloMosaic.TcCoe Idealize.ShloMosaic.ValueIdx Idealize.SL.Sem Idealize.ShloMosaic.Pipeline
namespace Region4

/-! ## The arithmetic of one grid point -/

/-- The segment identifiers, one per row, copied along the 2944 columns of the comparison grid. -/
theorem gid_bcast_apply (x : S512x1.Idx → BitVec 32) (g : Fin 512) (n : Fin 2944) :
    broadcastTo S512x2944 x broadcasts_S512x1_S512x2944 (ix2 g n) = x (ix2 g 0) :=
  broadcastTo_apply x broadcasts_S512x1_S512x2944 (ix2 g n) (ix2 g 0) (fun a => match a with
    | ⟨0, _⟩ => by show g.val = if (512 : Nat) = 1 then 0 else g.val; rw [if_neg (by decide)]
    | ⟨1, _⟩ => by show (0 : Nat) = if (1 : Nat) = 1 then 0 else _; rw [if_pos rfl])

/-- The labels, one per column, copied down the 512 rows of the comparison grid. -/
theorem label_bcast_apply (x : S1x2944.Idx → BitVec 32) (g : Fin 512) (n : Fin 2944) :
    broadcastTo S512x2944 x broadcasts_S1x2944_S512x2944 (ix2 g n) = x (ix2 0 n) :=
  broadcastTo_apply x broadcasts_S1x2944_S512x2944 (ix2 g n) (ix2 0 n) (fun a => match a with
    | ⟨0, _⟩ => by show (0 : Nat) = if (1 : Nat) = 1 then 0 else _; rw [if_pos rfl]
    | ⟨1, _⟩ => by show n.val = if (2944 : Nat) = 1 then 0 else n.val; rw [if_neg (by decide)])

/-- The one-bit word of an equality test, widened to 32 bits and read as a signed integer, is the real one when the
    two words are equal and zero otherwise. -/
theorem onehot_val (a b : BitVec 32) :
    (FloatOps.sitofp (F := Ideal) .f32 ((IntOp.cmpi .eq a b).setWidth 32) : EReal) = if a = b then 1 else 0 := by
  by_cases h : a = b
  · subst h
    rw [if_pos rfl]
    have e : (IntOp.cmpi .eq a a).setWidth 32 = 1#32 := by
      simp [IntOp.cmpi]
    rw [e]
    show (((1#32 : BitVec 32).toInt : ℝ) : EReal) = 1
    norm_num
  · rw [if_neg h]
    have hb : (a == b) = false := beq_false_of_ne h
    have e : (IntOp.cmpi .eq a b).setWidth 32 = 0#32 := by
      simp [IntOp.cmpi, hb]
    rw [e]
    show (((0#32 : BitVec 32).toInt : ℝ) : EReal) = 0
    norm_num

/-- The record of the product of the 512×2944 one-hot grid with the 2944×128 block: the operands' indices at an output
    index and a contraction index, coordinate by coordinate. -/
theorem lhs_oh_0 (i : S512x128.Idx) (q : dot_S512x2944_S2944x128_S512x128_1_0_0_1_n_n.contr.Idx) :
    (dot_S512x2944_S2944x128_S512x128_1_0_0_1_n_n.lhsIdx i q 0).val = (i 0).val := by
  unfold DotDims.lhsIdx
  rw [dif_neg (show ¬(0 : Fin S512x2944.rank) ∈ dot_S512x2944_S2944x128_S512x128_1_0_0_1_n_n.lhsBatch by decide), dif_pos (show (0 : Fin S512x2944.rank) ∈ dot_S512x2944_S2944x128_S512x128_1_0_0_1_n_n.lhsNonContracting by decide)]
  rfl
theorem lhs_oh_1 (i : S512x128.Idx) (q : dot_S512x2944_S2944x128_S512x128_1_0_0_1_n_n.contr.Idx) :
    (dot_S512x2944_S2944x128_S512x128_1_0_0_1_n_n.lhsIdx i q 1).val = (q ⟨0, by decide⟩).val :=
  dot_S512x2944_S2944x128_S512x128_1_0_0_1_n_n.lhsIdx_val_of_single rfl i q
theorem rhs_oh_0 (i : S512x128.Idx) (q : dot_S512x2944_S2944x128_S512x128_1_0_0_1_n_n.contr.Idx) :
    (dot_S512x2944_S2944x128_S512x128_1_0_0_1_n_n.rhsIdx i q 0).val = (q ⟨0, by decide⟩).val :=
  dot_S512x2944_S2944x128_S512x128_1_0_0_1_n_n.rhsIdx_val_of_single rfl i q
theorem rhs_oh_1 (i : S512x128.Idx) (q : dot_S512x2944_S2944x128_S512x128_1_0_0_1_n_n.contr.Idx) :
    (dot_S512x2944_S2944x128_S512x128_1_0_0_1_n_n.rhsIdx i q 1).val = (i 1).val := by
  unfold DotDims.rhsIdx
  rw [dif_neg (show ¬(1 : Fin S2944x128.rank) ∈ dot_S512x2944_S2944x128_S512x128_1_0_0_1_n_n.rhsBatch by decide), dif_pos (show (1 : Fin S2944x128.rank) ∈ dot_S512x2944_S2944x128_S512x128_1_0_0_1_n_n.rhsNonContracting by decide)]
  rfl

/-- The product into the zero splat, read at `(g, h)`: the sum over the 2944 columns of the left factor's `(g, n)`
    times the right factor's `(n, h)`. -/
theorem oh_matmul_apply (L : FVec Ideal S512x2944 .bf16) (R : FVec Ideal S2944x128 .bf16) (g : Fin 512) (h : Fin 128) :
    matmul dot_S512x2944_S2944x128_S512x128_1_0_0_1_n_n none L R (constant (F := Ideal) S512x128 .f32 0x00000000#32) (ix2 g h)
      = ∑ n : Fin 2944, L (ix2 g n) * R (ix2 n h) := by
  simp only [matmul]
  rw [Ideal.matmul_constant_zero_apply, ← Equiv.sum_comp (contrEquiv1 dot_S512x2944_S2944x128_S512x128_1_0_0_1_n_n 2944 rfl rfl).symm]
  refine Finset.sum_congr rfl fun k _ => ?_
  have hk := contrEquiv1_symm_val dot_S512x2944_S2944x128_S512x128_1_0_0_1_n_n 2944 rfl rfl k
  have el : dot_S512x2944_S2944x128_S512x128_1_0_0_1_n_n.lhsIdx (ix2 g h) ((contrEquiv1 dot_S512x2944_S2944x128_S512x128_1_0_0_1_n_n 2944 rfl rfl).symm k) = ix2 g k := funext fun a => Fin.ext (by
    match a with
    | ⟨0, _⟩ => exact lhs_oh_0 _ _
    | ⟨1, _⟩ => exact (lhs_oh_1 _ _).trans hk)
  have er : dot_S512x2944_S2944x128_S512x128_1_0_0_1_n_n.rhsIdx (ix2 g h) ((contrEquiv1 dot_S512x2944_S2944x128_S512x128_1_0_0_1_n_n 2944 rfl rfl).symm k) = ix2 k h := funext fun a => Fin.ext (by
    match a with
    | ⟨0, _⟩ => exact (rhs_oh_0 _ _).trans hk
    | ⟨1, _⟩ => exact rhs_oh_1 _ _)
  rw [el, er]

/-- The one-hot factor of the product, read at `(g, n)`: one where segment `g`'s identifier is row `n`'s label, zero
    elsewhere (the narrowing to the shorter float format keeps an extended real as it is). -/
theorem onehot_apply (v6 : Vec Ideal S1x2944 .i32) (v8 : Vec Ideal S512x1 .i32) (g : Fin 512) (n : Fin 2944) :
    (truncf (F := Ideal) .bf16 (sitofp .f32 (extui 32 (cmpi .eq
        (broadcastTo S512x2944 (shapeCast S512x1 (shapeCast S512x1 v8 shapeCasts_S512x1_S512x1) shapeCasts_S512x1_S512x1) broadcasts_S512x1_S512x2944)
        (broadcastTo S512x2944 (shapeCast S1x2944 (shapeCast S1x2944 v6 shapeCasts_S1x2944_S1x2944) shapeCasts_S1x2944_S1x2944) broadcasts_S1x2944_S512x2944))
        natLt_1_32)) bitsLt_bf16_f32 : FVec Ideal S512x2944 .bf16) (ix2 g n)
      = if v8 (ix2 g 0) = v6 (ix2 0 n) then 1 else 0 := by
  show (FloatOps.sitofp (F := Ideal) .f32 ((IntOp.cmpi .eq
      (broadcastTo S512x2944 (shapeCast S512x1 (shapeCast S512x1 v8 shapeCasts_S512x1_S512x1) shapeCasts_S512x1_S512x1) broadcasts_S512x1_S512x2944 (ix2 g n))
      (broadcastTo S512x2944 (shapeCast S1x2944 (shapeCast S1x2944 v6 shapeCasts_S1x2944_S1x2944) shapeCasts_S1x2944_S1x2944) broadcasts_S1x2944_S512x2944 (ix2 g n))).setWidth 32) : EReal) = _
  rw [gid_bcast_apply, label_bcast_apply, shapeCast_self, shapeCast_self, shapeCast_self, shapeCast_self]
  exact onehot_val _ _

/-- The block's factor of the product, read at `(n, h)`: the block's entry there. -/
theorem rows_apply (v3 : Vec Ideal S2944x128 .f32) (n : Fin 2944) (h : Fin 128) :
    (truncf (F := Ideal) .bf16 (shapeCast S2944x128 v3 shapeCasts_S2944x128_S2944x128) bitsLt_bf16_f32 : FVec Ideal S2944x128 .bf16) (ix2 n h)
      = v3 (ix2 n h) :=
  congrFun (shapeCast_self v3 shapeCasts_S2944x128_S2944x128) (ix2 n h)

/-- THE POINT'S ARITHMETIC. The body's second store, read at `(g, h)`: the running contents there plus the sum, over
    the block's 2944 rows, of the rows whose label is segment `g`'s identifier. The one-hot factor is one or zero;
    `1 * x = x` and `0 * x = 0` on the extended reals. -/
theorem pay2_apply (v3 : Vec Ideal S2944x128 .f32) (v6 : Vec Ideal S1x2944 .i32) (v8 : Vec Ideal S512x1 .i32)
    (v18 : Vec Ideal S512x128 .f32) (g : Fin 512) (h : Fin 128) :
    k4_pay2 (F := Ideal) v3 v6 v8 v18 (ix2 g h)
      = v18 (ix2 g h) + ∑ n : Fin 2944, if v8 (ix2 g 0) = v6 (ix2 0 n) then v3 (ix2 n h) else 0 := by
  unfold k4_pay2
  refine (addf_apply _ _ (ix2 g h)).trans ?_
  refine congrArg₂ (· + ·) (congrFun (shapeCast_self v18 _) (ix2 g h)) ?_
  refine (oh_matmul_apply _ _ g h).trans ?_
  refine Finset.sum_congr rfl fun n _ => ?_
  refine (congrArg₂ (· * ·) (onehot_apply v6 v8 g n) (rows_apply v3 n h)).trans ?_
  by_cases e : v8 (ix2 g 0) = v6 (ix2 0 n)
  · rw [if_pos e, if_pos e]; exact one_mul _
  · rw [if_neg e, if_neg e]; exact zero_mul _

/-! ## What each control case leaves in the output block -/

section Pieces
variable {F : FTy → Type} [FloatOps F]

/-- The zero offsets of a whole-block access. -/
theorem hz : (![0, 0] : Fin 2 → Nat) = fun _ => 0 := funext fun a => by fin_cases a <;> rfl

/-- At a later point the body's one store covers the block: it leaves its payload over the loaded blocks and the
    running contents. -/
theorem out_B (c : Dev nD) (i : grid4.Coords) (a1 : Memref sig .tc .vmem S2944x128 .f32) (h1 : a1.IsWhole)
    (a2 : Memref sig .tc .vmem S1x2944 .i32) (h2 : a2.IsWhole) (a3 : Memref sig .tc .vmem S512x1 .i32) (h3 : a3.IsWhole)
    (a4 : Memref sig .tc .vmem S512x128 .f32) (h4 : a4.IsWhole) (hc : ¬cond4_0 i)
    (x0 : Vec F S2944x128 .f32) (x1 : Vec F S1x2944 .i32) (x2 : Vec F S512x1 .i32) (xo : Vec F S512x128 .f32) :
    out4_B_3 c i a1 h1 a2 h2 a3 h3 a4 h4 hc x0 x1 x2 xo = k4_pay2 x0 x1 x2 xo := by
  unfold out4_B_3
  rw [View.read_writes_eq_canon _ _ _ (cover4_B_3 c i a1 h1 a2 h2 a3 h3 a4 h4 hc x0 x1 x2 xo)]
  unfold kernelRun4_B
  dsimp only
  sl_unfold_words
  rw [View.canon_unit_zero hz]
  simp only [View.readAt_eq_ld, h1.read_unread, h2.read_unread, h3.read_unread, h4.read_unread,
    View.ld_unit_zero (S := S2944x128) hz, View.ld_unit_zero (S := S1x2944) hz, View.ld_unit_zero (S := S512x1) hz,
    View.ld_unit_zero (S := S512x128) hz]

/-- At the first point the body stores zeros, reads them back as the running contents, and its second store covers the
    block: it leaves its payload over the loaded blocks and the zero block. -/
theorem out_A (c : Dev nD) (i : grid4.Coords) (a1 : Memref sig .tc .vmem S2944x128 .f32) (h1 : a1.IsWhole)
    (a2 : Memref sig .tc .vmem S1x2944 .i32) (h2 : a2.IsWhole) (a3 : Memref sig .tc .vmem S512x1 .i32) (h3 : a3.IsWhole)
    (a4 : Memref sig .tc .vmem S512x128 .f32) (h4 : a4.IsWhole) (hc : cond4_0 i)
    (x0 : Vec F S2944x128 .f32) (x1 : Vec F S1x2944 .i32) (x2 : Vec F S512x1 .i32) :
    out4_A_3 c i a1 h1 a2 h2 a3 h3 a4 h4 hc x0 x1 x2 = k4_pay2 x0 x1 x2 (k4_pay1 (F := F)) := by
  unfold out4_A_3
  rw [View.read_writes_eq_canon _ _ _ (cover4_A_3 c i a1 h1 a2 h2 a3 h3 a4 h4 hc x0 x1 x2)]
  unfold kernelRun4_A
  dsimp only
  sl_unfold_words
  rw [View.canon_cons_unit_zero (S := S512x128) hz, View.readCov_unit_zero (S := S512x128) _ hz]
  simp only [View.readAt_eq_ld, h1.read_unread, h2.read_unread, h3.read_unread,
    View.ld_unit_zero (S := S2944x128) hz, View.ld_unit_zero (S := S1x2944) hz, View.ld_unit_zero (S := S512x1) hz]

end Pieces

/-! ## The windows' blocks, read off the arrays -/

section Blocks
variable (V : (c : Dev nD) → (b : Ref sig .tc) → Buf (Elt Ideal) ((c : Thread nD τ).loc b))

/-- The padded node rows, the padded labels and the segment identifiers as the region finds them, and the three input
    windows' blocks at a point, each named at its literal type. -/
abbrev naArr (c : Dev nD) : Vec Ideal S50048x128 .f32 := V c main_v56
abbrev lblArr (c : Dev nD) : Vec Ideal S1x50048 .i32 := V c main_v58
abbrev gidArr (c : Dev nD) : Vec Ideal S512x1 .i32 := V c main_v60
abbrev naBlk (c : Dev nD) (t : Fin cfg4.N) : Vec Ideal S2944x128 .f32 := iblk4 V c 0 t
abbrev lblBlk (c : Dev nD) (t : Fin cfg4.N) : Vec Ideal S1x2944 .i32 := iblk4 V c 1 t
abbrev gidBlk (c : Dev nD) (t : Fin cfg4.N) : Vec Ideal S512x1 .i32 := iblk4 V c 2 t

/-- The block indices at point `t`: rows `t` of the node rows, columns `t` of the labels, the one block of the
    identifiers — decided over the seventeen points. -/
theorem idx_facts : ∀ t : Fin cfg4.N,
    win4_0.index t 0 = t.val ∧ win4_0.index t 1 = 0 ∧ win4_1.index t 0 = 0 ∧ win4_1.index t 1 = t.val
      ∧ win4_2.index t 0 = 0 ∧ win4_2.index t 1 = 0 :=
  (by decide +kernel : ∀ t : Fin grid4.N, _)

/-- Row `n` of the node block at point `t` is row `2944 t + n` of the node rows. -/
theorem naBlk_apply (c : Dev nD) (t : Fin cfg4.N) (n : Fin 2944) (h : Fin 128) (hm : 2944 * t.val + n.val < 50048) :
    naBlk V c t (ix2 n h) = naArr V c (ix2 ⟨2944 * t.val + n.val, hm⟩ h) := by
  unfold naBlk naArr iblk4
  rw [View.read_apply]
  show V c main_v56 _ = V c main_v56 _
  refine congrArg (V c main_v56) (funext fun a => Fin.ext ?_)
  match a with
  | ⟨0, _⟩ => show win4_0.index t 0 * 2944 + 1 * n.val = 2944 * t.val + n.val; rw [(idx_facts t).1]; omega
  | ⟨1, _⟩ => show win4_0.index t 1 * 128 + 1 * h.val = h.val; rw [(idx_facts t).2.1]; omega

/-- Column `n` of the label block at point `t` is column `2944 t + n` of the labels. -/
theorem lblBlk_apply (c : Dev nD) (t : Fin cfg4.N) (n : Fin 2944) (hm : 2944 * t.val + n.val < 50048) :
    lblBlk V c t (ix2 0 n) = lblArr V c (ix2 0 ⟨2944 * t.val + n.val, hm⟩) := by
  unfold lblBlk lblArr iblk4
  rw [View.read_apply]
  show V c main_v58 _ = V c main_v58 _
  refine congrArg (V c main_v58) (funext fun a => Fin.ext ?_)
  match a with
  | ⟨0, _⟩ => show win4_1.index t 0 * 1 + 1 * 0 = 0; rw [(idx_facts t).2.2.1]
  | ⟨1, _⟩ => show win4_1.index t 1 * 2944 + 1 * n.val = 2944 * t.val + n.val; rw [(idx_facts t).2.2.2.1]; omega

/-- The identifier block is the identifier array at every point. -/
theorem gidBlk_apply (c : Dev nD) (t : Fin cfg4.N) (g : Fin 512) :
    gidBlk V c t (ix2 g 0) = gidArr V c (ix2 g 0) := by
  unfold gidBlk gidArr iblk4
  rw [View.read_apply]
  show V c main_v60 _ = V c main_v60 _
  refine congrArg (V c main_v60) (funext fun a => Fin.ext ?_)
  match a with
  | ⟨0, _⟩ => show win4_2.index t 0 * 512 + 1 * g.val = g.val; rw [(idx_facts t).2.2.2.2.1]; omega
  | ⟨1, _⟩ => show win4_2.index t 1 * 1 + 1 * 0 = 0; rw [(idx_facts t).2.2.2.2.2]

/-! ## The running contents of the output block -/

/-- Row `m`'s share of segment `g`, channel `h`: the row's entry when its label is the segment's identifier, zero
    otherwise (and zero past the last row, so that sums over ranges of naturals need no bound). -/
def rowTerm (na : S50048x128.Idx → EReal) (lbl : S1x50048.Idx → BitVec 32) (gid : S512x1.Idx → BitVec 32)
    (g : Fin 512) (h : Fin 128) (m : ℕ) : EReal :=
  if hm : m < 50048 then (if gid (ix2 g 0) = lbl (ix2 0 ⟨m, hm⟩) then na (ix2 ⟨m, hm⟩ h) else 0) else 0

/-- The sum the body adds at point `t` is the shares of rows `2944 t … 2944 t + 2943`. -/
theorem blockSum_eq (c : Dev nD) (t : Fin cfg4.N) (g : Fin 512) (h : Fin 128) :
    (∑ n : Fin 2944, if gidBlk V c t (ix2 g 0) = lblBlk V c t (ix2 0 n) then naBlk V c t (ix2 n h) else 0)
      = ∑ k ∈ Finset.range 2944, rowTerm (naArr V c) (lblArr V c) (gidArr V c) g h (2944 * t.val + k) := by
  have hN : t.val < 17 := lt_of_lt_of_eq t.isLt (show cfg4.N = 17 from N_4)
  rw [Finset.sum_range]
  refine Finset.sum_congr rfl fun n _ => ?_
  have hm : 2944 * t.val + n.val < 50048 := by have := n.isLt; omega
  rw [rowTerm, dif_pos hm, naBlk_apply V c t n h hm, lblBlk_apply V c t n hm, gidBlk_apply V c t g]

/-- THE INVARIANT. After point `n` the output block holds, at `(g, h)`, the shares of the first `2944 (n + 1)` rows:
    point 0 adds its block's sum to the zero block, each later point adds its block's sum to what the point before
    left. -/
theorem outsAt_apply (c : Dev nD) : ∀ (n : ℕ) (hn : n < cfg4.N) (g : Fin 512) (h : Fin 128),
    (outsAt4 (F := Ideal) V c n hn : Vec Ideal S512x128 .f32) (ix2 g h)
      = ∑ m ∈ Finset.range (2944 * (n + 1)), rowTerm (naArr V c) (lblArr V c) (gidArr V c) g h m
  | 0, hn, g, h => by
    rw [outsAt4_A V c ⟨0, hn⟩ (Nat.zero_mod 17)]
    refine (congrFun (out_A (F := Ideal) c (grid4.coords ⟨0, hn⟩) (ms4_0 ⟨0, hn⟩) (hs4_0 ⟨0, hn⟩) (ms4_1 ⟨0, hn⟩) (hs4_1 ⟨0, hn⟩)
      (ms4_2 ⟨0, hn⟩) (hs4_2 ⟨0, hn⟩) (ms4_3 ⟨0, hn⟩) (hs4_3 ⟨0, hn⟩) ((hcond4_0 ⟨0, hn⟩).mpr (Nat.zero_mod 17))
      (naBlk V c ⟨0, hn⟩) (lblBlk V c ⟨0, hn⟩) (gidBlk V c ⟨0, hn⟩)) (ix2 g h)).trans ?_
    refine (pay2_apply (naBlk V c ⟨0, hn⟩) (lblBlk V c ⟨0, hn⟩) (gidBlk V c ⟨0, hn⟩) (k4_pay1 (F := Ideal)) g h).trans ?_
    rw [blockSum_eq V c ⟨0, hn⟩ g h]
    show Ideal.ofBits .f32 0x00000000#32 + _ = _
    rw [Ideal.ofBits_zero_f32, zero_add]
    simp only [Nat.mul_zero, Nat.zero_add, Nat.mul_one]
  | n + 1, hn, g, h => by
    have hN : n + 1 < 17 := lt_of_lt_of_eq hn (show cfg4.N = 17 from N_4)
    have hB : ¬(⟨n + 1, hn⟩ : Fin cfg4.N).val % 17 = 0 := by dsimp only; omega
    rw [outsAt4_B V c ⟨n + 1, hn⟩ hB]
    dsimp only
    refine (congrFun (out_B (F := Ideal) c (grid4.coords ⟨n + 1, hn⟩) (ms4_0 ⟨n + 1, hn⟩) (hs4_0 ⟨n + 1, hn⟩) (ms4_1 ⟨n + 1, hn⟩) (hs4_1 ⟨n + 1, hn⟩)
      (ms4_2 ⟨n + 1, hn⟩) (hs4_2 ⟨n + 1, hn⟩) (ms4_3 ⟨n + 1, hn⟩) (hs4_3 ⟨n + 1, hn⟩) (fun hh => hB ((hcond4_0 ⟨n + 1, hn⟩).mp hh))
      (naBlk V c ⟨n + 1, hn⟩) (lblBlk V c ⟨n + 1, hn⟩) (gidBlk V c ⟨n + 1, hn⟩)
      (outsAt4 (F := Ideal) V c n (Nat.lt_of_succ_lt hn))) (ix2 g h)).trans ?_
    refine (pay2_apply (naBlk V c ⟨n + 1, hn⟩) (lblBlk V c ⟨n + 1, hn⟩) (gidBlk V c ⟨n + 1, hn⟩)
      (outsAt4 (F := Ideal) V c n (Nat.lt_of_succ_lt hn)) g h).trans ?_
    rw [outsAt_apply c n (Nat.lt_of_succ_lt hn) g h, blockSum_eq V c ⟨n + 1, hn⟩ g h,
      show 2944 * (n + 1 + 1) = 2944 * (n + 1) + 2944 from by ring, Finset.sum_range_add]

end Blocks

/-! ## The whole array after the run -/

section Final
variable (V : (c : Dev nD) → (b : Ref sig .tc) → Buf (Elt Ideal) ((c : Thread nD τ).loc b))

/-- The last of the seventeen points: the one after which the output block is written back. -/
abbrev tLast : Fin cfg4.N := ⟨16, lt_of_lt_of_eq (by decide : 16 < 17) (show 17 = cfg4.N from N_4.symm)⟩

/-- After the last point the block holds the shares of all `17 · 2944 = 50048` rows: the segment sum. -/
theorem last_eq (c : Dev nD) :
    (outsAt4 (F := Ideal) V c tLast.val tLast.isLt : Vec Ideal S512x128 .f32)
      = Cert.Spec.batchSum (naArr V c) (lblArr V c) (gidArr V c) := by
  funext j
  obtain ⟨g, h, rfl⟩ : ∃ (g : Fin 512) (h : Fin 128), j = ix2 g h := ⟨j 0, j 1, eq_ix2 j⟩
  refine (outsAt_apply V c 16 tLast.isLt g h).trans ?_
  show _ = ∑ n : Fin 50048, if gidArr V c (ix2 g 0) = lblArr V c (ix2 0 n) then naArr V c (ix2 n h) else 0
  rw [show 2944 * (16 + 1) = 50048 from by norm_num, Finset.sum_range]
  refine Finset.sum_congr rfl fun n _ => ?_
  rw [rowTerm, dif_pos n.isLt]

/-- The one write-back, after the last point, writes the segment sum: the output window's block is its whole array,
    read through zero offsets. -/
theorem flushed_eq (c : Dev nD) (t : Fin cfg4.N) (hf : (cfg4.win 3).flush t = true) :
    (dat4 (F := Ideal) V c).flushed 3 t
      = ((cfg4.win 3).blk t).view.read (Elt Ideal) (Cert.Spec.batchSum (naArr V c) (lblArr V c) (gidArr V c)) := by
  have hN : cfg4.N = 17 := N_4
  have h16 : t.val = 16 := by have := (flush4_3 t).mp hf; have := t.isLt; omega
  obtain rfl : t = tLast := Fin.ext h16
  show (cfg4.win 3).cut (grid4.coords tLast) ((dat4 (F := Ideal) V c).after 3 tLast) = _
  rw [after4_3, last_eq]
  have hoff : (fun a => win4_3.index tLast a * main_v61.ty.shape.size a) = fun _ => 0 :=
    funext fun a => by fin_cases a <;> decide
  exact (Memref.read_access_unit_zero (Elt Ideal) main_v61 hoff (fun a => by rw [congrFun hoff a]; simp)
    (Cert.Spec.batchSum (naArr V c) (lblArr V c) (gidArr V c))).symm

/-- Every index of the output array lies in that block. -/
theorem cover_last (i : S512x128.Idx) : i ∈ ((cfg4.win 3).blk tLast).view.set := by
  show i ∈ ((View.whole main_v61).slice (win4_3.rect tLast)).set
  rw [View.set_slice_whole, Rect.mem_set_unit]
  intro a
  have hi : (i a : Nat) < S512x128.size a := (i a).isLt
  have hoff : win4_3.index tLast a * win4_3.size a = 0 := by fin_cases a <;> decide
  have hsz : win4_3.xsize (grid4.coords tLast) a = S512x128.size a := by fin_cases a <;> decide
  show win4_3.index tLast a * win4_3.size a ≤ (i a : Nat) ∧ (i a : Nat) < win4_3.index tLast a * win4_3.size a + win4_3.xsize (grid4.coords tLast) a
  rw [hoff, hsz]
  omega

end Final
end Region4

open Region4 in
/-- REGION 4, the per-graph scatter. After the run the output array holds, at `(g, h)`, the sum over all 50048 padded
    node rows of the rows whose label is segment `g`'s identifier: the one block of the output window is carried from
    point to point, gathers one block's sum at each, and is written back once, after the last point. -/
theorem region4_value (V : (c : Dev nD) → (b : Ref sig .tc) → Buf (Elt Ideal) ((c : Thread nD τ).loc b)) (c : Dev nD) :
    (dat4 (F := Ideal) V c).arrAt 3 cfg4.N = Cert.Spec.batchSum (V c main_v56) (V c main_v58) (V c main_v60) :=
  (dat4 (F := Ideal) V c).arrAt_eq_of_cover 3 (Cert.Spec.batchSum (V c main_v56) (V c main_v58) (V c main_v60))
    (flushed_eq V c) fun i => ⟨tLast, (flush4_3 tLast).mpr rfl, cover_last i⟩

end Cert.KernelIdeal.Val
end
-- ==== Proof.EdgeProjEq.lean ====
/-
  The edge projection, two ways. One program multiplies a row of node features and a row of edge features by the top 133 and the bottom
  14 rows of the weight matrix and adds the two products; the other joins the two rows into one of 147 entries and multiplies it
  by the whole matrix. Both then take the positive part.

  Both sides are read at one index (r, c).
  * The product of the concatenated row with the whole matrix is the sum over the 147 joined columns of
    `[x ‖ y][r, k] · W[k, c]`.
  * 147 = 133 + 14: the sum splits into its first 133 terms and its last 14. On the first part the joined row reads its
    left piece and the matrix row `k` is row `k` of the top slice; on the second part the joined row reads its right piece at
    `k` and the matrix row `133 + k` is row `k` of the bottom slice.
  * The scalar zero broadcast over the result is the extended real `0`, so both sides take `max · 0` of the same sum.
  Only the splitting of a finite sum is used: no finiteness of any entry.
-/
import proofs.«405290_j57243324121245_1_alg».proof.KernelIdeal
import proofs.«405290_j57243324121245_1_alg».proof.ReferenceIdeal
import proofs.«405290_j57243324121245_1_alg».proof.Proof.Spec
import Idealize.ShloMosaic.Lib.Pipeline.Value
import Idealize.ShloMosaic.Lib.ValueIdx
import Idealize.ShloMosaic.PureOps.Ideal.Laws
import Mathlib.Algebra.BigOperators.Fin

noncomputable section

namespace Cert.Bridge

open Idealize.ShloMosaic Idealize.ShloMosaic.TcCoe Idealize.ShloMosaic.ValueIdx

variable [Cert.KernelIdeal.Facts₀] [Cert.ReferenceIdeal.Facts₀]

/-! ### The product's operand indices, axis by axis -/

/-- The left operand's row is the result's row. -/
theorem edgeProj_eq_lhs_0 (i : Cert.ReferenceIdeal.S800000x128.Idx) (q : Cert.ReferenceIdeal.dot_S800000x147_S147x128_S800000x128_1_0_0_1_n_n.contr.Idx) :
    (Cert.ReferenceIdeal.dot_S800000x147_S147x128_S800000x128_1_0_0_1_n_n.lhsIdx i q 0).val = (i 0).val := by
  unfold DotDims.lhsIdx
  rw [dif_neg (show ¬(0 : Fin Cert.ReferenceIdeal.S800000x147.rank) ∈ Cert.ReferenceIdeal.dot_S800000x147_S147x128_S800000x128_1_0_0_1_n_n.lhsBatch from List.not_mem_nil), dif_pos (show (0 : Fin Cert.ReferenceIdeal.S800000x147.rank) ∈ Cert.ReferenceIdeal.dot_S800000x147_S147x128_S800000x128_1_0_0_1_n_n.lhsNonContracting from List.mem_singleton.mpr rfl)]
  rfl
/-- The left operand's column is the contraction coordinate. -/
theorem edgeProj_eq_lhs_1 (i : Cert.ReferenceIdeal.S800000x128.Idx) (q : Cert.ReferenceIdeal.dot_S800000x147_S147x128_S800000x128_1_0_0_1_n_n.contr.Idx) :
    (Cert.ReferenceIdeal.dot_S800000x147_S147x128_S800000x128_1_0_0_1_n_n.lhsIdx i q 1).val = (q ⟨0, Nat.one_pos⟩).val :=
  Cert.ReferenceIdeal.dot_S800000x147_S147x128_S800000x128_1_0_0_1_n_n.lhsIdx_val_of_single rfl i q
/-- The right operand's row is the contraction coordinate. -/
theorem edgeProj_eq_rhs_0 (i : Cert.ReferenceIdeal.S800000x128.Idx) (q : Cert.ReferenceIdeal.dot_S800000x147_S147x128_S800000x128_1_0_0_1_n_n.contr.Idx) :
    (Cert.ReferenceIdeal.dot_S800000x147_S147x128_S800000x128_1_0_0_1_n_n.rhsIdx i q 0).val = (q ⟨0, Nat.one_pos⟩).val :=
  Cert.ReferenceIdeal.dot_S800000x147_S147x128_S800000x128_1_0_0_1_n_n.rhsIdx_val_of_single rfl i q
/-- The right operand's column is the result's column. -/
theorem edgeProj_eq_rhs_1 (i : Cert.ReferenceIdeal.S800000x128.Idx) (q : Cert.ReferenceIdeal.dot_S800000x147_S147x128_S800000x128_1_0_0_1_n_n.contr.Idx) :
    (Cert.ReferenceIdeal.dot_S800000x147_S147x128_S800000x128_1_0_0_1_n_n.rhsIdx i q 1).val = (i 1).val := by
  unfold DotDims.rhsIdx
  rw [dif_neg (show ¬(1 : Fin Cert.ReferenceIdeal.S147x128.rank) ∈ Cert.ReferenceIdeal.dot_S800000x147_S147x128_S800000x128_1_0_0_1_n_n.rhsBatch from List.not_mem_nil), dif_pos (show (1 : Fin Cert.ReferenceIdeal.S147x128.rank) ∈ Cert.ReferenceIdeal.dot_S800000x147_S147x128_S800000x128_1_0_0_1_n_n.rhsNonContracting from List.mem_singleton.mpr rfl)]
  rfl

/-- The product at (r, c): the sum over the 147 inner positions of `y[r, k] · w[k, c]`. -/
theorem edgeProj_eq_dot_apply (y : Vec Ideal Cert.ReferenceIdeal.S800000x147 .f32) (w : Vec Ideal Cert.ReferenceIdeal.S147x128 .f32) (r : Fin 800000) (c : Fin 128) :
    Host.dotGeneral (F := Ideal) (φ₁ := .f32) (φ₂ := .f32) Cert.ReferenceIdeal.dot_S800000x147_S147x128_S800000x128_1_0_0_1_n_n none y w (ix2 r c) = ∑ k : Fin 147, y (ix2 r k) * w (ix2 k c) := by
  simp only [Host.dotGeneral]
  rw [Ideal.dotGeneral_apply, ← Equiv.sum_comp (ValueIdx.contrEquiv1 Cert.ReferenceIdeal.dot_S800000x147_S147x128_S800000x128_1_0_0_1_n_n 147 rfl rfl).symm]
  refine Finset.sum_congr rfl fun k _ => ?_
  have hk := ValueIdx.contrEquiv1_symm_val Cert.ReferenceIdeal.dot_S800000x147_S147x128_S800000x128_1_0_0_1_n_n 147 rfl rfl k
  have el : Cert.ReferenceIdeal.dot_S800000x147_S147x128_S800000x128_1_0_0_1_n_n.lhsIdx (ix2 r c) ((ValueIdx.contrEquiv1 Cert.ReferenceIdeal.dot_S800000x147_S147x128_S800000x128_1_0_0_1_n_n 147 rfl rfl).symm k) = ix2 r k := funext fun a => Fin.ext (by
    match a with
    | ⟨0, _⟩ => exact edgeProj_eq_lhs_0 _ _
    | ⟨1, _⟩ => exact (edgeProj_eq_lhs_1 _ _).trans hk)
  have er : Cert.ReferenceIdeal.dot_S800000x147_S147x128_S800000x128_1_0_0_1_n_n.rhsIdx (ix2 r c) ((ValueIdx.contrEquiv1 Cert.ReferenceIdeal.dot_S800000x147_S147x128_S800000x128_1_0_0_1_n_n 147 rfl rfl).symm k) = ix2 k c := funext fun a => Fin.ext (by
    match a with
    | ⟨0, _⟩ => exact (edgeProj_eq_rhs_0 _ _).trans hk
    | ⟨1, _⟩ => exact edgeProj_eq_rhs_1 _ _)
  rw [el, er]

/-! ### The layout operations at an index -/

/-- Left of the seam the joined row reads its left piece. -/
theorem edgeProj_eq_cat_left (x : Vec Ideal Cert.ReferenceIdeal.S800000x133 .f32) (y : Vec Ideal Cert.ReferenceIdeal.S800000x14 .f32) (r : Fin 800000) (k : Fin 133) :
    concatenate Cert.ReferenceIdeal.S800000x147 1 [⟨Cert.ReferenceIdeal.S800000x133, x⟩, ⟨Cert.ReferenceIdeal.S800000x14, y⟩] Cert.ReferenceIdeal.Facts₀.concatenates_S800000x133_S800000x14_S800000x147_d1 (ix2 r (Fin.castAdd 14 k)) = x (ix2 r k) :=
  concatenate_pair_apply_left 1 x y Cert.ReferenceIdeal.Facts₀.concatenates_S800000x133_S800000x14_S800000x147_d1 (ix2 r (Fin.castAdd 14 k)) rfl (ix2 r k) (fun b => by
    match b with
    | ⟨0, _⟩ => rfl
    | ⟨1, _⟩ => rfl)

/-- Right of the seam the joined row reads its right piece, 133 places back. -/
theorem edgeProj_eq_cat_right (x : Vec Ideal Cert.ReferenceIdeal.S800000x133 .f32) (y : Vec Ideal Cert.ReferenceIdeal.S800000x14 .f32) (r : Fin 800000) (k : Fin 14) :
    concatenate Cert.ReferenceIdeal.S800000x147 1 [⟨Cert.ReferenceIdeal.S800000x133, x⟩, ⟨Cert.ReferenceIdeal.S800000x14, y⟩] Cert.ReferenceIdeal.Facts₀.concatenates_S800000x133_S800000x14_S800000x147_d1 (ix2 r (Fin.natAdd 133 k)) = y (ix2 r k) :=
  concatenate_pair_apply_right 1 x y Cert.ReferenceIdeal.Facts₀.concatenates_S800000x133_S800000x14_S800000x147_d1 (ix2 r (Fin.natAdd 133 k)) rfl rfl (ix2 r k) (fun b hb => by
    match b, hb with
    | ⟨0, _⟩, _ => rfl
    | ⟨1, _⟩, hb => exact absurd rfl hb)
    (by show k.val + 133 = 133 + k.val; omega)

/-- Row `k` of the top slice is row `k` of the matrix. -/
theorem edgeProj_eq_slice_top (w : Vec Ideal Cert.ReferenceIdeal.S147x128 .f32) (k : Fin 133) (c : Fin 128) :
    extractStridedSlice Cert.KernelIdeal.S133x128 ![0, 0] w Cert.KernelIdeal.Facts₀.slices_S147x128_S133x128_0_0 (ix2 k c) = w (ix2 (Fin.castAdd 14 k) c) :=
  extractStridedSlice_apply ![0, 0] w Cert.KernelIdeal.Facts₀.slices_S147x128_S133x128_0_0 (ix2 k c) (ix2 (Fin.castAdd 14 k) c) (fun a => by
    match a with
    | ⟨0, _⟩ => show k.val = 0 + k.val; omega
    | ⟨1, _⟩ => show c.val = 0 + c.val; omega)

/-- Row `k` of the bottom slice is row `133 + k` of the matrix. -/
theorem edgeProj_eq_slice_bot (w : Vec Ideal Cert.ReferenceIdeal.S147x128 .f32) (k : Fin 14) (c : Fin 128) :
    extractStridedSlice Cert.KernelIdeal.S14x128 ![133, 0] w Cert.KernelIdeal.Facts₀.slices_S147x128_S14x128_133_0 (ix2 k c) = w (ix2 (Fin.natAdd 133 k) c) :=
  extractStridedSlice_apply ![133, 0] w Cert.KernelIdeal.Facts₀.slices_S147x128_S14x128_133_0 (ix2 k c) (ix2 (Fin.natAdd 133 k) c) (fun a => by
    match a with
    | ⟨0, _⟩ => show 133 + k.val = 133 + k.val; rfl
    | ⟨1, _⟩ => show c.val = 0 + c.val; omega)

/-- The scalar zero broadcast over the result reads `0` everywhere. -/
theorem edgeProj_eq_zero_apply (i : Cert.ReferenceIdeal.S800000x128.Idx) :
    broadcastInDim Cert.ReferenceIdeal.S800000x128 ![] Cert.ReferenceIdeal.Facts₀.bcast_S_S800000x128 (constant (F := Ideal) Cert.ReferenceIdeal.S_ .f32 0x00000000#32) i = (0 : EReal) :=
  (broadcastInDim_apply ![] Cert.ReferenceIdeal.Facts₀.bcast_S_S800000x128 (constant (F := Ideal) Cert.ReferenceIdeal.S_ .f32 0x00000000#32) i ix0 (fun a => a.elim0)).trans
    Ideal.ofBits_zero_f32

/-! ### The two sides agree -/

/-- The split edge projection (two slices of the weight matrix, two products, one sum) equals the joined one (one row of 147 entries
    against the whole matrix), positive part taken on both sides. -/
theorem edgeProj_eq (xs : Vec Ideal Cert.ReferenceIdeal.S800000x133 .f32) (ea : Vec Ideal Cert.ReferenceIdeal.S800000x14 .f32) (W1 : Vec Ideal Cert.ReferenceIdeal.S147x128 .f32) :
    Cert.Spec.edgeProj xs ea
        (extractStridedSlice Cert.KernelIdeal.S133x128 ![0, 0] W1 Cert.KernelIdeal.Facts₀.slices_S147x128_S133x128_0_0)
        (extractStridedSlice Cert.KernelIdeal.S14x128 ![133, 0] W1 Cert.KernelIdeal.Facts₀.slices_S147x128_S14x128_133_0)
      = maximumf (F := Ideal)
          (Host.dotGeneral (F := Ideal) (φ₁ := .f32) (φ₂ := .f32) Cert.ReferenceIdeal.dot_S800000x147_S147x128_S800000x128_1_0_0_1_n_n none
            (concatenate Cert.ReferenceIdeal.S800000x147 1 [⟨Cert.ReferenceIdeal.S800000x133, xs⟩, ⟨Cert.ReferenceIdeal.S800000x14, ea⟩] Cert.ReferenceIdeal.Facts₀.concatenates_S800000x133_S800000x14_S800000x147_d1) W1)
          (broadcastInDim Cert.ReferenceIdeal.S800000x128 ![] Cert.ReferenceIdeal.Facts₀.bcast_S_S800000x128 (constant (F := Ideal) Cert.ReferenceIdeal.S_ .f32 0x00000000#32)) := by
  funext i
  obtain ⟨r, c, rfl⟩ : ∃ (r : Fin 800000) (c : Fin 128), i = ix2 r c := ⟨i 0, i 1, eq_ix2 i⟩
  -- the right side at (r, c): the positive part of the whole sum over the 147 joined columns
  refine Eq.trans ?_ (congrArg₂ max (edgeProj_eq_dot_apply _ W1 r c) (edgeProj_eq_zero_apply (ix2 r c))).symm
  -- the left side at (r, c): the positive part of the two partial sums
  show max ((∑ k : Fin 133, xs (ix2 r k) * extractStridedSlice Cert.KernelIdeal.S133x128 ![0, 0] W1 Cert.KernelIdeal.Facts₀.slices_S147x128_S133x128_0_0 (ix2 k c))
      + ∑ k : Fin 14, ea (ix2 r k) * extractStridedSlice Cert.KernelIdeal.S14x128 ![133, 0] W1 Cert.KernelIdeal.Facts₀.slices_S147x128_S14x128_133_0 (ix2 k c)) 0 = _
  refine congrArg (fun s => max s (0 : EReal)) ?_
  -- 147 = 133 + 14: the whole sum is its first 133 terms plus its last 14
  refine Eq.trans ?_ (Fin.sum_univ_add (M := EReal) (a := 133) (b := 14) (fun k =>
    concatenate Cert.ReferenceIdeal.S800000x147 1 [⟨Cert.ReferenceIdeal.S800000x133, xs⟩, ⟨Cert.ReferenceIdeal.S800000x14, ea⟩] Cert.ReferenceIdeal.Facts₀.concatenates_S800000x133_S800000x14_S800000x147_d1 (ix2 r k) * W1 (ix2 k c))).symm
  refine congrArg₂ (· + ·) (Finset.sum_congr rfl fun k _ => ?_) (Finset.sum_congr rfl fun k _ => ?_)
  · exact congrArg₂ (· * ·) (edgeProj_eq_cat_left xs ea r k).symm (edgeProj_eq_slice_top W1 k c)
  · exact congrArg₂ (· * ·) (edgeProj_eq_cat_right xs ea r k).symm (edgeProj_eq_slice_bot W1 k c)

end Cert.Bridge

end
-- ==== Proof.EdgeUpdEq.lean ====
/-
  The reference's message update, read index by index.

  The update is `relu (h0 + (a − b) · W2)`: a difference of two edge arrays, its product with a square weight
  matrix, a sum with the previous messages, and the positive part taken against a broadcast zero. Read at the
  entry `(r, c)` this is `max (h0[r, c] + ∑ k, (a[r, k] − b[r, k]) · W2[k, c]) 0`, which is the specification
  `Cert.Spec.edgeUpd` word for word. The only step that is not pointwise is the product: its contraction index
  set has one axis of extent 128, and the sum over it is carried to the sum over `k : Fin 128` along the
  bijection between a one-axis index and its coordinate; under that bijection the left operand is read at
  `(r, k)` and the right operand at `(k, c)`.
-/
import proofs.«405290_j57243324121245_1_alg».proof.ReferenceIdeal
import proofs.«405290_j57243324121245_1_alg».proof.Proof.Spec
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.ShloMosaic.ValueIdx

variable [Cert.ReferenceIdeal.Facts₀]

/-- The dimension numbers of the update's product: `[800000, 128] × [128, 128]`, contracting the left operand's
    second axis with the right operand's first. -/
abbrev updDot : DotDims Cert.ReferenceIdeal.S800000x128 Cert.ReferenceIdeal.S128x128 Cert.ReferenceIdeal.S800000x128 :=
  Cert.ReferenceIdeal.dot_S800000x128_S128x128_S800000x128_1_0_0_1_n_n

/-! ## Where the product reads its operands

At output index `i` and contraction index `q`: the left operand's free axis carries `i`'s row and its contracted
axis carries `q`'s coordinate; the right operand's contracted axis carries `q`'s coordinate and its free axis
carries `i`'s column. -/

/-- The left operand's row is the output's row: axis 0 is the left operand's only free axis. -/
theorem updDot_lhs_row (i : Cert.ReferenceIdeal.S800000x128.Idx) (q : updDot.contr.Idx) :
    (updDot.lhsIdx i q 0).val = (i 0).val := by
  unfold DotDims.lhsIdx
  rw [dif_neg (show ¬(0 : Fin Cert.ReferenceIdeal.S800000x128.rank) ∈ updDot.lhsBatch from List.not_mem_nil),
    dif_pos (show (0 : Fin Cert.ReferenceIdeal.S800000x128.rank) ∈ updDot.lhsNonContracting from List.mem_singleton.mpr rfl)]
  rfl

/-- The left operand's column is the contraction coordinate: axis 1 is its single contracted axis. -/
theorem updDot_lhs_col (i : Cert.ReferenceIdeal.S800000x128.Idx) (q : updDot.contr.Idx) :
    (updDot.lhsIdx i q 1).val = (q ⟨0, Nat.one_pos⟩).val :=
  updDot.lhsIdx_val_of_single rfl i q

/-- The right operand's row is the contraction coordinate: axis 0 is its single contracted axis. -/
theorem updDot_rhs_row (i : Cert.ReferenceIdeal.S800000x128.Idx) (q : updDot.contr.Idx) :
    (updDot.rhsIdx i q 0).val = (q ⟨0, Nat.one_pos⟩).val :=
  updDot.rhsIdx_val_of_single rfl i q

/-- The right operand's column is the output's column: axis 1 is the right operand's only free axis. -/
theorem updDot_rhs_col (i : Cert.ReferenceIdeal.S800000x128.Idx) (q : updDot.contr.Idx) :
    (updDot.rhsIdx i q 1).val = (i 1).val := by
  unfold DotDims.rhsIdx
  rw [dif_neg (show ¬(1 : Fin Cert.ReferenceIdeal.S128x128.rank) ∈ updDot.rhsBatch from List.not_mem_nil),
    dif_pos (show (1 : Fin Cert.ReferenceIdeal.S128x128.rank) ∈ updDot.rhsNonContracting from List.mem_singleton.mpr rfl)]
  rfl

/-- The contraction index set is `Fin 128`, through its one coordinate. -/
abbrev updContr : updDot.contr.Idx ≃ Fin 128 := contrEquiv1 updDot 128 rfl rfl

/-- At the contraction index whose coordinate is `k`, the left operand is read at `(r, k)`. -/
theorem updDot_lhsIdx (r : Fin 800000) (c k : Fin 128) :
    updDot.lhsIdx (ix2 r c) (updContr.symm k) = ix2 r k := by
  funext d
  refine Fin.ext ?_
  match d with
  | ⟨0, _⟩ => exact updDot_lhs_row (ix2 r c) (updContr.symm k)
  | ⟨1, _⟩ => exact (updDot_lhs_col (ix2 r c) (updContr.symm k)).trans (contrEquiv1_symm_val updDot 128 rfl rfl k)

/-- At the contraction index whose coordinate is `k`, the right operand is read at `(k, c)`. -/
theorem updDot_rhsIdx (r : Fin 800000) (c k : Fin 128) :
    updDot.rhsIdx (ix2 r c) (updContr.symm k) = ix2 k c := by
  funext d
  refine Fin.ext ?_
  match d with
  | ⟨0, _⟩ => exact (updDot_rhs_row (ix2 r c) (updContr.symm k)).trans (contrEquiv1_symm_val updDot 128 rfl rfl k)
  | ⟨1, _⟩ => exact updDot_rhs_col (ix2 r c) (updContr.symm k)

/-! ## The product at an index -/

/-- Over the extended reals the product's entry `(r, c)` is the exact sum `∑ k, x[r, k] · w[k, c]`: the sum over
    the contraction index set, carried to `Fin 128` along `updContr`. -/
theorem updDot_apply (x : FVec Ideal Cert.ReferenceIdeal.S800000x128 .f32) (w : FVec Ideal Cert.ReferenceIdeal.S128x128 .f32)
    (r : Fin 800000) (c : Fin 128) :
    Host.dotGeneral (F := Ideal) updDot none x w (ix2 r c) = ∑ k : Fin 128, x (ix2 r k) * w (ix2 k c) := by
  refine (Ideal.dotGeneral_apply updDot none .single x w (ix2 r c)).trans ?_
  refine (Equiv.sum_comp updContr.symm fun q => x (updDot.lhsIdx (ix2 r c) q) * w (updDot.rhsIdx (ix2 r c) q)).symm.trans ?_
  refine Finset.sum_congr rfl fun k _ => ?_
  rw [updDot_lhsIdx r c k, updDot_rhsIdx r c k]

/-! ## The update -/

/-- The broadcast of the scalar zero reads `0` at every entry: a rank-0 operand has no axis to read a coordinate
    from, and the word `0x00000000` encodes the real number zero. -/
theorem zeros_apply (i : Cert.ReferenceIdeal.S800000x128.Idx) :
    broadcastInDim Cert.ReferenceIdeal.S800000x128 ![] Cert.ReferenceIdeal.Facts₀.bcast_S_S800000x128
      (constant (F := Ideal) Cert.ReferenceIdeal.S_ .f32 0x00000000#32) i = (0 : EReal) := by
  refine (broadcastInDim_apply _ Cert.ReferenceIdeal.Facts₀.bcast_S_S800000x128
    (constant (F := Ideal) Cert.ReferenceIdeal.S_ .f32 0x00000000#32) i ix0 (fun a => a.elim0)).trans ?_
  exact Ideal.ofBits_zero_f32

/-- The reference's message update is the specification `Cert.Spec.edgeUpd`: subtraction, sum and maximum read
    pointwise, the product is `updDot_apply`, and the second operand of the maximum is zero everywhere. -/
theorem edgeUpd_eq (a b h0 : FVec Ideal Cert.ReferenceIdeal.S800000x128 .f32) (W2 : FVec Ideal Cert.ReferenceIdeal.S128x128 .f32) :
    Cert.Spec.edgeUpd a b h0 W2
      = maximumf (F := Ideal)
          (addf (F := Ideal) h0 (Host.dotGeneral (F := Ideal) Cert.ReferenceIdeal.dot_S800000x128_S128x128_S800000x128_1_0_0_1_n_n none (subf (F := Ideal) a b) W2))
          (broadcastInDim Cert.ReferenceIdeal.S800000x128 ![] Cert.ReferenceIdeal.Facts₀.bcast_S_S800000x128 (constant (F := Ideal) Cert.ReferenceIdeal.S_ .f32 0x00000000#32)) := by
  funext i
  obtain ⟨r, c, rfl⟩ : ∃ (r : Fin 800000) (c : Fin 128), i = ix2 r c := ⟨i 0, i 1, eq_ix2 i⟩
  refine Eq.symm ((maximumf_apply _ _ (ix2 r c)).trans ?_)
  rw [zeros_apply (ix2 r c)]
  refine congrArg (fun t => max t (0 : EReal)) ?_
  refine (addf_apply h0 _ (ix2 r c)).trans ?_
  refine congrArg (fun t => h0 (ix2 r c) + t) ?_
  exact updDot_apply (subf (F := Ideal) a b) W2 r c

end Cert.Bridge

end
-- ==== Proof.NodeProjEq.lean ====
/-
  The node projection, two ways. One program multiplies a row of node features and a row of aggregated messages by the top 133 and the
  bottom 128 rows of the weight matrix and adds the two products; the other joins the two rows into one of 261 entries and
  multiplies it by the whole matrix. Both then take the positive part.

  Both sides are read at one index (r, c).
  * The product of the concatenated row with the whole matrix is the sum over the 261 joined columns of
    `[x ‖ y][r, k] · W[k, c]`.
  * 261 = 133 + 128: the sum splits into its first 133 terms and its last 128. On the first part the joined row reads its
    left piece and the matrix row `k` is row `k` of the top slice; on the second part the joined row reads its right piece at
    `k` and the matrix row `133 + k` is row `k` of the bottom slice.
  * The scalar zero broadcast over the result is the extended real `0`, so both sides take `max · 0` of the same sum.
  Only the splitting of a finite sum is used: no finiteness of any entry.
-/
import proofs.«405290_j57243324121245_1_alg».proof.KernelIdeal
import proofs.«405290_j57243324121245_1_alg».proof.ReferenceIdeal
import proofs.«405290_j57243324121245_1_alg».proof.Proof.Spec
import Idealize.ShloMosaic.Lib.Pipeline.Value
import Idealize.ShloMosaic.Lib.ValueIdx
import Idealize.ShloMosaic.PureOps.Ideal.Laws
import Mathlib.Algebra.BigOperators.Fin

noncomputable section

namespace Cert.Bridge

open Idealize.ShloMosaic Idealize.ShloMosaic.TcCoe Idealize.ShloMosaic.ValueIdx

variable [Cert.KernelIdeal.Facts₀] [Cert.ReferenceIdeal.Facts₀]

/-! ### The product's operand indices, axis by axis -/

/-- The left operand's row is the result's row. -/
theorem nodeProj_eq_lhs_0 (i : Cert.ReferenceIdeal.S50000x128.Idx) (q : Cert.ReferenceIdeal.dot_S50000x261_S261x128_S50000x128_1_0_0_1_n_n.contr.Idx) :
    (Cert.ReferenceIdeal.dot_S50000x261_S261x128_S50000x128_1_0_0_1_n_n.lhsIdx i q 0).val = (i 0).val := by
  unfold DotDims.lhsIdx
  rw [dif_neg (show ¬(0 : Fin Cert.ReferenceIdeal.S50000x261.rank) ∈ Cert.ReferenceIdeal.dot_S50000x261_S261x128_S50000x128_1_0_0_1_n_n.lhsBatch from List.not_mem_nil), dif_pos (show (0 : Fin Cert.ReferenceIdeal.S50000x261.rank) ∈ Cert.ReferenceIdeal.dot_S50000x261_S261x128_S50000x128_1_0_0_1_n_n.lhsNonContracting from List.mem_singleton.mpr rfl)]
  rfl
/-- The left operand's column is the contraction coordinate. -/
theorem nodeProj_eq_lhs_1 (i : Cert.ReferenceIdeal.S50000x128.Idx) (q : Cert.ReferenceIdeal.dot_S50000x261_S261x128_S50000x128_1_0_0_1_n_n.contr.Idx) :
    (Cert.ReferenceIdeal.dot_S50000x261_S261x128_S50000x128_1_0_0_1_n_n.lhsIdx i q 1).val = (q ⟨0, Nat.one_pos⟩).val :=
  Cert.ReferenceIdeal.dot_S50000x261_S261x128_S50000x128_1_0_0_1_n_n.lhsIdx_val_of_single rfl i q
/-- The right operand's row is the contraction coordinate. -/
theorem nodeProj_eq_rhs_0 (i : Cert.ReferenceIdeal.S50000x128.Idx) (q : Cert.ReferenceIdeal.dot_S50000x261_S261x128_S50000x128_1_0_0_1_n_n.contr.Idx) :
    (Cert.ReferenceIdeal.dot_S50000x261_S261x128_S50000x128_1_0_0_1_n_n.rhsIdx i q 0).val = (q ⟨0, Nat.one_pos⟩).val :=
  Cert.ReferenceIdeal.dot_S50000x261_S261x128_S50000x128_1_0_0_1_n_n.rhsIdx_val_of_single rfl i q
/-- The right operand's column is the result's column. -/
theorem nodeProj_eq_rhs_1 (i : Cert.ReferenceIdeal.S50000x128.Idx) (q : Cert.ReferenceIdeal.dot_S50000x261_S261x128_S50000x128_1_0_0_1_n_n.contr.Idx) :
    (Cert.ReferenceIdeal.dot_S50000x261_S261x128_S50000x128_1_0_0_1_n_n.rhsIdx i q 1).val = (i 1).val := by
  unfold DotDims.rhsIdx
  rw [dif_neg (show ¬(1 : Fin Cert.ReferenceIdeal.S261x128.rank) ∈ Cert.ReferenceIdeal.dot_S50000x261_S261x128_S50000x128_1_0_0_1_n_n.rhsBatch from List.not_mem_nil), dif_pos (show (1 : Fin Cert.ReferenceIdeal.S261x128.rank) ∈ Cert.ReferenceIdeal.dot_S50000x261_S261x128_S50000x128_1_0_0_1_n_n.rhsNonContracting from List.mem_singleton.mpr rfl)]
  rfl

/-- The product at (r, c): the sum over the 261 inner positions of `y[r, k] · w[k, c]`. -/
theorem nodeProj_eq_dot_apply (y : Vec Ideal Cert.ReferenceIdeal.S50000x261 .f32) (w : Vec Ideal Cert.ReferenceIdeal.S261x128 .f32) (r : Fin 50000) (c : Fin 128) :
    Host.dotGeneral (F := Ideal) (φ₁ := .f32) (φ₂ := .f32) Cert.ReferenceIdeal.dot_S50000x261_S261x128_S50000x128_1_0_0_1_n_n none y w (ix2 r c) = ∑ k : Fin 261, y (ix2 r k) * w (ix2 k c) := by
  simp only [Host.dotGeneral]
  rw [Ideal.dotGeneral_apply, ← Equiv.sum_comp (ValueIdx.contrEquiv1 Cert.ReferenceIdeal.dot_S50000x261_S261x128_S50000x128_1_0_0_1_n_n 261 rfl rfl).symm]
  refine Finset.sum_congr rfl fun k _ => ?_
  have hk := ValueIdx.contrEquiv1_symm_val Cert.ReferenceIdeal.dot_S50000x261_S261x128_S50000x128_1_0_0_1_n_n 261 rfl rfl k
  have el : Cert.ReferenceIdeal.dot_S50000x261_S261x128_S50000x128_1_0_0_1_n_n.lhsIdx (ix2 r c) ((ValueIdx.contrEquiv1 Cert.ReferenceIdeal.dot_S50000x261_S261x128_S50000x128_1_0_0_1_n_n 261 rfl rfl).symm k) = ix2 r k := funext fun a => Fin.ext (by
    match a with
    | ⟨0, _⟩ => exact nodeProj_eq_lhs_0 _ _
    | ⟨1, _⟩ => exact (nodeProj_eq_lhs_1 _ _).trans hk)
  have er : Cert.ReferenceIdeal.dot_S50000x261_S261x128_S50000x128_1_0_0_1_n_n.rhsIdx (ix2 r c) ((ValueIdx.contrEquiv1 Cert.ReferenceIdeal.dot_S50000x261_S261x128_S50000x128_1_0_0_1_n_n 261 rfl rfl).symm k) = ix2 k c := funext fun a => Fin.ext (by
    match a with
    | ⟨0, _⟩ => exact (nodeProj_eq_rhs_0 _ _).trans hk
    | ⟨1, _⟩ => exact nodeProj_eq_rhs_1 _ _)
  rw [el, er]

/-! ### The layout operations at an index -/

/-- Left of the seam the joined row reads its left piece. -/
theorem nodeProj_eq_cat_left (x : Vec Ideal Cert.ReferenceIdeal.S50000x133 .f32) (y : Vec Ideal Cert.ReferenceIdeal.S50000x128 .f32) (r : Fin 50000) (k : Fin 133) :
    concatenate Cert.ReferenceIdeal.S50000x261 1 [⟨Cert.ReferenceIdeal.S50000x133, x⟩, ⟨Cert.ReferenceIdeal.S50000x128, y⟩] Cert.ReferenceIdeal.Facts₀.concatenates_S50000x133_S50000x128_S50000x261_d1 (ix2 r (Fin.castAdd 128 k)) = x (ix2 r k) :=
  concatenate_pair_apply_left 1 x y Cert.ReferenceIdeal.Facts₀.concatenates_S50000x133_S50000x128_S50000x261_d1 (ix2 r (Fin.castAdd 128 k)) rfl (ix2 r k) (fun b => by
    match b with
    | ⟨0, _⟩ => rfl
    | ⟨1, _⟩ => rfl)

/-- Right of the seam the joined row reads its right piece, 133 places back. -/
theorem nodeProj_eq_cat_right (x : Vec Ideal Cert.ReferenceIdeal.S50000x133 .f32) (y : Vec Ideal Cert.ReferenceIdeal.S50000x128 .f32) (r : Fin 50000) (k : Fin 128) :
    concatenate Cert.ReferenceIdeal.S50000x261 1 [⟨Cert.ReferenceIdeal.S50000x133, x⟩, ⟨Cert.ReferenceIdeal.S50000x128, y⟩] Cert.ReferenceIdeal.Facts₀.concatenates_S50000x133_S50000x128_S50000x261_d1 (ix2 r (Fin.natAdd 133 k)) = y (ix2 r k) :=
  concatenate_pair_apply_right 1 x y Cert.ReferenceIdeal.Facts₀.concatenates_S50000x133_S50000x128_S50000x261_d1 (ix2 r (Fin.natAdd 133 k)) rfl rfl (ix2 r k) (fun b hb => by
    match b, hb with
    | ⟨0, _⟩, _ => rfl
    | ⟨1, _⟩, hb => exact absurd rfl hb)
    (by show k.val + 133 = 133 + k.val; omega)

/-- Row `k` of the top slice is row `k` of the matrix. -/
theorem nodeProj_eq_slice_top (w : Vec Ideal Cert.ReferenceIdeal.S261x128 .f32) (k : Fin 133) (c : Fin 128) :
    extractStridedSlice Cert.KernelIdeal.S133x128 ![0, 0] w Cert.KernelIdeal.Facts₀.slices_S261x128_S133x128_0_0 (ix2 k c) = w (ix2 (Fin.castAdd 128 k) c) :=
  extractStridedSlice_apply ![0, 0] w Cert.KernelIdeal.Facts₀.slices_S261x128_S133x128_0_0 (ix2 k c) (ix2 (Fin.castAdd 128 k) c) (fun a => by
    match a with
    | ⟨0, _⟩ => show k.val = 0 + k.val; omega
    | ⟨1, _⟩ => show c.val = 0 + c.val; omega)

/-- Row `k` of the bottom slice is row `133 + k` of the matrix. -/
theorem nodeProj_eq_slice_bot (w : Vec Ideal Cert.ReferenceIdeal.S261x128 .f32) (k : Fin 128) (c : Fin 128) :
    extractStridedSlice Cert.KernelIdeal.S128x128 ![133, 0] w Cert.KernelIdeal.Facts₀.slices_S261x128_S128x128_133_0 (ix2 k c) = w (ix2 (Fin.natAdd 133 k) c) :=
  extractStridedSlice_apply ![133, 0] w Cert.KernelIdeal.Facts₀.slices_S261x128_S128x128_133_0 (ix2 k c) (ix2 (Fin.natAdd 133 k) c) (fun a => by
    match a with
    | ⟨0, _⟩ => show 133 + k.val = 133 + k.val; rfl
    | ⟨1, _⟩ => show c.val = 0 + c.val; omega)

/-- The scalar zero broadcast over the result reads `0` everywhere. -/
theorem nodeProj_eq_zero_apply (i : Cert.ReferenceIdeal.S50000x128.Idx) :
    broadcastInDim Cert.ReferenceIdeal.S50000x128 ![] Cert.ReferenceIdeal.Facts₀.bcast_S_S50000x128 (constant (F := Ideal) Cert.ReferenceIdeal.S_ .f32 0x00000000#32) i = (0 : EReal) :=
  (broadcastInDim_apply ![] Cert.ReferenceIdeal.Facts₀.bcast_S_S50000x128 (constant (F := Ideal) Cert.ReferenceIdeal.S_ .f32 0x00000000#32) i ix0 (fun a => a.elim0)).trans
    Ideal.ofBits_zero_f32

/-! ### The two sides agree -/

/-- The split node projection (two slices of the weight matrix, two products, one sum) equals the joined one (one row of 261 entries
    against the whole matrix), positive part taken on both sides. -/
theorem nodeProj_eq (x : Vec Ideal Cert.ReferenceIdeal.S50000x133 .f32) (vm : Vec Ideal Cert.ReferenceIdeal.S50000x128 .f32) (W3 : Vec Ideal Cert.ReferenceIdeal.S261x128 .f32) :
    Cert.Spec.nodeProj x vm
        (extractStridedSlice Cert.KernelIdeal.S133x128 ![0, 0] W3 Cert.KernelIdeal.Facts₀.slices_S261x128_S133x128_0_0)
        (extractStridedSlice Cert.KernelIdeal.S128x128 ![133, 0] W3 Cert.KernelIdeal.Facts₀.slices_S261x128_S128x128_133_0)
      = maximumf (F := Ideal)
          (Host.dotGeneral (F := Ideal) (φ₁ := .f32) (φ₂ := .f32) Cert.ReferenceIdeal.dot_S50000x261_S261x128_S50000x128_1_0_0_1_n_n none
            (concatenate Cert.ReferenceIdeal.S50000x261 1 [⟨Cert.ReferenceIdeal.S50000x133, x⟩, ⟨Cert.ReferenceIdeal.S50000x128, vm⟩] Cert.ReferenceIdeal.Facts₀.concatenates_S50000x133_S50000x128_S50000x261_d1) W3)
          (broadcastInDim Cert.ReferenceIdeal.S50000x128 ![] Cert.ReferenceIdeal.Facts₀.bcast_S_S50000x128 (constant (F := Ideal) Cert.ReferenceIdeal.S_ .f32 0x00000000#32)) := by
  funext i
  obtain ⟨r, c, rfl⟩ : ∃ (r : Fin 50000) (c : Fin 128), i = ix2 r c := ⟨i 0, i 1, eq_ix2 i⟩
  -- the right side at (r, c): the positive part of the whole sum over the 261 joined columns
  refine Eq.trans ?_ (congrArg₂ max (nodeProj_eq_dot_apply _ W3 r c) (nodeProj_eq_zero_apply (ix2 r c))).symm
  -- the left side at (r, c): the positive part of the two partial sums
  show max ((∑ k : Fin 133, x (ix2 r k) * extractStridedSlice Cert.KernelIdeal.S133x128 ![0, 0] W3 Cert.KernelIdeal.Facts₀.slices_S261x128_S133x128_0_0 (ix2 k c))
      + ∑ k : Fin 128, vm (ix2 r k) * extractStridedSlice Cert.KernelIdeal.S128x128 ![133, 0] W3 Cert.KernelIdeal.Facts₀.slices_S261x128_S128x128_133_0 (ix2 k c)) 0 = _
  refine congrArg (fun s => max s (0 : EReal)) ?_
  -- 261 = 133 + 128: the whole sum is its first 133 terms plus its last 128
  refine Eq.trans ?_ (Fin.sum_univ_add (M := EReal) (a := 133) (b := 128) (fun k =>
    concatenate Cert.ReferenceIdeal.S50000x261 1 [⟨Cert.ReferenceIdeal.S50000x133, x⟩, ⟨Cert.ReferenceIdeal.S50000x128, vm⟩] Cert.ReferenceIdeal.Facts₀.concatenates_S50000x133_S50000x128_S50000x261_d1 (ix2 r k) * W3 (ix2 k c))).symm
  refine congrArg₂ (· + ·) (Finset.sum_congr rfl fun k _ => ?_) (Finset.sum_congr rfl fun k _ => ?_)
  · exact congrArg₂ (· * ·) (nodeProj_eq_cat_left x vm r k).symm (nodeProj_eq_slice_top W3 k c)
  · exact congrArg₂ (· * ·) (nodeProj_eq_cat_right x vm r k).symm (nodeProj_eq_slice_bot W3 k c)

end Cert.Bridge

end
-- ==== Proof.BatchSumEq.lean ====
import proofs.«405290_j57243324121245_1_alg».proof.KernelIdeal
import proofs.«405290_j57243324121245_1_alg».proof.ReferenceIdeal
import proofs.«405290_j57243324121245_1_alg».proof.Proof.Spec
import Idealize.ShloMosaic.Lib.Pipeline.Value
import Idealize.ShloMosaic.Lib.ValueIdx
import Idealize.ShloMosaic.Lib.KernelVsHost
import Idealize.ShloMosaic.Lib.IdealHost
import Idealize.ShloMosaic.PureOps.Ideal.Laws
noncomputable section
namespace Cert.Bridge
open Idealize.ShloMosaic Idealize.ShloMosaic.TcCoe Idealize.ShloMosaic.ValueIdx

variable [Cert.ReferenceIdeal.Facts₀] [Cert.KernelIdeal.Facts₀]

/-! ## The scatter's result index, coordinate by coordinate

The scatter of the reference has one index component per update row: the row's label, read signed, is the
start on the segment axis; the update's channel coordinate is the window coordinate on the channel axis. -/

open Cert.ReferenceIdeal in
/-- The scatter-indices entry an update index reads is the entry of its own row. -/
theorem siIdx_row (j : S50000x128.Idx)
    (c : Fin scatter_S512x128_S50000x1_S50000x128_1_0_0_1.scatterDimsToOperandDims.length) :
    scatter_S512x128_S50000x1_S50000x128_1_0_0_1.siIdx j c = ix2 (j 0) 0 := by
  funext b
  match b with
  | ⟨0, _⟩ => exact Fin.ext rfl
  | ⟨1, _⟩ =>
    refine Fin.ext ?_
    have hc : c.val < 1 := c.isLt
    show c.val = 0
    omega

open Cert.ReferenceIdeal in
/-- On the segment axis the window starts at the row's label, read signed. -/
theorem start_seg (j : S50000x128.Idx) (idx : IVec S50000x1 32) :
    scatter_S512x128_S50000x1_S50000x128_1_0_0_1.start j idx 0 = (idx (ix2 (j 0) 0)).toInt := by
  unfold ScatterDims.start
  have h : (0 : Fin S512x128.rank) ∈ scatter_S512x128_S50000x1_S50000x128_1_0_0_1.scatterDimsToOperandDims := by
    show (0 : Fin 2) ∈ [(0 : Fin 2)]; decide
  rw [dif_pos h, siIdx_row]
  rfl

open Cert.ReferenceIdeal in
/-- On the channel axis the window starts at 0. -/
theorem start_chan (j : S50000x128.Idx) (idx : IVec S50000x1 32) :
    scatter_S512x128_S50000x1_S50000x128_1_0_0_1.start j idx 1 = 0 := by
  unfold ScatterDims.start
  have h : (1 : Fin S512x128.rank) ∉ scatter_S512x128_S50000x1_S50000x128_1_0_0_1.scatterDimsToOperandDims := by
    show (1 : Fin 2) ∉ [(0 : Fin 2)]; decide
  rw [dif_neg h]

open Cert.ReferenceIdeal in
/-- The segment axis is an inserted axis: its window coordinate is 0. -/
theorem window_seg (j : S50000x128.Idx) :
    scatter_S512x128_S50000x1_S50000x128_1_0_0_1.window j 0 = 0 := by
  unfold ScatterDims.window
  have h : (0 : Fin S512x128.rank) ∉ scatter_S512x128_S50000x1_S50000x128_1_0_0_1.sKept := by
    show (0 : Fin S512x128.rank) ∉ S512x128.kept [(0 : Fin S512x128.rank)]; decide
  rw [dif_neg h]

open Cert.ReferenceIdeal in
/-- The channel axis carries the update's channel coordinate. -/
theorem window_chan (j : S50000x128.Idx) :
    scatter_S512x128_S50000x1_S50000x128_1_0_0_1.window j 1 = (j 1).val := by
  unfold ScatterDims.window
  have h : (1 : Fin S512x128.rank) ∈ scatter_S512x128_S50000x1_S50000x128_1_0_0_1.sKept := by
    show (1 : Fin S512x128.rank) ∈ S512x128.kept [(0 : Fin S512x128.rank)]; decide
  rw [dif_pos h]
  rfl

open Cert.ReferenceIdeal in
/-- An update lands inside the operand exactly when its row's label, read signed, is a segment number. -/
theorem inside_iff (j : S50000x128.Idx) (idx : IVec S50000x1 32) :
    (∀ a, 0 ≤ scatter_S512x128_S50000x1_S50000x128_1_0_0_1.start j idx a
              + (scatter_S512x128_S50000x1_S50000x128_1_0_0_1.window j a : Int)
        ∧ scatter_S512x128_S50000x1_S50000x128_1_0_0_1.start j idx a
              + (scatter_S512x128_S50000x1_S50000x128_1_0_0_1.window j a : Int) < S512x128.size a)
      ↔ (0 ≤ (idx (ix2 (j 0) 0)).toInt ∧ (idx (ix2 (j 0) 0)).toInt < 512) := by
  rw [Fin.forall_fin_two, start_seg, start_chan, window_seg, window_chan]
  have h0 : S512x128.size 0 = 512 := rfl
  have h1 : S512x128.size 1 = 128 := rfl
  have hj : (j 1).val < 128 := (j 1).isLt
  rw [h0, h1]
  omega

open Cert.ReferenceIdeal in
/-- Update `(n, h')` lands at `(g, h)` exactly when row `n`'s label, read signed, is `g` and the channels agree. -/
theorem resultIdx_iff (n : Fin 50000) (h' : Fin 128) (idx : IVec S50000x1 32) (g : Fin 512) (h : Fin 128) :
    scatter_S512x128_S50000x1_S50000x128_1_0_0_1.resultIdx? (ix2 n h') idx = some (ix2 g h)
      ↔ ((idx (ix2 n 0)).toInt = (g.val : Int) ∧ h' = h) := by
  unfold ScatterDims.resultIdx?
  have hg : g.val < 512 := g.isLt
  by_cases hin : (0 ≤ (idx (ix2 n 0)).toInt ∧ (idx (ix2 n 0)).toInt < 512)
  · rw [dif_pos ((inside_iff (ix2 n h') idx).2 hin), Option.some.injEq]
    constructor
    · intro he
      have e0 : (scatter_S512x128_S50000x1_S50000x128_1_0_0_1.start (ix2 n h') idx 0
          + (scatter_S512x128_S50000x1_S50000x128_1_0_0_1.window (ix2 n h') 0 : Int)).toNat = g.val :=
        congrArg (fun i => (i 0).val) he
      have e1 : (scatter_S512x128_S50000x1_S50000x128_1_0_0_1.start (ix2 n h') idx 1
          + (scatter_S512x128_S50000x1_S50000x128_1_0_0_1.window (ix2 n h') 1 : Int)).toNat = h.val :=
        congrArg (fun i => (i 1).val) he
      rw [start_seg, window_seg] at e0
      rw [start_chan, window_chan] at e1
      have e0' : ((idx (ix2 n 0)).toInt + ((0 : Nat) : Int)).toNat = g.val := e0
      have e1' : ((0 : Int) + (h'.val : Int)).toNat = h.val := e1
      exact ⟨by omega, Fin.ext (by omega)⟩
    · rintro ⟨e0, rfl⟩
      funext a
      match a with
      | ⟨0, _⟩ =>
        refine Fin.ext ?_
        show (scatter_S512x128_S50000x1_S50000x128_1_0_0_1.start (ix2 n h') idx 0
          + (scatter_S512x128_S50000x1_S50000x128_1_0_0_1.window (ix2 n h') 0 : Int)).toNat = g.val
        rw [start_seg, window_seg]
        show ((idx (ix2 n 0)).toInt + ((0 : Nat) : Int)).toNat = g.val
        omega
      | ⟨1, _⟩ =>
        refine Fin.ext ?_
        show (scatter_S512x128_S50000x1_S50000x128_1_0_0_1.start (ix2 n h') idx 1
          + (scatter_S512x128_S50000x1_S50000x128_1_0_0_1.window (ix2 n h') 1 : Int)).toNat = h'.val
        rw [start_chan, window_chan]
        show ((0 : Int) + (h'.val : Int)).toNat = h'.val
        omega
  · rw [dif_neg (fun hall => hin ((inside_iff (ix2 n h') idx).1 hall))]
    constructor
    · intro he; cases he
    · rintro ⟨e0, -⟩
      exact absurd ⟨by omega, by omega⟩ hin

/-! ## Labels as words and as signed numbers -/

/-- For a segment number below 512, a 32-bit label is that number's word exactly when it reads, signed, as
    that number. -/
theorem ofNat_eq_iff_toInt (g : Nat) (hg : g < 512) (b : BitVec 32) :
    BitVec.ofNat 32 g = b ↔ b.toInt = (g : Int) := by
  have hb : b.toNat < 2 ^ 32 := b.isLt
  have hp : (2 : Nat) ^ 32 = 4294967296 := by norm_num
  rw [BitVec.toInt_eq_toNat_cond]
  constructor
  · rintro rfl
    rw [BitVec.toNat_ofNat]
    have : g % 2 ^ 32 = g := Nat.mod_eq_of_lt (by omega)
    rw [this, if_pos (by omega)]
  · intro h
    apply BitVec.eq_of_toNat_eq
    rw [BitVec.toNat_ofNat]
    have : g % 2 ^ 32 = g := Nat.mod_eq_of_lt (by omega)
    rw [this]
    split at h <;> omega

/-! ## A sum over padded rows -/

/-- A sum over `N` rows whose rows from `M` on vanish is the sum over the first `M` rows. -/
theorem sum_padded {M N : Nat} (hMN : M ≤ N) (f : Fin N → EReal) (f' : Fin M → EReal)
    (h1 : ∀ (n : Fin N) (hn : n.val < M), f n = f' ⟨n.val, hn⟩) (h0 : ∀ n : Fin N, M ≤ n.val → f n = 0) :
    ∑ n, f n = ∑ n, f' n := by
  obtain ⟨k, rfl⟩ := Nat.exists_eq_add_of_le hMN
  rw [Fin.sum_univ_add]
  have hz : ∑ i : Fin k, f (Fin.natAdd M i) = 0 :=
    Finset.sum_eq_zero fun i _ => h0 _ (by simp)
  rw [hz, add_zero]
  exact Finset.sum_congr rfl fun i _ => (h1 (Fin.castAdd k i) i.isLt).trans rfl

/-! ## The reference's scatter-add read at an index -/

open Cert.ReferenceIdeal in
/-- The scatter-add at `(g, h)`: the operand there plus the rows whose label, read signed, is `g`, at channel `h`. -/
theorem scatterAdd_apply (x0 : FVec Ideal S512x128 .f32) (idx : IVec S50000x1 32) (na : Vec Ideal S50000x128 .f32)
    (g : Fin 512) (h : Fin 128) :
    Host.scatterAdd (F := Ideal) scatter_S512x128_S50000x1_S50000x128_1_0_0_1 x0 idx na (ix2 g h)
      = x0 (ix2 g h) + ∑ n : Fin 50000, if (idx (ix2 n 0)).toInt = (g.val : Int) then na (ix2 n h) else 0 := by
  show x0 (ix2 g h) + ∑ j ∈ Finset.univ.filter
      (fun j => scatter_S512x128_S50000x1_S50000x128_1_0_0_1.resultIdx? j idx = some (ix2 g h)), na j = _
  refine congrArg (fun t => x0 (ix2 g h) + t) ?_
  rw [Finset.sum_filter, sum_idx2]
  refine Finset.sum_congr rfl fun n _ => ?_
  simp only [resultIdx_iff]
  by_cases hc : (idx (ix2 n 0)).toInt = (g.val : Int)
  · simp only [hc, true_and, if_true]
    rw [Finset.sum_ite_eq' Finset.univ h (fun h' => na (ix2 n h'))]
    simp
  · simp only [hc, false_and, if_false]
    exact Finset.sum_const_zero

/-! ## The one-hot product over the padded rows is the reference's segment sum -/

/-- The segment sum as a one-hot product over padded rows (the padding rows of the features are zero, so whatever
    label they carry they add nothing) equals the scatter-add of the rows into a zero array: on both sides row `n`
    reaches segment `g` exactly when its label is `g`, as a word on the left and read signed on the right, and a
    label outside the segment numbers reaches no segment on either side. -/
theorem batchSum_core (na : Vec Ideal Cert.ReferenceIdeal.S50000x128 .f32) (batch : IVec Cert.ReferenceIdeal.S50000 32)
    (nap : Vec Ideal Cert.KernelIdeal.S50048x128 .f32) (bp : IVec Cert.KernelIdeal.S1x50048 32) (gid : IVec Cert.KernelIdeal.S512x1 32)
    (hna : ∀ (n : Fin 50048) (h : Fin 128) (hn : n.val < 50000), nap (ix2 n h) = na (ix2 ⟨n.val, hn⟩ h))
    (hna0 : ∀ (n : Fin 50048) (h : Fin 128), 50000 ≤ n.val → nap (ix2 n h) = 0)
    (hb : ∀ (n : Fin 50048) (hn : n.val < 50000), bp (ix2 0 n) = batch (ix1 ⟨n.val, hn⟩))
    (hb0 : ∀ (n : Fin 50048), 50000 ≤ n.val → bp (ix2 0 n) = 4294967295#32)
    (hgid : ∀ g : Fin 512, gid (ix2 g 0) = BitVec.ofNat 32 g.val) :
    Cert.Spec.batchSum nap bp gid
      = Host.scatterAdd (F := Ideal) Cert.ReferenceIdeal.scatter_S512x128_S50000x1_S50000x128_1_0_0_1
          (broadcastInDim Cert.ReferenceIdeal.S512x128 ![] Cert.ReferenceIdeal.Facts₀.bcast_S_S512x128 (constant (F := Ideal) Cert.ReferenceIdeal.S_ .f32 0x00000000#32))
          (broadcastInDim Cert.ReferenceIdeal.S50000x1 ![0] Cert.ReferenceIdeal.Facts₀.bcast_S50000_S50000x1_0 batch) na := by
  funext i
  obtain ⟨g, h, rfl⟩ : ∃ (g : Fin 512) (h : Fin 128), i = ix2 g h := ⟨i 0, i 1, eq_ix2 i⟩
  rw [scatterAdd_apply]
  -- the operand of the scatter is the zero array
  have hx0 : broadcastInDim Cert.ReferenceIdeal.S512x128 ![] Cert.ReferenceIdeal.Facts₀.bcast_S_S512x128
      (constant (F := Ideal) Cert.ReferenceIdeal.S_ .f32 0x00000000#32) (ix2 g h) = 0 :=
    (broadcastInDim_apply _ _ _ (ix2 g h) ix0 (fun a => a.elim0)).trans Ideal.ofBits_zero_f32
  rw [hx0, zero_add]
  -- the scatter indices are the labels, one per row
  have hidx : ∀ n : Fin 50000, broadcastInDim Cert.ReferenceIdeal.S50000x1 ![0]
      Cert.ReferenceIdeal.Facts₀.bcast_S50000_S50000x1_0 batch (ix2 n 0) = batch (ix1 n) := fun n =>
    broadcastInDim_apply _ _ batch (ix2 n 0) (ix1 n) (fun a => by match a with | ⟨0, _⟩ => rfl)
  simp only [hidx]
  -- the left side, row by row; the padding rows vanish
  show ∑ n : Fin 50048, (if gid (ix2 g 0) = bp (ix2 0 n) then nap (ix2 n h) else 0) = _
  refine sum_padded (by norm_num) _ _ (fun n hn => ?_) (fun n hn => ?_)
  · rw [hgid, hb n hn, hna n h hn]
    simp only [ofNat_eq_iff_toInt g.val g.isLt]
  · rw [hna0 n h hn, ite_self]

/-! ## The padded arrays the kernel's host operations build -/

/-- The features padded by 48 zero rows: a row below 50000 is the operand's row. -/
theorem padRows_inside (na : Vec Ideal Cert.ReferenceIdeal.S50000x128 .f32) (v : FVec Ideal Cert.KernelIdeal.S_ .f32)
    (n : Fin 50048) (h : Fin 128) (hn : n.val < 50000) :
    pad Cert.KernelIdeal.S50048x128 ![0, 0] ![48, 0] ![0, 0] na v
        Cert.KernelIdeal.Facts₀.pads_S50000x128_S50048x128_0480_000 Cert.KernelIdeal.Facts₀.h_S_ (ix2 n h)
      = na (ix2 ⟨n.val, hn⟩ h) :=
  pad_apply_of_inside _ _ _ na v _ _ (ix2 n h) (ix2 ⟨n.val, hn⟩ h) (fun a => by
    match a with
    | ⟨0, _⟩ => show n.val = 0 + n.val * (0 + 1); omega
    | ⟨1, _⟩ => show h.val = 0 + h.val * (0 + 1); omega)

/-- … and a row from 50000 on is the padding value. -/
theorem padRows_outside (na : Vec Ideal Cert.ReferenceIdeal.S50000x128 .f32) (v : FVec Ideal Cert.KernelIdeal.S_ .f32)
    (n : Fin 50048) (h : Fin 128) (hn : 50000 ≤ n.val) :
    pad Cert.KernelIdeal.S50048x128 ![0, 0] ![48, 0] ![0, 0] na v
        Cert.KernelIdeal.Facts₀.pads_S50000x128_S50048x128_0480_000 Cert.KernelIdeal.Facts₀.h_S_ (ix2 n h)
      = v (Shape.Idx.first Cert.KernelIdeal.Facts₀.h_S_) :=
  pad_apply_of_not_inside _ _ _ na v _ _ (ix2 n h) 0 (by
    rintro ⟨-, -, h3⟩
    have h3' : (n.val - 0) / (0 + 1) < 50000 := h3
    omega)

/-- The labels padded by 48 entries: an entry below 50000 is the operand's entry. -/
theorem padLabels_inside (batch : IVec Cert.ReferenceIdeal.S50000 32) (v : IVec Cert.KernelIdeal.S_ 32)
    (n : Fin 50048) (hn : n.val < 50000) :
    pad Cert.KernelIdeal.S50048 ![0] ![48] ![0] batch v
        Cert.KernelIdeal.Facts₀.pads_S50000_S50048_0480 Cert.KernelIdeal.Facts₀.h_S_ (ix1 n)
      = batch (ix1 ⟨n.val, hn⟩) :=
  pad_apply_of_inside _ _ _ batch v _ _ (ix1 n) (ix1 ⟨n.val, hn⟩) (fun a => by
    match a with
    | ⟨0, _⟩ => show n.val = 0 + n.val * (0 + 1); omega)

/-- … and an entry from 50000 on is the padding value. -/
theorem padLabels_outside (batch : IVec Cert.ReferenceIdeal.S50000 32) (v : IVec Cert.KernelIdeal.S_ 32)
    (n : Fin 50048) (hn : 50000 ≤ n.val) :
    pad Cert.KernelIdeal.S50048 ![0] ![48] ![0] batch v
        Cert.KernelIdeal.Facts₀.pads_S50000_S50048_0480 Cert.KernelIdeal.Facts₀.h_S_ (ix1 n)
      = v (Shape.Idx.first Cert.KernelIdeal.Facts₀.h_S_) :=
  pad_apply_of_not_inside _ _ _ batch v _ _ (ix1 n) 0 (by
    rintro ⟨-, -, h3⟩
    have h3' : (n.val - 0) / (0 + 1) < 50000 := h3
    omega)

/-- A vector of 50048 entries laid out as one row reads, at `(0, n)`, its entry `n`. -/
theorem rowOf_apply {α : Type} (x : Cert.KernelIdeal.S50048.Idx → α) (n : Fin 50048) :
    shapeCast Cert.KernelIdeal.S1x50048 x Cert.KernelIdeal.Facts₀.shapeCasts_S50048_S1x50048 (ix2 0 n) = x (ix1 n) :=
  shapeCast_apply x _ _ _ (by
    rw [Shape.rowMajor_val_two, Shape.rowMajor_val_one]
    show n.val = 0 * 50048 + n.val
    omega)

/-- A vector of 512 entries laid out as one column reads, at `(g, 0)`, its entry `g`. -/
theorem colOf_apply {α : Type} (x : Cert.KernelIdeal.S512.Idx → α) (g : Fin 512) :
    shapeCast Cert.KernelIdeal.S512x1 x Cert.KernelIdeal.Facts₀.shapeCasts_S512_S512x1 (ix2 g 0) = x (ix1 g) :=
  shapeCast_apply x _ _ _ (by
    rw [Shape.rowMajor_val_two, Shape.rowMajor_val_one]
    show g.val = g.val * 1 + 0
    omega)

/-! ## The instance at the kernel's host operations -/

/-- The kernel's padded features (48 rows of the zero word converted to a float), padded labels (48 entries of the
    word of −1) as one row, and the segment numbers 0 … 511 as one column, are padded arrays in the sense of
    `batchSum_core`. -/
theorem batchSum_eq (na : Vec Ideal Cert.ReferenceIdeal.S50000x128 .f32) (batch : IVec Cert.ReferenceIdeal.S50000 32) :
    Cert.Spec.batchSum
        (pad Cert.KernelIdeal.S50048x128 ![0, 0] ![48, 0] ![0, 0] na (sitofp (F := Ideal) .f32 (constantI Cert.KernelIdeal.S_ 32 0#32)) Cert.KernelIdeal.Facts₀.pads_S50000x128_S50048x128_0480_000 Cert.KernelIdeal.Facts₀.h_S_)
        (shapeCast Cert.KernelIdeal.S1x50048 (pad Cert.KernelIdeal.S50048 ![0] ![48] ![0] batch (constantI Cert.KernelIdeal.S_ 32 4294967295#32) Cert.KernelIdeal.Facts₀.pads_S50000_S50048_0480 Cert.KernelIdeal.Facts₀.h_S_) Cert.KernelIdeal.Facts₀.shapeCasts_S50048_S1x50048)
        (shapeCast Cert.KernelIdeal.S512x1 (iotaInDim Cert.KernelIdeal.S512 32 0) Cert.KernelIdeal.Facts₀.shapeCasts_S512_S512x1)
      = Host.scatterAdd (F := Ideal) Cert.ReferenceIdeal.scatter_S512x128_S50000x1_S50000x128_1_0_0_1
          (broadcastInDim Cert.ReferenceIdeal.S512x128 ![] Cert.ReferenceIdeal.Facts₀.bcast_S_S512x128 (constant (F := Ideal) Cert.ReferenceIdeal.S_ .f32 0x00000000#32))
          (broadcastInDim Cert.ReferenceIdeal.S50000x1 ![0] Cert.ReferenceIdeal.Facts₀.bcast_S50000_S50000x1_0 batch) na := by
  refine batchSum_core na batch _ _ _ (fun n h hn => padRows_inside na _ n h hn) (fun n h hn => ?_)
    (fun n hn => ?_) (fun n hn => ?_) (fun g => ?_)
  · -- the padding value of the features: the zero word read as a signed integer is 0
    refine (padRows_outside na _ n h hn).trans ?_
    show (((0#32 : BitVec 32).toInt : ℝ) : EReal) = 0
    simp
  · exact (rowOf_apply _ n).trans (padLabels_inside batch _ n hn)
  · exact (rowOf_apply _ n).trans (padLabels_outside batch _ n hn)
  · exact (colOf_apply _ g).trans rfl

end Cert.Bridge
end
-- ==== Proof.KernelValue.lean ====
/-
  What the idealized kernel's @main leaves in its result buffer, read back through its fourteen segments.

  The contents of the TensorCore's buffers at each segment boundary are a fold from the launch memory: a host stretch
  applies its operations, a pallas_call replaces its output array by what its grid writes back. Reading the fold at the
  buffers each later segment consumes gives, boundary by boundary, every intermediate array as a function of the eight
  arguments. The host operations (the two index normalisations, the gathers, the segment sums over the destination node,
  the slices of the weights) are the reference's own, so each intermediate is stated as the reference's stage at the same
  arguments; the four dense stages the kernel computes in pallas_calls meet the reference's by the laws
  `edgeProj_eq` (a product with a concatenation splits at the seam), `edgeUpd_eq`, `nodeProj_eq` and `batchSum_eq`
  (a product with a one-hot matrix over padded rows is the segment sum).
-/
import proofs.«405290_j57243324121245_1_alg».proof.Proof.Gen.KernelIdeal.Frame
import proofs.«405290_j57243324121245_1_alg».proof.Proof.RefRead
import proofs.«405290_j57243324121245_1_alg».proof.Proof.Region0
import proofs.«405290_j57243324121245_1_alg».proof.Proof.Region1
import proofs.«405290_j57243324121245_1_alg».proof.Proof.Region2
import proofs.«405290_j57243324121245_1_alg».proof.Proof.Region3
import proofs.«405290_j57243324121245_1_alg».proof.Proof.Region4
import proofs.«405290_j57243324121245_1_alg».proof.Proof.EdgeProjEq
import proofs.«405290_j57243324121245_1_alg».proof.Proof.EdgeUpdEq
import proofs.«405290_j57243324121245_1_alg».proof.Proof.NodeProjEq
import proofs.«405290_j57243324121245_1_alg».proof.Proof.BatchSumEq
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Cert.ReferenceIdeal.ReadH

variable (m : (ℓ : Loc nD τ sig) → Buf (Elt Ideal) ℓ) (ρ : Dev nD → PrngReg)

/-! ## The eight arguments on core `c` -/

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)

/-- A buffer that no operation of a host stretch writes holds after the stretch what it held before. -/
macro "keep_host" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## After the first host stretch: the normalised source and destination indices, the gathered node features, the two
    slices of the first weight matrix -/

set_option maxHeartbeats 16000000 in
theorem w1_v1 (c : Dev nD) : W1 m ρ c (Proc.devRef .tc main_v1) = val_main_v1 (F := Ideal) (a5 m c) := by
  show StableHlo.after hostOps0 (W0 m ρ c) (Proc.devRef .tc main_v1) = _
  after_results; rfl
set_option maxHeartbeats 16000000 in
theorem w1_v3 (c : Dev nD) : W1 m ρ c (Proc.devRef .tc main_v3) = val_main_v3 (F := Ideal) (a5 m c) := by
  show StableHlo.after hostOps0 (W0 m ρ c) (Proc.devRef .tc main_v3) = _
  after_results; rfl
set_option maxHeartbeats 16000000 in
theorem w1_v10 (c : Dev nD) : W1 m ρ c (Proc.devRef .tc main_v10) = val_main_v10 (F := Ideal) (a0 m c) (a5 m c) := by
  show StableHlo.after hostOps0 (W0 m ρ c) (Proc.devRef .tc main_v10) = _
  after_results; rfl
theorem w1_v11 (c : Dev nD) : W1 m ρ c (Proc.devRef .tc main_v11)
    = extractStridedSlice S133x128 ![0, 0] (a2 m c) slices_S147x128_S133x128_0_0 := by
  show StableHlo.after hostOps0 (W0 m ρ c) (Proc.devRef .tc main_v11) = _
  after_results
theorem w1_v12 (c : Dev nD) : W1 m ρ c (Proc.devRef .tc main_v12)
    = extractStridedSlice S14x128 ![133, 0] (a2 m c) slices_S147x128_S14x128_133_0 := by
  show StableHlo.after hostOps0 (W0 m ρ c) (Proc.devRef .tc main_v12) = _
  after_results
theorem w1_arg0 (c : Dev nD) : W1 m ρ c (Proc.devRef .tc main_arg0) = a0 m c := by keep_host hostOps0
theorem w1_arg1 (c : Dev nD) : W1 m ρ c (Proc.devRef .tc main_arg1) = a1 m c := by keep_host hostOps0
theorem w1_arg3 (c : Dev nD) : W1 m ρ c (Proc.devRef .tc main_arg3) = a3 m c := by keep_host hostOps0
theorem w1_arg4 (c : Dev nD) : W1 m ρ c (Proc.devRef .tc main_arg4) = a4 m c := by keep_host hostOps0
theorem w1_arg6 (c : Dev nD) : W1 m ρ c (Proc.devRef .tc main_arg6) = a6 m c := by keep_host hostOps0
theorem w1_arg7 (c : Dev nD) : W1 m ρ c (Proc.devRef .tc main_arg7) = a7 m c := by keep_host hostOps0

/-! ## After pallas_call 0: the initial messages `h0 = max ([x[src] ‖ e] · W1) 0` -/
theorem w2_v13 (c : Dev nD) : W2 m ρ c (Proc.devRef .tc main_v13) = val_main_v13 (F := Ideal) (a0 m c) (a1 m c) (a2 m c) (a5 m c) := by
  refine (W2_arr m ρ c 4).trans ((region0_value (V1 m ρ) c).trans ?_)
  rw [show V1 m ρ c main_v10 = _ from w1_v10 m ρ c, show V1 m ρ c main_arg1 = _ from w1_arg1 m ρ c,
    show V1 m ρ c main_v11 = _ from w1_v11 m ρ c, show V1 m ρ c main_v12 = _ from w1_v12 m ρ c]
  rw [Cert.Bridge.edgeProj_eq]
  rfl
theorem w2_v1 (c : Dev nD) : W2 m ρ c (Proc.devRef .tc main_v1) = val_main_v1 (F := Ideal) (a5 m c) :=
  (W2_of_ne m ρ c main_v1 (by decide)).trans (w1_v1 m ρ c)
theorem w2_v3 (c : Dev nD) : W2 m ρ c (Proc.devRef .tc main_v3) = val_main_v3 (F := Ideal) (a5 m c) :=
  (W2_of_ne m ρ c main_v3 (by decide)).trans (w1_v3 m ρ c)
theorem w2_arg0 (c : Dev nD) : W2 m ρ c (Proc.devRef .tc main_arg0) = a0 m c :=
  (W2_of_ne m ρ c main_arg0 (by decide)).trans (w1_arg0 m ρ c)
theorem w2_arg3 (c : Dev nD) : W2 m ρ c (Proc.devRef .tc main_arg3) = a3 m c :=
  (W2_of_ne m ρ c main_arg3 (by decide)).trans (w1_arg3 m ρ c)
theorem w2_arg4 (c : Dev nD) : W2 m ρ c (Proc.devRef .tc main_arg4) = a4 m c :=
  (W2_of_ne m ρ c main_arg4 (by decide)).trans (w1_arg4 m ρ c)
theorem w2_arg6 (c : Dev nD) : W2 m ρ c (Proc.devRef .tc main_arg6) = a6 m c :=
  (W2_of_ne m ρ c main_arg6 (by decide)).trans (w1_arg6 m ρ c)
theorem w2_arg7 (c : Dev nD) : W2 m ρ c (Proc.devRef .tc main_arg7) = a7 m c :=
  (W2_of_ne m ρ c main_arg7 (by decide)).trans (w1_arg7 m ρ c)
/-! ## After the second host stretch: the incoming sums at the source node and the reverse edge's message -/
set_option maxHeartbeats 16000000 in
theorem w3_v23 (c : Dev nD) : W3 m ρ c (Proc.devRef .tc main_v23) = val_main_v23 (F := Ideal) (a0 m c) (a1 m c) (a2 m c) (a5 m c) := by
  show StableHlo.after hostOps1 (W2 m ρ c) (Proc.devRef .tc main_v23) = _
  after_results
  rw [w2_v13 m ρ c, w2_v3 m ρ c, w2_v1 m ρ c]
  rfl
set_option maxHeartbeats 16000000 in
theorem w3_v30 (c : Dev nD) : W3 m ρ c (Proc.devRef .tc main_v30) = val_main_v30 (F := Ideal) (a0 m c) (a1 m c) (a2 m c) (a5 m c) (a6 m c) := by
  show StableHlo.after hostOps1 (W2 m ρ c) (Proc.devRef .tc main_v30) = _
  after_results
  rw [w2_v13 m ρ c, w2_arg6 m ρ c]
  rfl
theorem w3_v13 (c : Dev nD) : W3 m ρ c (Proc.devRef .tc main_v13) = val_main_v13 (F := Ideal) (a0 m c) (a1 m c) (a2 m c) (a5 m c) :=
  (show W3 m ρ c (Proc.devRef .tc main_v13) = W2 m ρ c (Proc.devRef .tc main_v13) by keep_host hostOps1).trans (w2_v13 m ρ c)
theorem w3_v1 (c : Dev nD) : W3 m ρ c (Proc.devRef .tc main_v1) = val_main_v1 (F := Ideal) (a5 m c) :=
  (show W3 m ρ c (Proc.devRef .tc main_v1) = W2 m ρ c (Proc.devRef .tc main_v1) by keep_host hostOps1).trans (w2_v1 m ρ c)
theorem w3_v3 (c : Dev nD) : W3 m ρ c (Proc.devRef .tc main_v3) = val_main_v3 (F := Ideal) (a5 m c) :=
  (show W3 m ρ c (Proc.devRef .tc main_v3) = W2 m ρ c (Proc.devRef .tc main_v3) by keep_host hostOps1).trans (w2_v3 m ρ c)
theorem w3_arg0 (c : Dev nD) : W3 m ρ c (Proc.devRef .tc main_arg0) = a0 m c :=
  (show W3 m ρ c (Proc.devRef .tc main_arg0) = W2 m ρ c (Proc.devRef .tc main_arg0) by keep_host hostOps1).trans (w2_arg0 m ρ c)
theorem w3_arg3 (c : Dev nD) : W3 m ρ c (Proc.devRef .tc main_arg3) = a3 m c :=
  (show W3 m ρ c (Proc.devRef .tc main_arg3) = W2 m ρ c (Proc.devRef .tc main_arg3) by keep_host hostOps1).trans (w2_arg3 m ρ c)
theorem w3_arg4 (c : Dev nD) : W3 m ρ c (Proc.devRef .tc main_arg4) = a4 m c :=
  (show W3 m ρ c (Proc.devRef .tc main_arg4) = W2 m ρ c (Proc.devRef .tc main_arg4) by keep_host hostOps1).trans (w2_arg4 m ρ c)
theorem w3_arg6 (c : Dev nD) : W3 m ρ c (Proc.devRef .tc main_arg6) = a6 m c :=
  (show W3 m ρ c (Proc.devRef .tc main_arg6) = W2 m ρ c (Proc.devRef .tc main_arg6) by keep_host hostOps1).trans (w2_arg6 m ρ c)
theorem w3_arg7 (c : Dev nD) : W3 m ρ c (Proc.devRef .tc main_arg7) = a7 m c :=
  (show W3 m ρ c (Proc.devRef .tc main_arg7) = W2 m ρ c (Proc.devRef .tc main_arg7) by keep_host hostOps1).trans (w2_arg7 m ρ c)
/-! ## After pallas_call 1: the first update `max (h0 + (node_in[src] − h[rev]) · W2) 0` -/
theorem w4_v31 (c : Dev nD) : W4 m ρ c (Proc.devRef .tc main_v31) = val_main_v34 (F := Ideal) (a0 m c) (a1 m c) (a2 m c) (a3 m c) (a5 m c) (a6 m c) := by
  refine (W4_arr m ρ c 4).trans ((region1_value (V3 m ρ) c).trans ?_)
  rw [show V3 m ρ c main_v23 = _ from w3_v23 m ρ c, show V3 m ρ c main_v30 = _ from w3_v30 m ρ c,
    show V3 m ρ c main_v13 = _ from w3_v13 m ρ c, show V3 m ρ c main_arg3 = _ from w3_arg3 m ρ c]
  rw [Cert.Bridge.edgeUpd_eq]
  rfl
theorem w4_v13 (c : Dev nD) : W4 m ρ c (Proc.devRef .tc main_v13) = val_main_v13 (F := Ideal) (a0 m c) (a1 m c) (a2 m c) (a5 m c) :=
  ((W4_arr m ρ c 2).trans (((dat1 (V3 m ρ) c).arrAt_in 2 rfl _).trans (A_eq1 (V3 m ρ) c 2))).trans (w3_v13 m ρ c)
theorem w4_arg3 (c : Dev nD) : W4 m ρ c (Proc.devRef .tc main_arg3) = a3 m c :=
  ((W4_arr m ρ c 3).trans (((dat1 (V3 m ρ) c).arrAt_in 3 rfl _).trans (A_eq1 (V3 m ρ) c 3))).trans (w3_arg3 m ρ c)
theorem w4_v1 (c : Dev nD) : W4 m ρ c (Proc.devRef .tc main_v1) = val_main_v1 (F := Ideal) (a5 m c) :=
  (W4_of_ne m ρ c main_v1 (by decide)).trans (w3_v1 m ρ c)
theorem w4_v3 (c : Dev nD) : W4 m ρ c (Proc.devRef .tc main_v3) = val_main_v3 (F := Ideal) (a5 m c) :=
  (W4_of_ne m ρ c main_v3 (by decide)).trans (w3_v3 m ρ c)
theorem w4_arg0 (c : Dev nD) : W4 m ρ c (Proc.devRef .tc main_arg0) = a0 m c :=
  (W4_of_ne m ρ c main_arg0 (by decide)).trans (w3_arg0 m ρ c)
theorem w4_arg4 (c : Dev nD) : W4 m ρ c (Proc.devRef .tc main_arg4) = a4 m c :=
  (W4_of_ne m ρ c main_arg4 (by decide)).trans (w3_arg4 m ρ c)
theorem w4_arg6 (c : Dev nD) : W4 m ρ c (Proc.devRef .tc main_arg6) = a6 m c :=
  (W4_of_ne m ρ c main_arg6 (by decide)).trans (w3_arg6 m ρ c)
theorem w4_arg7 (c : Dev nD) : W4 m ρ c (Proc.devRef .tc main_arg7) = a7 m c :=
  (W4_of_ne m ρ c main_arg7 (by decide)).trans (w3_arg7 m ρ c)
/-! ## After the third host stretch -/
set_option maxHeartbeats 16000000 in
theorem w5_v41 (c : Dev nD) : W5 m ρ c (Proc.devRef .tc main_v41) = val_main_v44 (F := Ideal) (a0 m c) (a1 m c) (a2 m c) (a3 m c) (a5 m c) (a6 m c) := by
  show StableHlo.after hostOps2 (W4 m ρ c) (Proc.devRef .tc main_v41) = _
  after_results
  rw [w4_v31 m ρ c, w4_v3 m ρ c, w4_v1 m ρ c]
  rfl
set_option maxHeartbeats 16000000 in
theorem w5_v48 (c : Dev nD) : W5 m ρ c (Proc.devRef .tc main_v48) = val_main_v51 (F := Ideal) (a0 m c) (a1 m c) (a2 m c) (a3 m c) (a5 m c) (a6 m c) := by
  show StableHlo.after hostOps2 (W4 m ρ c) (Proc.devRef .tc main_v48) = _
  after_results
  rw [w4_v31 m ρ c, w4_arg6 m ρ c]
  rfl
theorem w5_v13 (c : Dev nD) : W5 m ρ c (Proc.devRef .tc main_v13) = val_main_v13 (F := Ideal) (a0 m c) (a1 m c) (a2 m c) (a5 m c) :=
  (show W5 m ρ c (Proc.devRef .tc main_v13) = W4 m ρ c (Proc.devRef .tc main_v13) by keep_host hostOps2).trans (w4_v13 m ρ c)
theorem w5_v3 (c : Dev nD) : W5 m ρ c (Proc.devRef .tc main_v3) = val_main_v3 (F := Ideal) (a5 m c) :=
  (show W5 m ρ c (Proc.devRef .tc main_v3) = W4 m ρ c (Proc.devRef .tc main_v3) by keep_host hostOps2).trans (w4_v3 m ρ c)
theorem w5_arg0 (c : Dev nD) : W5 m ρ c (Proc.devRef .tc main_arg0) = a0 m c :=
  (show W5 m ρ c (Proc.devRef .tc main_arg0) = W4 m ρ c (Proc.devRef .tc main_arg0) by keep_host hostOps2).trans (w4_arg0 m ρ c)
theorem w5_arg3 (c : Dev nD) : W5 m ρ c (Proc.devRef .tc main_arg3) = a3 m c :=
  (show W5 m ρ c (Proc.devRef .tc main_arg3) = W4 m ρ c (Proc.devRef .tc main_arg3) by keep_host hostOps2).trans (w4_arg3 m ρ c)
theorem w5_arg4 (c : Dev nD) : W5 m ρ c (Proc.devRef .tc main_arg4) = a4 m c :=
  (show W5 m ρ c (Proc.devRef .tc main_arg4) = W4 m ρ c (Proc.devRef .tc main_arg4) by keep_host hostOps2).trans (w4_arg4 m ρ c)
theorem w5_arg7 (c : Dev nD) : W5 m ρ c (Proc.devRef .tc main_arg7) = a7 m c :=
  (show W5 m ρ c (Proc.devRef .tc main_arg7) = W4 m ρ c (Proc.devRef .tc main_arg7) by keep_host hostOps2).trans (w4_arg7 m ρ c)
/-! ## After pallas_call 2: the second update -/
theorem w6_v49 (c : Dev nD) : W6 m ρ c (Proc.devRef .tc main_v49) = val_main_v55 (F := Ideal) (a0 m c) (a1 m c) (a2 m c) (a3 m c) (a5 m c) (a6 m c) := by
  refine (W6_arr m ρ c 4).trans ((region2_value (V5 m ρ) c).trans ?_)
  rw [show V5 m ρ c main_v41 = _ from w5_v41 m ρ c, show V5 m ρ c main_v48 = _ from w5_v48 m ρ c,
    show V5 m ρ c main_v13 = _ from w5_v13 m ρ c, show V5 m ρ c main_arg3 = _ from w5_arg3 m ρ c]
  rw [Cert.Bridge.edgeUpd_eq]
  rfl
theorem w6_v3 (c : Dev nD) : W6 m ρ c (Proc.devRef .tc main_v3) = val_main_v3 (F := Ideal) (a5 m c) :=
  (W6_of_ne m ρ c main_v3 (by decide)).trans (w5_v3 m ρ c)
theorem w6_arg0 (c : Dev nD) : W6 m ρ c (Proc.devRef .tc main_arg0) = a0 m c :=
  (W6_of_ne m ρ c main_arg0 (by decide)).trans (w5_arg0 m ρ c)
theorem w6_arg4 (c : Dev nD) : W6 m ρ c (Proc.devRef .tc main_arg4) = a4 m c :=
  (W6_of_ne m ρ c main_arg4 (by decide)).trans (w5_arg4 m ρ c)
theorem w6_arg7 (c : Dev nD) : W6 m ρ c (Proc.devRef .tc main_arg7) = a7 m c :=
  (W6_of_ne m ρ c main_arg7 (by decide)).trans (w5_arg7 m ρ c)
/-! ## After the fourth host stretch: the messages summed at each node, the two slices of the third weight matrix -/
set_option maxHeartbeats 16000000 in
theorem w7_v52 (c : Dev nD) : W7 m ρ c (Proc.devRef .tc main_v52) = val_main_v58 (F := Ideal) (a0 m c) (a1 m c) (a2 m c) (a3 m c) (a5 m c) (a6 m c) := by
  show StableHlo.after hostOps3 (W6 m ρ c) (Proc.devRef .tc main_v52) = _
  after_results
  rw [w6_v49 m ρ c, w6_v3 m ρ c]
  rfl
theorem w7_v53 (c : Dev nD) : W7 m ρ c (Proc.devRef .tc main_v53)
    = extractStridedSlice S133x128 ![0, 0] (a4 m c) slices_S261x128_S133x128_0_0 := by
  show StableHlo.after hostOps3 (W6 m ρ c) (Proc.devRef .tc main_v53) = _
  after_results
  rw [w6_arg4 m ρ c]
theorem w7_v54 (c : Dev nD) : W7 m ρ c (Proc.devRef .tc main_v54)
    = extractStridedSlice S128x128 ![133, 0] (a4 m c) slices_S261x128_S128x128_133_0 := by
  show StableHlo.after hostOps3 (W6 m ρ c) (Proc.devRef .tc main_v54) = _
  after_results
  rw [w6_arg4 m ρ c]
theorem w7_arg0 (c : Dev nD) : W7 m ρ c (Proc.devRef .tc main_arg0) = a0 m c :=
  (show W7 m ρ c (Proc.devRef .tc main_arg0) = W6 m ρ c (Proc.devRef .tc main_arg0) by keep_host hostOps3).trans (w6_arg0 m ρ c)
theorem w7_arg7 (c : Dev nD) : W7 m ρ c (Proc.devRef .tc main_arg7) = a7 m c :=
  (show W7 m ρ c (Proc.devRef .tc main_arg7) = W6 m ρ c (Proc.devRef .tc main_arg7) by keep_host hostOps3).trans (w6_arg7 m ρ c)
/-! ## After pallas_call 3: the node attributes `max ([x ‖ v_msg] · W3) 0` -/
theorem w8_v55 (c : Dev nD) : W8 m ρ c (Proc.devRef .tc main_v55) = val_main_v61 (F := Ideal) (a0 m c) (a1 m c) (a2 m c) (a3 m c) (a4 m c) (a5 m c) (a6 m c) := by
  refine (W8_arr m ρ c 4).trans ((region3_value (V7 m ρ) c).trans ?_)
  rw [show V7 m ρ c main_arg0 = _ from w7_arg0 m ρ c, show V7 m ρ c main_v52 = _ from w7_v52 m ρ c,
    show V7 m ρ c main_v53 = _ from w7_v53 m ρ c, show V7 m ρ c main_v54 = _ from w7_v54 m ρ c]
  rw [Cert.Bridge.nodeProj_eq]
  rfl
theorem w8_arg7 (c : Dev nD) : W8 m ρ c (Proc.devRef .tc main_arg7) = a7 m c :=
  (W8_of_ne m ρ c main_arg7 (by decide)).trans (w7_arg7 m ρ c)
/-! ## The five short stretches before the last pallas_call: the node attributes and the labels padded from 50000 to 50048 rows
    (zero rows, label −1), the labels as a row, the 512 segment identifiers as a column -/
theorem w13_v56 (c : Dev nD) : W13 m ρ c (Proc.devRef .tc main_v56)
    = pad S50048x128 ![0, 0] ![48, 0] ![0, 0] (val_main_v61 (F := Ideal) (a0 m c) (a1 m c) (a2 m c) (a3 m c) (a4 m c) (a5 m c) (a6 m c)) (sitofp (F := Ideal) .f32 (constantI S_ 32 0#32)) pads_S50000x128_S50048x128_0480_000 h_S_ := by
  have h : W13 m ρ c (Proc.devRef .tc main_v56)
      = pad S50048x128 ![0, 0] ![48, 0] ![0, 0] (W8 m ρ c (Proc.devRef .tc main_v55)) (sitofp (F := Ideal) .f32 (constantI S_ 32 0#32)) pads_S50000x128_S50048x128_0480_000 h_S_ := by
    show StableHlo.after hostOps4_4 (W12 m ρ c) (Proc.devRef .tc main_v56) = _
    after_results; rfl
  rw [h, w8_v55 m ρ c]
theorem w13_v58 (c : Dev nD) : W13 m ρ c (Proc.devRef .tc main_v58)
    = shapeCast S1x50048 (pad S50048 ![0] ![48] ![0] (a7 m c) (constantI S_ 32 4294967295#32) pads_S50000_S50048_0480 h_S_) shapeCasts_S50048_S1x50048 := by
  have h : W13 m ρ c (Proc.devRef .tc main_v58)
      = shapeCast S1x50048 (pad S50048 ![0] ![48] ![0] (W8 m ρ c (Proc.devRef .tc main_arg7)) (constantI S_ 32 4294967295#32) pads_S50000_S50048_0480 h_S_) shapeCasts_S50048_S1x50048 := by
    show StableHlo.after hostOps4_4 (W12 m ρ c) (Proc.devRef .tc main_v58) = _
    after_results; rfl
  rw [h, w8_arg7 m ρ c]
theorem w13_v60 (c : Dev nD) : W13 m ρ c (Proc.devRef .tc main_v60)
    = shapeCast S512x1 (iotaInDim S512 32 0) shapeCasts_S512_S512x1 := by
  show StableHlo.after hostOps4_4 (W12 m ρ c) (Proc.devRef .tc main_v60) = _
  after_results; rfl
/-! ## After the last pallas_call: the per-graph sums — the reference's result stage -/
theorem w14_v61 (c : Dev nD) : W14 m ρ c (Proc.devRef .tc main_v61)
    = val_main_v64 (F := Ideal) (a0 m c) (a1 m c) (a2 m c) (a3 m c) (a4 m c) (a5 m c) (a6 m c) (a7 m c) := by
  refine (W14_arr m ρ c 3).trans ((region4_value (V13 m ρ) c).trans ?_)
  rw [show V13 m ρ c main_v56 = _ from w13_v56 m ρ c, show V13 m ρ c main_v58 = _ from w13_v58 m ρ c,
    show V13 m ρ c main_v60 = _ from w13_v60 m ρ c]
  rw [Cert.Bridge.batchSum_eq]
  rfl

end Cert.KernelIdeal.Val

end
-- ==== Proof.lean ====
/-
  A directed message-passing network over a graph of 50000 nodes and 800000 directed edges, three rounds deep,
  against its jnp reference, equal over the extended reals.

  Both programs gather node features at each edge's source, sum messages at each edge's destination, gather the sums
  back at the sources and the messages at the reverse edges: those host operations are the same on both sides. They differ
  in the four dense stages. The kernel multiplies `[x[src] ‖ e]` by the two halves of `W1` separately and adds, where the
  reference concatenates and multiplies once; likewise for `[x ‖ v_msg]` and `W3`; the message update
  `max (h0 + (node_in[src] − h[rev]) · W2) 0` is computed blockwise by a pallas_call; and the final sum over the nodes of
  each graph is a product with a one-hot matrix of the labels, accumulated over seventeen blocks of padded rows, where the
  reference scatters and adds. At `Ideal` a change of float format is the identity and every product is an exact sum, so
  each pair agrees by re-association of finite sums alone; no finiteness of the inputs is used.

  `Val.run_value` is the kernel's run with its result array named, `Val.w14_v61` reads that array back as the
  reference's last stage at the same arguments, and the reference's own run ends at that stage.
-/
import proofs.«405290_j57243324121245_1_alg».proof.Defs
import proofs.«405290_j57243324121245_1_alg».proof.Proof.Gen.Kernel
import proofs.«405290_j57243324121245_1_alg».proof.Proof.Gen.Kernel.Skeleton
import proofs.«405290_j57243324121245_1_alg».proof.Proof.Gen.Kernel.Launch
import proofs.«405290_j57243324121245_1_alg».proof.Proof.Gen.Kernel.Points
import proofs.«405290_j57243324121245_1_alg».proof.Proof.Gen.Kernel.Frame
import proofs.«405290_j57243324121245_1_alg».proof.Proof.Gen.KernelIdeal
import proofs.«405290_j57243324121245_1_alg».proof.Proof.Gen.KernelIdeal.Skeleton
import proofs.«405290_j57243324121245_1_alg».proof.Proof.Gen.KernelIdeal.Launch
import proofs.«405290_j57243324121245_1_alg».proof.Proof.Gen.KernelIdeal.Points
import proofs.«405290_j57243324121245_1_alg».proof.Proof.Gen.KernelIdeal.Frame
import proofs.«405290_j57243324121245_1_alg».proof.Proof.Gen.ReferenceIdeal
import proofs.«405290_j57243324121245_1_alg».proof.Proof.RefRun
import proofs.«405290_j57243324121245_1_alg».proof.Proof.Gen.Pre_finite_inputs
import proofs.«405290_j57243324121245_1_alg».proof.Proof.Launch
import proofs.«405290_j57243324121245_1_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run (read back chunk by chunk), with the result dropped. -/
theorem frame_referenceIdeal : Cert.frame_ReferenceIdeal := fun m ρ _ =>
  (θ_run Cert.ReferenceIdeal.defs _ _).mono (fun _ h c => (h c).2) (Cert.ReferenceIdeal.RunStaged.run (F := Ideal) m ρ)

/-- The ideal pass rewrote nothing. -/
theorem preserves : Cert.preserves_Kernel_KernelIdeal := trivial

/-- From memories that agree on the eight arguments both programs end with the reference's last stage of those
    arguments in their result arrays. -/
theorem algebraic : Cert.algebraic_KernelIdeal_ReferenceIdeal := by
  intro m ρ m' ρ' _ hagree
  refine ⟨fun c => Cert.ReferenceIdeal.ReadH.val_main_v64 (F := Ideal) (Cert.KernelIdeal.Val.a0 m c) (Cert.KernelIdeal.Val.a1 m c)
    (Cert.KernelIdeal.Val.a2 m c) (Cert.KernelIdeal.Val.a3 m c) (Cert.KernelIdeal.Val.a4 m c) (Cert.KernelIdeal.Val.a5 m c)
    (Cert.KernelIdeal.Val.a6 m c) (Cert.KernelIdeal.Val.a7 m c), ?_, ?_⟩
  · exact (θ_run Cert.KernelIdeal.defs _ _).mono
      (fun r h c => ⟨(h c).1.trans (Cert.KernelIdeal.Val.w14_v61 m ρ c), (h c).2⟩)
      (Cert.KernelIdeal.Val.run_value (F := Ideal) m ρ)
  · refine (θ_run Cert.ReferenceIdeal.defs _ _).mono (fun r h c => ⟨(h c).1.trans ?_, (h c).2⟩)
      (Cert.ReferenceIdeal.RunStaged.run (F := Ideal) m' ρ')
    obtain ⟨h0, h1, h2, h3, h4, h5, h6, h7⟩ := hagree c
    rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
